-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x2 : Shape := ⟨2, ![1600000, 2]⟩
abbrev S256x128 : Shape := ⟨2, ![256, 128]⟩
abbrev S128 : Shape := ⟨1, ![128]⟩
abbrev S2x64 : Shape := ⟨2, ![2, 64]⟩
abbrev S64x128 : Shape := ⟨2, ![64, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x2 : S_.BroadcastsInDim S1600000x2 (![] : Fin 0 → Fin S1600000x2.rank)
  reducesTo_S1600000x2_S_d0_1 : S1600000x2.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S2x64 : S_.BroadcastsInDim S2x64 (![] : Fin 0 → Fin S2x64.rank)
  reducesTo_S2x64_S_d0_1 : S2x64.ReducesTo [0, 1] S_
  bcast_S_S64x128 : S_.BroadcastsInDim S64x128 (![] : Fin 0 → Fin S64x128.rank)
  reducesTo_S64x128_S_d0_1 : S64x128.ReducesTo [0, 1] S_

variable [Facts]

def fn_part2 {F : FTy → Type} [FloatOps F] (main_arg8 : FVec F S64x128 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  main_v38

def fn_part1 {F : FTy → Type} [FloatOps F] (main_arg5 : FVec F S128 .f32) (main_arg6 : FVec F S128 .f32) (main_arg7 : FVec F S2x64 .f32) (main_arg8 : FVec F S64x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S2x64 .f32 := Host.absf main_arg7
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000x2 .f32) (main_arg3 : FVec F S256x128 .f32) (main_arg4 : FVec F S128 .f32) (main_arg5 : FVec F S128 .f32) (main_arg6 : FVec F S128 .f32) (main_arg7 : FVec F S2x64 .f32) (main_arg8 : FVec F S64x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x2 .f32 := Host.absf main_arg2
  let main_cst_0 : FVec F S_ .f32 := constant S_ .f32 0x7F800000#32
  let main_v5 : FVec F S1600000x2 .f32 := broadcastInDim S1600000x2 ![] bcast_S_S1600000x2 main_cst_0
  let main_v6 : IVec S1600000x2 1 := cmpf .olt main_v4 main_v5
  let main_c_1 : IVec S_ 1 := constantI S_ 1 1#1
  let main_v7 : IVec S_ 1 := (fun x v => Host.reduce IntOp.andi x v reducesTo_S1600000x2_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000x2 : Shape := ⟨2, ![1600000, 2]⟩
abbrev S256x128 : Shape := ⟨2, ![256, 128]⟩
abbrev S128 : Shape := ⟨1, ![128]⟩
abbrev S2x64 : Shape := ⟨2, ![2, 64]⟩
abbrev S64x128 : Shape := ⟨2, ![64, 128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S100000x1 : Shape := ⟨2, ![100000, 1]⟩
abbrev S128x128 : Shape := ⟨2, ![128, 128]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 58
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x2, .f32⟩
  | .hbm, ⟨3, _⟩ => ⟨S256x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S2x64, .f32⟩
  | .hbm, ⟨8, _⟩ => ⟨S64x128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .i32⟩
  | .hbm, ⟨17, _⟩ => ⟨S1700000, .i32⟩
  | .hbm, ⟨18, _⟩ => ⟨S1700000, .i1⟩
  | .hbm, ⟨19, _⟩ => ⟨S_, .i32⟩
  | .hbm, ⟨20, _⟩ => ⟨S1700000, .i32⟩
  | .hbm, ⟨21, _⟩ => ⟨S1700000, .i32⟩
  | .hbm, ⟨22, _⟩ => ⟨S1700000, .i32⟩
  | .hbm, ⟨23, _⟩ => ⟨S1700000x1, .i32⟩
  | .hbm, ⟨24, _⟩ => ⟨S1700000x128, .f32⟩
  | .hbm, ⟨25, _⟩ => ⟨S_, .f32⟩
  | .hbm, ⟨26, _⟩ => ⟨S100000x128, .f32⟩
  | .hbm, ⟨27, _⟩ => ⟨S1700000x1, .i32⟩
  | .hbm, ⟨28, _⟩ => ⟨S100000x128, .f32⟩
  | .hbm, ⟨29, _⟩ => ⟨S_, .f32⟩
  | .hbm, ⟨30, _⟩ => ⟨S1700000x1, .f32⟩
  | .hbm, ⟨31, _⟩ => ⟨S_, .f32⟩
  | .hbm, ⟨32, _⟩ => ⟨S100000x1, .f32⟩
  | .hbm, ⟨33, _⟩ => ⟨S1700000x1, .i32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S128x128, .f32⟩
  | .hbm, ⟨39, _⟩ => ⟨S1x128, .f32⟩
  | .hbm, ⟨40, _⟩ => ⟨S100000x128, .f32⟩
  | .hbm, ⟨41, _⟩ => ⟨S1x128, .f32⟩
  | .hbm, ⟨42, _⟩ => ⟨S1x128, .f32⟩
  | .hbm, ⟨43, _⟩ => ⟨S_, .f32⟩
  | .hbm, ⟨44, _⟩ => ⟨S1x128, .f32⟩
  | .hbm, ⟨45, _⟩ => ⟨S1x128, .f32⟩
  | .hbm, ⟨46, _⟩ => ⟨S_, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S_, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26_0 : Ref sig .tc := ⟨.hbm, 40, rfl⟩
abbrev main_v26_1 : Ref sig .tc := ⟨.hbm, 41, rfl⟩
abbrev main_v26_2 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S_S100000x128 : S_.BroadcastsInDim S100000x128 (![] : Fin 0 → Fin S100000x128.rank)
  bcast_S_S1700000x1 : S_.BroadcastsInDim S1700000x1 (![] : Fin 0 → Fin S1700000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S256x128_S128x128_0_0 : S256x128.Slices ![0, 0] S128x128
  slices_S256x128_S128x128_128_0 : S256x128.Slices ![128, 0] S128x128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  reduces_S5000x128_S128 : S5000x128.Reduces [0] S128
  bcast_S_S1x128 : S_.BroadcastsInDim S1x128 (![] : Fin 0 → Fin S1x128.rank)
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S100000x1_S1700000x1_S1700000x1_1_0_0_1_wf : ScatterDims.WF S100000x1 S1700000x1 S1700000x1 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v26_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x2 : Shape := ⟨2, ![1600000, 2]⟩
abbrev S256x128 : Shape := ⟨2, ![256, 128]⟩
abbrev S128 : Shape := ⟨1, ![128]⟩
abbrev S2x64 : Shape := ⟨2, ![2, 64]⟩
abbrev S64x128 : Shape := ⟨2, ![64, 128]⟩
abbrev S1x1600000 : Shape := ⟨2, ![1, 1600000]⟩
abbrev S1600000 : Shape := ⟨1, ![1600000]⟩
abbrev S1600000x64 : Shape := ⟨2, ![1600000, 64]⟩
abbrev S_ : Shape := ⟨0, ![]⟩
abbrev S1600000x128 : Shape := ⟨2, ![1600000, 128]⟩
abbrev S100000 : Shape := ⟨1, ![100000]⟩
abbrev S1700000 : Shape := ⟨1, ![1700000]⟩
abbrev S1700000x1 : Shape := ⟨2, ![1700000, 1]⟩
abbrev S1700000x128 : Shape := ⟨2, ![1700000, 128]⟩
abbrev S100000x1 : Shape := ⟨2, ![100000, 1]⟩
abbrev S100000x256 : Shape := ⟨2, ![100000, 256]⟩
abbrev S1x128 : Shape := ⟨2, ![1, 128]⟩

abbrev nBuf : Space → Nat
  | .hbm => 105
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x2, .f32⟩
  | .hbm, ⟨3, _⟩ => ⟨S256x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S2x64, .f32⟩
  | .hbm, ⟨8, _⟩ => ⟨S64x128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S1600000x64, .f32⟩
  | .hbm, ⟨14, _⟩ => ⟨S_, .f32⟩
  | .hbm, ⟨15, _⟩ => ⟨S1600000x64, .f32⟩
  | .hbm, ⟨16, _⟩ => ⟨S1600000x64, .f32⟩
  | .hbm, ⟨17, _⟩ => ⟨S1600000x128, .f32⟩
  | .hbm, ⟨18, _⟩ => ⟨S100000, .i32⟩
  | .hbm, ⟨19, _⟩ => ⟨S1700000, .i32⟩
  | .hbm, ⟨20, _⟩ => ⟨S1700000, .i32⟩
  | .hbm, ⟨21, _⟩ => ⟨S_, .i32⟩
  | .hbm, ⟨22, _⟩ => ⟨S1700000, .i32⟩
  | .hbm, ⟨23, _⟩ => ⟨S1700000, .i1⟩
  | .hbm, ⟨24, _⟩ => ⟨S_, .i32⟩
  | .hbm, ⟨25, _⟩ => ⟨S1700000, .i32⟩
  | .hbm, ⟨26, _⟩ => ⟨S1700000, .i32⟩
  | .hbm, ⟨27, _⟩ => ⟨S1700000, .i32⟩
  | .hbm, ⟨28, _⟩ => ⟨S1700000x1, .i32⟩
  | .hbm, ⟨29, _⟩ => ⟨S1700000x128, .f32⟩
  | .hbm, ⟨30, _⟩ => ⟨S_, .f32⟩
  | .hbm, ⟨31, _⟩ => ⟨S100000x128, .f32⟩
  | .hbm, ⟨32, _⟩ => ⟨S1700000x1, .i32⟩
  | .hbm, ⟨33, _⟩ => ⟨S100000x128, .f32⟩
  | .hbm, ⟨34, _⟩ => ⟨S_, .f32⟩
  | .hbm, ⟨35, _⟩ => ⟨S1700000x1, .f32⟩
  | .hbm, ⟨36, _⟩ => ⟨S_, .f32⟩
  | .hbm, ⟨37, _⟩ => ⟨S100000x1, .f32⟩
  | .hbm, ⟨38, _⟩ => ⟨S1700000x1, .i32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S100000x256, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000, .f32⟩
  | .hbm, ⟨50, _⟩ => ⟨S100000x1, .f32⟩
  | .hbm, ⟨51, _⟩ => ⟨S100000x1, .f32⟩
  | .hbm, ⟨52, _⟩ => ⟨S_, .f32⟩
  | .hbm, ⟨53, _⟩ => ⟨S100000x1, .f32⟩
  | .hbm, ⟨54, _⟩ => ⟨S100000x1, .f32⟩
  | .hbm, ⟨55, _⟩ => ⟨S100000x128, .f32⟩
  | .hbm, ⟨56, _⟩ => ⟨S100000x128, .f32⟩
  | .hbm, ⟨57, _⟩ => ⟨S_, .f32⟩
  | .hbm, ⟨58, _⟩ => ⟨S128, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S_, .i32⟩
  | .hbm, ⟨63, _⟩ => ⟨S_, .f32⟩
  | .hbm, ⟨64, _⟩ => ⟨S128, .f32⟩
  | .hbm, ⟨65, _⟩ => ⟨S1x128, .f32⟩
  | .hbm, ⟨66, _⟩ => ⟨S_, .f32⟩
  | .hbm, ⟨67, _⟩ => ⟨S1x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S128, .f32⟩
  | .hbm, ⟨79, _⟩ => ⟨S_, .f32⟩
  | .hbm, ⟨80, _⟩ => ⟨S_, .i1⟩
  | .hbm, ⟨81, _⟩ => ⟨S_, .f32⟩
  | .hbm, ⟨82, _⟩ => ⟨S_, .f32⟩
  | .hbm, ⟨83, _⟩ => ⟨S128, .f32⟩
  | .hbm, ⟨84, _⟩ => ⟨S128, .f32⟩
  | .hbm, ⟨85, _⟩ => ⟨S1x128, .f32⟩
  | .hbm, ⟨86, _⟩ => ⟨S100000x128, .f32⟩
  | .hbm, ⟨87, _⟩ => ⟨S100000x128, .f32⟩
  | .hbm, ⟨88, _⟩ => ⟨S_, .f32⟩
  | .hbm, ⟨89, _⟩ => ⟨S128, .f32⟩
  | .hbm, ⟨90, _⟩ => ⟨S128, .f32⟩
  | .hbm, ⟨91, _⟩ => ⟨S128, .f32⟩
  | .hbm, ⟨92, _⟩ => ⟨S1x128, .f32⟩
  | .hbm, ⟨93, _⟩ => ⟨S100000x128, .f32⟩
  | .hbm, ⟨94, _⟩ => ⟨S100000x128, .f32⟩
  | .hbm, ⟨95, _⟩ => ⟨S1x128, .f32⟩
  | .hbm, ⟨96, _⟩ => ⟨S100000x128, .f32⟩
  | .hbm, ⟨97, _⟩ => ⟨S100000x128, .f32⟩
  | .hbm, ⟨98, _⟩ => ⟨S1x128, .f32⟩
  | .hbm, ⟨99, _⟩ => ⟨S100000x128, .f32⟩
  | .hbm, ⟨100, _⟩ => ⟨S100000x128, .f32⟩
  | .hbm, ⟨101, _⟩ => ⟨S100000x128, .f32⟩
  | .hbm, ⟨102, _⟩ => ⟨S_, .f32⟩
  | .hbm, ⟨103, _⟩ => ⟨S100000x128, .f32⟩
  | .hbm, ⟨104, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call0_v0 : Ref sig .tc := ⟨.hbm, 47, rfl⟩
abbrev main_call0_cst : Ref sig .tc := ⟨.hbm, 48, rfl⟩
abbrev main_call0_v1 : Ref sig .tc := ⟨.hbm, 49, rfl⟩
abbrev main_call0_v2 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_c_7 : Ref sig .tc := ⟨.hbm, 62, rfl⟩
abbrev main_call1_cst : Ref sig .tc := ⟨.hbm, 63, rfl⟩
abbrev main_call1_v0 : Ref sig .tc := ⟨.hbm, 64, rfl⟩
abbrev main_call1_v1 : Ref sig .tc := ⟨.hbm, 65, rfl⟩
abbrev main_call1_cst_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_cst_1 : Ref sig .tc := ⟨.hbm, 73, rfl⟩
abbrev main_call1_v8 : Ref sig .tc := ⟨.hbm, 74, rfl⟩
abbrev main_call1_cst_2 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_cst_3 : Ref sig .tc := ⟨.hbm, 79, rfl⟩
abbrev main_call1_v12 : Ref sig .tc := ⟨.hbm, 80, rfl⟩
abbrev main_call1_cst_4 : Ref sig .tc := ⟨.hbm, 81, rfl⟩
abbrev main_call1_call0_v0 : Ref sig .tc := ⟨.hbm, 82, rfl⟩
abbrev main_call1_call0_v1 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_cst_8 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_cst_9 : Ref sig .tc := ⟨.hbm, 102, rfl⟩
abbrev main_v57 : Ref sig .tc := ⟨.hbm, 103, rfl⟩
abbrev main_v58 : Ref sig .tc := ⟨.hbm, 104, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x64 : S_.BroadcastsInDim S1600000x64 (![] : Fin 0 → Fin S1600000x64.rank)
  concatenates_S1600000_S100000_S1700000_d0 : Shape.Concatenates [S1600000, S100000] S1700000 0
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S_S100000x128 : S_.BroadcastsInDim S100000x128 (![] : Fin 0 → Fin S100000x128.rank)
  bcast_S_S1700000x1 : S_.BroadcastsInDim S1700000x1 (![] : Fin 0 → Fin S1700000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  reducesTo_S100000x128_S128_d0 : S100000x128.ReducesTo [0] S128
  bcast_S_S128 : S_.BroadcastsInDim S128 (![] : Fin 0 → Fin S128.rank)
  bcast_S_S1x128 : S_.BroadcastsInDim S1x128 (![] : Fin 0 → Fin S1x128.rank)
  dot_S1600000x2_S2x64_S1600000x64_1_0_0_1_n_n_wf : DotDims.WF S1600000x2 S2x64 S1600000x64 [1] [0] [0] [1] [] []
  dot_S1600000x64_S64x128_S1600000x128_1_0_0_1_n_n_wf : DotDims.WF S1600000x64 S64x128 S1600000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S100000x1_S1700000x1_S1700000x1_1_0_0_1_wf : ScatterDims.WF S100000x1 S1700000x1 S1700000x1 [1] [0] [0] 1
  dot_S100000x256_S256x128_S100000x128_1_0_0_1_n_n_wf : DotDims.WF S100000x256 S256x128 S100000x128 [1] [0] [0] [1] [] []

variable [Facts₀]

def dot_S1600000x2_S2x64_S1600000x64_1_0_0_1_n_n : DotDims S1600000x2 S2x64 S1600000x64 where
  lhsContracting := [1]
  rhsContracting := [0]
  lhsNonContracting := [0]
  rhsNonContracting := [1]
  lhsBatch := []
  rhsBatch := []
  wf := dot_S1600000x2_S2x64_S1600000x64_1_0_0_1_n_n_wf
def dot_S1600000x64_S64x128_S1600000x128_1_0_0_1_n_n : DotDims S1600000x64 S64x128 S1600000x128 where
  lhsContracting := [1]
  rhsContracting := [0]
  lhsNonContracting := [0]
  rhsNonContracting := [1]
  lhsBatch := []
  rhsBatch := []
  wf := dot_S1600000x64_S64x128_S1600000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.Spec.lean ====
/-
  The two programs' results as functions of their arrays, index by index, on the extended reals.

  A node's update is a linear layer on the node's features beside the mean of its in-neighbours' features
  (self loop included), normalised to unit Euclidean length along the feature axis, then batch-normalised
  over the nodes with the batch's own mean and (biased) variance, added to the input and clipped at zero.

  The kernel side splits the linear layer into two products of 128 columns each and takes the variance as
  the mean of the squares minus the square of the mean; the reference multiplies the concatenated row by
  the whole weight and takes the variance as the mean of the squared deviations. Both are stated here.
-/
import Idealize.ShloMosaic.PureOps.Ideal
import Idealize.ShloMosaic.Lib.ValueIdx

noncomputable section

namespace Cert.Spec

open Idealize.ShloMosaic Idealize.ShloMosaic.ValueIdx

/-- A matrix of extended reals, indexed as the printed programs index a rank-2 array. -/
abbrev E2 (n k : ℕ) : Type := (⟨2, ![n, k]⟩ : Shape).Idx → EReal
/-- A vector of extended reals. -/
abbrev E1 (n : ℕ) : Type := (⟨1, ![n]⟩ : Shape).Idx → EReal

/-- The floor under a row's Euclidean norm (the f32 nearest 1e-12). -/
def normEps : EReal := Ideal.ofBits .f32 0x2B8CBCCC#32
/-- The constant added to the variance (the f32 nearest 1e-5). -/
def bnEps : EReal := Ideal.ofBits .f32 0x3727C5AC#32
/-- The number of nodes, 100000, as the f32 both programs divide by. -/
def nodes : EReal := Ideal.ofBits .f32 0x47C35000#32

/-! ## A row's normalisation (both sides) -/

/-- The Euclidean norm of row `i` of `p`, floored at `normEps`. -/
def rowNorm (p : Fin 100000 → Fin 128 → EReal) (i : Fin 100000) : EReal :=
  max (Ideal.sqrt (∑ j : Fin 128, p i j * p i j)) normEps

/-- Row `i` of `p` scaled to unit length. -/
def unit (p : Fin 100000 → Fin 128 → EReal) (i : Fin 100000) (j : Fin 128) : EReal :=
  Ideal.div (p i j) (rowNorm p i)

/-! ## The kernel side -/

/-- The linear layer as two products: features times the upper weight block plus neighbour mean times the
    lower block, plus the bias. -/
def linK (x a : E2 100000 128) (w1 w2 : E2 128 128) (b : E2 1 128) (i : Fin 100000) (j : Fin 128) : EReal :=
  ((∑ k : Fin 128, x (ix2 i k) * w1 (ix2 k j)) + ∑ k : Fin 128, a (ix2 i k) * w2 (ix2 k j)) + b (ix2 0 j)

/-- The first kernel's row output: the normalised linear layer. -/
def hK (x a : E2 100000 128) (w1 w2 : E2 128 128) (b : E2 1 128) : E2 100000 128 :=
  fun y => unit (linK x a w1 w2 b) (y 0) (y 1)

/-- The first kernel's column sums of `hK` over all nodes. -/
def sumK (x a : E2 100000 128) (w1 w2 : E2 128 128) (b : E2 1 128) : E2 1 128 :=
  fun y => ∑ i : Fin 100000, unit (linK x a w1 w2 b) i (y 1)

/-- The first kernel's column sums of the squares of `hK`. -/
def sumsqK (x a : E2 100000 128) (w1 w2 : E2 128 128) (b : E2 1 128) : E2 1 128 :=
  fun y => ∑ i : Fin 100000, unit (linK x a w1 w2 b) i (y 1) * unit (linK x a w1 w2 b) i (y 1)

/-- The host's mean between the two kernels. -/
def meanK (s : E2 1 128) : E2 1 128 := fun y => Ideal.div (s y) nodes
/-- The host's one-pass variance between the two kernels: mean of squares minus squared mean. -/
def varK (s q : E2 1 128) : E2 1 128 := fun y => Ideal.div (q y) nodes - meanK s y * meanK s y
/-- The host's inverse standard deviation between the two kernels. -/
def invK (s q : E2 1 128) : E2 1 128 := fun y => Ideal.rsqrt (varK s q y + bnEps)

/-- The second kernel: normalise by the given column statistics, scale, shift, add the input, clip at zero. -/
def bnK (h x : E2 100000 128) (mean inv g be : E2 1 128) : E2 100000 128 :=
  fun y => max (((((h y - mean (ix2 0 (y 1))) * inv (ix2 0 (y 1))) * g (ix2 0 (y 1))) + be (ix2 0 (y 1))) + x y) 0

/-- The kernel side's result from the arrays its two regions read. -/
def outK (x a : E2 100000 128) (w1 w2 : E2 128 128) (b g be : E2 1 128) : E2 100000 128 :=
  bnK (hK x a w1 w2 b) x (meanK (sumK x a w1 w2 b)) (invK (sumK x a w1 w2 b) (sumsqK x a w1 w2 b)) g be

/-! ## The reference side -/

/-- Row `i` of the features beside the neighbour mean: 256 columns. -/
def cat (x a : E2 100000 128) (i : Fin 100000) (k : Fin 256) : EReal :=
  if h : k.val < 128 then x (ix2 i ⟨k.val, h⟩) else a (ix2 i ⟨k.val - 128, by omega⟩)

/-- The linear layer as one product with the whole weight, plus the bias. -/
def linR (x a : E2 100000 128) (W : E2 256 128) (b : E1 128) (i : Fin 100000) (j : Fin 128) : EReal :=
  (∑ k : Fin 256, cat x a i k * W (ix2 k j)) + b (ix1 j)

/-- A column's mean over the nodes. -/
def meanR (p : Fin 100000 → Fin 128 → EReal) (j : Fin 128) : EReal := Ideal.div (∑ i : Fin 100000, p i j) nodes
/-- A column's two-pass variance: the mean of the squared deviations from the column's mean. -/
def varR (p : Fin 100000 → Fin 128 → EReal) (j : Fin 128) : EReal :=
  Ideal.div (∑ i : Fin 100000, (p i j - meanR p j) * (p i j - meanR p j)) nodes

/-- The reference's result. -/
def outR (x a : E2 100000 128) (W : E2 256 128) (b g be : E1 128) : E2 100000 128 :=
  fun y =>
    max (((((unit (linR x a W b) (y 0) (y 1) - meanR (unit (linR x a W b)) (y 1))
        * Ideal.rsqrt (varR (unit (linR x a W b)) (y 1) + bnEps)) * g (ix1 (y 1))) + be (ix1 (y 1))) + x y) 0

/-- Every entry is a real number. -/
def Real2 {n k : ℕ} (v : E2 n k) : Prop := ∀ y, ∃ r : ℝ, v y = (r : EReal)
/-- Every entry is a real number. -/
def Real1 {n : ℕ} (v : E1 n) : Prop := ∀ y, ∃ r : ℝ, v y = (r : EReal)

end Cert.Spec

end
-- ==== Proof.KPay0.lean ====
/-
  The first kernel's body arithmetic on one block of 5000 rows, read entry by entry on the extended reals:
  a row's linear layer as two 128-term products plus the bias, its scaling to unit length, and the
  block's column sums of the scaled rows and of their squares added to what was carried in.
-/
import proofs.«169978_j18459769438300_1_alg».proof.Proof.Gen.KernelIdeal.Skeleton
import proofs.«169978_j18459769438300_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.ValueIdx Cert.KernelIdeal Cert.KernelIdeal.Gen

/-- Row `r` of a block through the linear layer: two 128-term products plus the bias. -/
def blkLin (x0 a0 : Vec Ideal S5000x128 .f32) (w1 w2 : Vec Ideal S128x128 .f32) (b : Vec Ideal S1x128 .f32)
    (r : Fin 5000) (j : Fin 128) : EReal :=
  ((∑ k : Fin 128, x0 (ix2 r k) * w1 (ix2 k j)) + ∑ k : Fin 128, a0 (ix2 r k) * w2 (ix2 k j)) + b (ix2 0 j)

/-- Row `r` of a block scaled to unit Euclidean length (the norm floored at `Spec.normEps`). -/
def blkUnit (x0 a0 : Vec Ideal S5000x128 .f32) (w1 w2 : Vec Ideal S128x128 .f32) (b : Vec Ideal S1x128 .f32)
    (r : Fin 5000) (j : Fin 128) : EReal :=
  Ideal.div (blkLin x0 a0 w1 w2 b r j)
    (max (Ideal.sqrt (∑ j' : Fin 128, blkLin x0 a0 w1 w2 b r j' * blkLin x0 a0 w1 w2 b r j')) Spec.normEps)

/-! ## The product's operand indices, axis by axis -/

/-- The left operand's row is the output's row. -/
theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The left operand's column is the summed position. -/
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- The right operand's row is the summed position. -/
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- The right operand's column is the output's column. -/
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A product of a 5000×128 block with a 128×128 matrix into zero, at row `r` and column `j`: the 128-term sum. -/
theorem matmul_zero_apply {φ₁ φ₂ : FTy} (x : FVec Ideal S5000x128 φ₁) (w : FVec Ideal S128x128 φ₂) (r : Fin 5000) (j : Fin 128) :
    matmul dot_S5000x128_S128x128_S5000x128_1_0_0_1_n_n none x w (constant (F := Ideal) S5000x128 .f32 0x00000000#32) (ix2 r j)
      = ∑ k : Fin 128, x (ix2 r k) * w (ix2 k j) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j)
      ((contrEquiv1 dot_S5000x128_S128x128_S5000x128_1_0_0_1_n_n 128 rfl rfl).symm k) = ix2 r k :=
    funext fun a => Fin.ext (by
      match a with
      | ⟨0, _⟩ => exact lhs_dot_0 _ _
      | ⟨1, _⟩ => exact (lhs_dot_1 _ _).trans hk)
  have er : dot_S5000x128_S128x128_S5000x128_1_0_0_1_n_n.rhsIdx (ix2 r j)
      ((contrEquiv1 dot_S5000x128_S128x128_S5000x128_1_0_0_1_n_n 128 rfl rfl).symm k) = ix2 k j :=
    funext fun a => Fin.ext (by
      match a with
      | ⟨0, _⟩ => exact (rhs_dot_0 _ _).trans hk
      | ⟨1, _⟩ => exact rhs_dot_1 _ _)
  rw [el, er]

/-! ## Sums along one axis of a block -/

/-- The sum along a row of a block: at row `r`, that row's 128 entries. -/
theorem rowSum_apply (v : FVec Ideal S5000x128 .f32) (r : Fin 5000) :
    multiReduction (F := Ideal) .add [1] S5000 v 0x00000000#32 reduces_S5000x128_S5000 (.inl rfl) rfl (ix1 r)
      = ∑ k : Fin 128, v (ix2 r k) := by
  refine (Ideal.multiReduction_add_single v 0x00000000#32 reduces_S5000x128_S5000 (.inl rfl) rfl (ix1 r)).trans ?_
  exact Finset.sum_congr rfl fun k _ => congrArg v (funext fun a => Fin.ext (by
    match a with
    | ⟨0, _⟩ => rfl
    | ⟨1, _⟩ => rfl))

/-- The sum down a column of a block: at column `j`, that column's 5000 entries. -/
theorem colSum_apply (v : FVec Ideal S5000x128 .f32) (j : Fin 128) :
    multiReduction (F := Ideal) .add [0] S128 v 0x00000000#32 reduces_S5000x128_S128 (.inl rfl) rfl (ix1 j)
      = ∑ r : Fin 5000, v (ix2 r j) := by
  refine (Ideal.multiReduction_add_single v 0x00000000#32 reduces_S5000x128_S128 (.inl rfl) rfl (ix1 j)).trans ?_
  exact Finset.sum_congr rfl fun k _ => congrArg v (funext fun a => Fin.ext (by
    match a with
    | ⟨0, _⟩ => rfl
    | ⟨1, _⟩ => rfl))

/-! ## A column of row values: its cast to a one-column matrix and its spread over the lanes -/

variable {α : Type}

/-- A vector of 5000 entries viewed as a 5000×1 matrix reads, at row `r`, the vector's entry `r`. -/
theorem colCast_apply (x : S5000.Idx → α) (r : Fin 5000) (u : Fin 1) :
    shapeCast S5000x1 x shapeCasts_S5000_S5000x1 (ix2 r u) = x (ix1 r) :=
  shapeCast_apply x _ _ _ (by
    have hu : u.val = 0 := by omega
    rw [Shape.rowMajor_val_two, Shape.rowMajor_val_one]
    show r.val = r.val * 1 + u.val
    rw [hu, Nat.mul_one, Nat.add_zero])

/-- A 5000×1 matrix spread over 128 lanes reads, at `(r, j)`, the matrix's row `r`. -/
theorem colBroadcast_apply (v : S5000x1.Idx → α) (r : Fin 5000) (j : Fin 128) :
    broadcastTo S5000x128 v broadcasts_S5000x1_S5000x128 (ix2 r j) = v (ix2 r (0 : Fin 1)) := by
  refine broadcastTo_apply v _ (ix2 r j) (ix2 r (0 : Fin 1)) fun ax => ?_
  match ax with
  | ⟨0, _⟩ =>
    show r.val = if (5000 : ℕ) = 1 then 0 else r.val
    rw [if_neg (by decide)]
  | ⟨1, _⟩ =>
    show (0 : ℕ) = if (1 : ℕ) = 1 then 0 else j.val
    rw [if_pos rfl]

/-- The square root of a vector, entry by entry. -/
theorem sqrt_apply {s : Shape} {φ : FTy} (a : FVec Ideal s φ) (i : s.Idx) : sqrt a i = Ideal.sqrt (a i) := rfl

/-- The floor under the norm, as the kernel spells it. -/
theorem normEps_eq : (Scalar.ofBits (F := Ideal) .f32 0x2B8CBCCC#32) = Spec.normEps := by
  unfold Spec.normEps
  rfl

/-- The zero word is zero. -/
theorem zero_eq : (Scalar.ofBits (F := Ideal) .f32 0x00000000#32) = 0 := Ideal.ofBits_zero_f32

/-! ## The linear layer's block, entry by entry -/

/-- The two products into zero, added, plus the bias row spread down the block: at `(r, j)` the row's linear layer. -/
theorem lin_apply (x0 a0 : Vec Ideal S5000x128 .f32) (w1 w2 : Vec Ideal S128x128 .f32) (b : Vec Ideal S1x128 .f32)
    (r : Fin 5000) (j : Fin 128) :
    addf
        (addf
          (matmul dot_S5000x128_S128x128_S5000x128_1_0_0_1_n_n none (truncf .bf16 x0 bitsLt_bf16_f32)
            (truncf .bf16 w1 bitsLt_bf16_f32) (constant (F := Ideal) S5000x128 .f32 0x00000000#32))
          (matmul dot_S5000x128_S128x128_S5000x128_1_0_0_1_n_n none (truncf .bf16 a0 bitsLt_bf16_f32)
            (truncf .bf16 w2 bitsLt_bf16_f32) (constant (F := Ideal) S5000x128 .f32 0x00000000#32)))
        (broadcastTo S5000x128 b broadcasts_S1x128_S5000x128) (ix2 r j)
      = blkLin x0 a0 w1 w2 b r j := by
  rw [addf_apply, addf_apply, matmul_zero_apply, matmul_zero_apply, broadcastTo_1b_ab_apply]
  rfl

/-- The stored block of the first output: the scaled rows. -/
theorem pay4_apply (x0 a0 : Vec Ideal S5000x128 .f32) (w1 w2 : Vec Ideal S128x128 .f32) (b : Vec Ideal S1x128 .f32)
    (r : Fin 5000) (j : Fin 128) :
    k0_pay4 (F := Ideal) x0 a0 w1 w2 b (ix2 r j) = blkUnit x0 a0 w1 w2 b r j := by
  unfold k0_pay4
  simp only [shapeCast_self]
  rw [divf_apply, colBroadcast_apply, maximumf_apply, sqrt_apply, colCast_apply, rowSum_apply, broadcast_apply,
    normEps_eq]
  simp only [mulf_apply, lin_apply]
  rfl

/-- The carried column sum plus this block's column sum of the scaled rows. -/
theorem pay5_apply (x0 a0 : Vec Ideal S5000x128 .f32) (w1 w2 : Vec Ideal S128x128 .f32) (b s : Vec Ideal S1x128 .f32)
    (j : Fin 128) :
    k0_pay5 (F := Ideal) x0 a0 w1 w2 b s (ix2 0 j) = s (ix2 0 j) + ∑ r : Fin 5000, blkUnit x0 a0 w1 w2 b r j := by
  unfold k0_pay5
  simp only [shapeCast_self]
  rw [addf_apply, shapeCast_a_1a_apply, colSum_apply]
  simp only [pay4_apply]

/-- The carried column sum of squares plus this block's column sum of the squares of `v`. -/
theorem pay1_apply (v : FVec Ideal S5000x128 .f32) (q : Vec Ideal S1x128 .f32) (j : Fin 128) :
    k0_pay1 (F := Ideal) v q (ix2 0 j) = q (ix2 0 j) + ∑ r : Fin 5000, v (ix2 r j) * v (ix2 r j) := by
  unfold k0_pay1
  simp only [shapeCast_self]
  rw [addf_apply, shapeCast_a_1a_apply, colSum_apply]
  simp only [mulf_apply]

/-- The first grid point resets both carried rows to zero. -/
theorem pay2_apply (y : S1x128.Idx) : k0_pay2 (F := Ideal) y = 0 := by
  unfold k0_pay2
  rw [broadcast_apply]
  exact zero_eq
theorem pay3_apply (y : S1x128.Idx) : k0_pay3 (F := Ideal) y = 0 := by
  unfold k0_pay3
  rw [broadcast_apply]
  exact zero_eq

end Cert.KernelIdeal.Val

end
-- ==== Proof.KRegion0.lean ====
/-
  What the first kernel leaves in its three output arrays, as functions of the arrays it reads:
  block `t` of the first output holds rows 5000·t … 5000·t+4999 of the normalised linear layer, and the two
  one-row outputs, reset at the first grid point and carried through all twenty, end at the column sums over
  all 100000 rows (of the entries and of their squares): a sum over twenty blocks of 5000 rows is the sum
  over the rows.
-/
import proofs.«169978_j18459769438300_1_alg».proof.Proof.Gen.KernelIdeal.Frame
import proofs.«169978_j18459769438300_1_alg».proof.Proof.Spec
import proofs.«169978_j18459769438300_1_alg».proof.Proof.KPay0
import Idealize.ShloMosaic.Lib.Pipeline.Value
import Idealize.ShloMosaic.Lib.ValueIdx
import Idealize.ShloMosaic.Lib.Tactic
import Mathlib.Algebra.BigOperators.Fin
import Mathlib.Data.Fintype.BigOperators
import Mathlib.Logic.Equiv.Fin.Basic

set_option maxRecDepth 16384

noncomputable section

namespace Cert.KernelIdeal.Val

open Idealize.ShloMosaic Idealize.ShloMosaic.TcCoe Idealize.ShloMosaic.ValueIdx Idealize.SL.Sem Cert.KernelIdeal Cert.KernelIdeal.Gen
open Idealize.ShloMosaic.Pipeline (Dat Cfg Window)

/-! ## What each control case leaves in the three output blocks -/

section Pieces
variable {F : FTy → Type} [FloatOps F]

theorem hz : (![0, 0] : Fin 2 → Nat) = fun _ => 0 := funext fun a => by fin_cases a <;> rfl

/-- A later grid point stores the scaled rows of its input blocks into the first output's block. -/
theorem out_B_5 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond0_0 i) (x0 x1 : Vec F S5000x128 .f32) (x2 x3 : Vec F S128x128 .f32) (x4 xo6 xo7 : Vec F S1x128 .f32) :
    out0_B_5 c i a1 h1 a2 h2 a3 h3 a4 h4 a5 h5 a6 h6 a7 h7 a8 h8 hc x0 x1 x2 x3 x4 xo6 xo7 = k0_pay4 x0 x1 x2 x3 x4 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h7.read_unread, h8.read_unread,
    View.ld_unit_zero (S := S5000x128) hz, View.ld_unit_zero (S := S128x128) hz, View.ld_unit_zero (S := S1x128) hz]

/-- A later grid point adds its block's column sums onto the carried row of sums. -/
theorem out_B_6 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond0_0 i) (x0 x1 : Vec F S5000x128 .f32) (x2 x3 : Vec F S128x128 .f32) (x4 xo6 xo7 : Vec F S1x128 .f32) :
    out0_B_6 c i a1 h1 a2 h2 a3 h3 a4 h4 a5 h5 a6 h6 a7 h7 a8 h8 hc x0 x1 x2 x3 x4 xo6 xo7 = k0_pay5 x0 x1 x2 x3 x4 xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h7.read_unread, h8.read_unread,
    View.ld_unit_zero (S := S5000x128) hz, View.ld_unit_zero (S := S128x128) hz, View.ld_unit_zero (S := S1x128) hz]

/-- A later grid point adds its block's column sums of squares onto the carried row of sums of squares. -/
theorem out_B_7 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond0_0 i) (x0 x1 : Vec F S5000x128 .f32) (x2 x3 : Vec F S128x128 .f32) (x4 xo6 xo7 : Vec F S1x128 .f32) :
    out0_B_7 c i a1 h1 a2 h2 a3 h3 a4 h4 a5 h5 a6 h6 a7 h7 a8 h8 hc x0 x1 x2 x3 x4 xo6 xo7 = k0_pay1 (k0_pay4 x0 x1 x2 x3 x4) xo7 := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h7.read_unread, h8.read_unread,
    View.ld_unit_zero (S := S5000x128) hz, View.ld_unit_zero (S := S128x128) hz, View.ld_unit_zero (S := S1x128) hz]

/-- The first grid point stores the scaled rows of its input blocks into the first output's block. -/
theorem out_A_5 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond0_0 i) (x0 x1 : Vec F S5000x128 .f32) (x2 x3 : Vec F S128x128 .f32) (x4 : Vec F S1x128 .f32) :
    out0_A_5 c i a1 h1 a2 h2 a3 h3 a4 h4 a5 h5 a6 h6 a7 h7 a8 h8 hc x0 x1 x2 x3 x4 = k0_pay4 x0 x1 x2 x3 x4 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S5000x128) hz, View.ld_unit_zero (S := S128x128) hz, View.ld_unit_zero (S := S1x128) hz,
    View.readCov_unit_zero (S := S1x128) _ hz]

/-- The first grid point resets the carried row of sums to zero, reads it back and adds its block's column sums. -/
theorem out_A_6 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond0_0 i) (x0 x1 : Vec F S5000x128 .f32) (x2 x3 : Vec F S128x128 .f32) (x4 : Vec F S1x128 .f32) :
    out0_A_6 c i a1 h1 a2 h2 a3 h3 a4 h4 a5 h5 a6 h6 a7 h7 a8 h8 hc x0 x1 x2 x3 x4 = k0_pay5 x0 x1 x2 x3 x4 (k0_pay2 (F := F)) := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz]
  simp only [View.readAt_eq_ld, h1.read_unread, h2.read_unread, h3.read_unread, h4.read_unread, h5.read_unread,
    View.ld_unit_zero (S := S5000x128) hz, View.ld_unit_zero (S := S128x128) hz, View.ld_unit_zero (S := S1x128) hz,
    View.readCov_unit_zero (S := S1x128) _ hz]

/-- The first grid point resets the carried row of sums of squares to zero, reads it back and adds its block's. -/
theorem out_A_7 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond0_0 i) (x0 x1 : Vec F S5000x128 .f32) (x2 x3 : Vec F S128x128 .f32) (x4 : Vec F S1x128 .f32) :
    out0_A_7 c i a1 h1 a2 h2 a3 h3 a4 h4 a5 h5 a6 h6 a7 h7 a8 h8 hc x0 x1 x2 x3 x4 = k0_pay1 (k0_pay4 x0 x1 x2 x3 x4) (k0_pay3 (F := F)) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz]
  simp only [View.readAt_eq_ld, h1.read_unread, h2.read_unread, h3.read_unread, h4.read_unread, h5.read_unread,
    View.ld_unit_zero (S := S5000x128) hz, View.ld_unit_zero (S := S128x128) hz, View.ld_unit_zero (S := S1x128) hz,
    View.readCov_unit_zero (S := S1x128) _ hz]

end Pieces

/-! ## The region's arrays and blocks by name -/

variable (V : (c : Dev nD) → (b : Ref sig .tc) → Buf (Elt Ideal) ((c : Thread nD τ).loc b))

/-- The node features as the region finds them. -/
abbrev xarr (c : Dev nD) : Vec Ideal S100000x128 .f32 := V c main_arg0
/-- The neighbour means. -/
abbrev aarr (c : Dev nD) : Vec Ideal S100000x128 .f32 := V c main_v22
/-- The upper weight block. -/
abbrev w1arr (c : Dev nD) : Vec Ideal S128x128 .f32 := V c main_v23
/-- The lower weight block. -/
abbrev w2arr (c : Dev nD) : Vec Ideal S128x128 .f32 := V c main_v24
/-- The bias row. -/
abbrev barr (c : Dev nD) : Vec Ideal S1x128 .f32 := V c main_v25

/-- The 5000 rows of the features a grid point reads. -/
abbrev xblk (c : Dev nD) (t : Fin cfg0.N) : Vec Ideal S5000x128 .f32 := iblk0 V c 0 t
/-- The 5000 rows of the neighbour means a grid point reads. -/
abbrev ablk (c : Dev nD) (t : Fin cfg0.N) : Vec Ideal S5000x128 .f32 := iblk0 V c 1 t
/-- The upper weight block as a grid point reads it. -/
abbrev w1blk (c : Dev nD) (t : Fin cfg0.N) : Vec Ideal S128x128 .f32 := iblk0 V c 2 t
/-- The lower weight block as a grid point reads it. -/
abbrev w2blk (c : Dev nD) (t : Fin cfg0.N) : Vec Ideal S128x128 .f32 := iblk0 V c 3 t
/-- The bias row as a grid point reads it. -/
abbrev bblk (c : Dev nD) (t : Fin cfg0.N) : Vec Ideal S1x128 .f32 := iblk0 V c 4 t

/-- The printed index maps over the grid: the row windows sit at block `t` of axis 0, the weight, bias and
    one-row windows at block 0 on both axes. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Row `r` of block `t` is row `5000 t + r` of the whole array. -/
def rowOf (t : Fin cfg0.N) (r : Fin 5000) : Fin 100000 :=
  ⟨5000 * t.val + r.val, by have ht : t.val < 20 := lt_of_lt_of_eq t.isLt N_0; have := r.isLt; omega⟩

theorem xblk_apply (c : Dev nD) (t : Fin cfg0.N) (r : Fin 5000) (k : Fin 128) :
    xblk V c t (ix2 r k) = xarr V c (ix2 (rowOf t r) k) := by
  obtain ⟨e0, e1, -⟩ := idx_facts t
  unfold xblk iblk0
  rw [View.read_apply]
  show V c main_arg0 _ = V c main_arg0 _
  congr 1
  funext a
  apply Fin.ext
  match a with
  | ⟨0, _⟩ => show win0_0.index t 0 * 5000 + 1 * r.val = 5000 * t.val + r.val; rw [e0]; omega
  | ⟨1, _⟩ => show win0_0.index t 1 * 128 + 1 * k.val = k.val; rw [e1]; omega

theorem ablk_apply (c : Dev nD) (t : Fin cfg0.N) (r : Fin 5000) (k : Fin 128) :
    ablk V c t (ix2 r k) = aarr V c (ix2 (rowOf t r) k) := by
  obtain ⟨-, -, e0, e1, -⟩ := idx_facts t
  unfold ablk iblk0
  rw [View.read_apply]
  show V c main_v22 _ = V c main_v22 _
  congr 1
  funext a
  apply Fin.ext
  match a with
  | ⟨0, _⟩ => show win0_1.index t 0 * 5000 + 1 * r.val = 5000 * t.val + r.val; rw [e0]; omega
  | ⟨1, _⟩ => show win0_1.index t 1 * 128 + 1 * k.val = k.val; rw [e1]; omega

theorem w1blk_eq (c : Dev nD) (t : Fin cfg0.N) : w1blk V c t = w1arr V c := by
  obtain ⟨-, -, -, -, e0, e1, -⟩ := idx_facts t
  funext y
  unfold w1blk iblk0
  rw [View.read_apply]
  show V c main_v23 _ = V c main_v23 _
  congr 1
  funext a
  apply Fin.ext
  match a with
  | ⟨0, _⟩ => show win0_2.index t 0 * 128 + 1 * (y 0).val = (y 0).val; rw [e0]; omega
  | ⟨1, _⟩ => show win0_2.index t 1 * 128 + 1 * (y 1).val = (y 1).val; rw [e1]; omega

theorem w2blk_eq (c : Dev nD) (t : Fin cfg0.N) : w2blk V c t = w2arr V c := by
  obtain ⟨-, -, -, -, -, -, e0, e1, -⟩ := idx_facts t
  funext y
  unfold w2blk iblk0
  rw [View.read_apply]
  show V c main_v24 _ = V c main_v24 _
  congr 1
  funext a
  apply Fin.ext
  match a with
  | ⟨0, _⟩ => show win0_3.index t 0 * 128 + 1 * (y 0).val = (y 0).val; rw [e0]; omega
  | ⟨1, _⟩ => show win0_3.index t 1 * 128 + 1 * (y 1).val = (y 1).val; rw [e1]; omega

theorem bblk_eq (c : Dev nD) (t : Fin cfg0.N) : bblk V c t = barr V c := by
  obtain ⟨-, -, -, -, -, -, -, -, e0, e1, -⟩ := idx_facts t
  funext y
  unfold bblk iblk0
  rw [View.read_apply]
  show V c main_v25 _ = V c main_v25 _
  congr 1
  funext a
  apply Fin.ext
  match a with
  | ⟨0, _⟩ => show win0_4.index t 0 * 1 + 1 * (y 0).val = (y 0).val; rw [e0]; omega
  | ⟨1, _⟩ => show win0_4.index t 1 * 128 + 1 * (y 1).val = (y 1).val; rw [e1]; omega

/-! ## A block's rows are the arrays' rows -/

/-- The linear layer on row `r` of block `t` is the linear layer on row `5000 t + r` of the arrays. -/
theorem blkLin_eq (c : Dev nD) (t : Fin cfg0.N) (r : Fin 5000) (j : Fin 128) :
    blkLin (xblk V c t) (ablk V c t) (w1blk V c t) (w2blk V c t) (bblk V c t) r j
      = Spec.linK (xarr V c) (aarr V c) (w1arr V c) (w2arr V c) (barr V c) (rowOf t r) j := by
  unfold blkLin Spec.linK
  rw [w1blk_eq V c t, w2blk_eq V c t, bblk_eq V c t]
  congr 1
  congr 1
  · exact Finset.sum_congr rfl fun k _ => congrArg (· * w1arr V c (ix2 k j)) (xblk_apply V c t r k)
  · exact Finset.sum_congr rfl fun k _ => congrArg (· * w2arr V c (ix2 k j)) (ablk_apply V c t r k)

/-- So the scaled row `r` of block `t` is the scaled row `5000 t + r` of the arrays. -/
theorem blkUnit_eq (c : Dev nD) (t : Fin cfg0.N) (r : Fin 5000) (j : Fin 128) :
    blkUnit (xblk V c t) (ablk V c t) (w1blk V c t) (w2blk V c t) (bblk V c t) r j
      = Spec.unit (Spec.linK (xarr V c) (aarr V c) (w1arr V c) (w2arr V c) (barr V c)) (rowOf t r) j := by
  have es : (∑ j' : Fin 128, blkLin (xblk V c t) (ablk V c t) (w1blk V c t) (w2blk V c t) (bblk V c t) r j' * blkLin (xblk V c t) (ablk V c t) (w1blk V c t) (w2blk V c t) (bblk V c t) r j')
      = ∑ j' : Fin 128, Spec.linK (xarr V c) (aarr V c) (w1arr V c) (w2arr V c) (barr V c) (rowOf t r) j'
          * Spec.linK (xarr V c) (aarr V c) (w1arr V c) (w2arr V c) (barr V c) (rowOf t r) j' :=
    Finset.sum_congr rfl fun j' _ => by rw [blkLin_eq V c t r j']
  unfold blkUnit Spec.unit Spec.rowNorm
  rw [blkLin_eq V c t r j, es]

/-! ## The three output blocks after each grid point -/

/-- After the first grid point: the scaled rows, and the two carried rows reset to zero and added to once. -/
theorem outsAt_A (c : Dev nD) (t : Fin cfg0.N) (h0 : t.val % 20 = 0) :
    outsAt0 V c t.val t.isLt
      = (k0_pay4 (xblk V c t) (ablk V c t) (w1blk V c t) (w2blk V c t) (bblk V c t),
         k0_pay5 (xblk V c t) (ablk V c t) (w1blk V c t) (w2blk V c t) (bblk V c t) (k0_pay2 (F := Ideal)),
         k0_pay1 (k0_pay4 (xblk V c t) (ablk V c t) (w1blk V c t) (w2blk V c t) (bblk V c t)) (k0_pay3 (F := Ideal))) := by
  rw [outsAt0_A V c t h0,
    out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t),
    out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t),
    out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)]

/-- After a later grid point: the scaled rows, and the two carried rows of the point before added to. -/
theorem outsAt_B (c : Dev nD) (t : Fin cfg0.N) (h0 : ¬t.val % 20 = 0) :
    outsAt0 V c t.val t.isLt
      = (k0_pay4 (xblk V c t) (ablk V c t) (w1blk V c t) (w2blk V c t) (bblk V c t),
         k0_pay5 (xblk V c t) (ablk V c t) (w1blk V c t) (w2blk V c t) (bblk V c t) (outsAt0 V c (t.val - 1) (Nat.lt_of_le_of_lt (Nat.sub_le _ _) t.isLt)).2.1,
         k0_pay1 (k0_pay4 (xblk V c t) (ablk V c t) (w1blk V c t) (w2blk V c t) (bblk V c t)) (outsAt0 V c (t.val - 1) (Nat.lt_of_le_of_lt (Nat.sub_le _ _) t.isLt)).2.2) := by
  rw [outsAt0_B V c t h0,
    out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2,
    out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2,
    out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2]

/-! ## The carried rows after each grid point: sums over the rows so far -/

/-- The scaled linear layer on the arrays the region finds, row by row. -/
abbrev hval (c : Dev nD) : Fin 100000 → Fin 128 → EReal :=
  Spec.unit (Spec.linK (xarr V c) (aarr V c) (w1arr V c) (w2arr V c) (barr V c))

/-- A carried row of sums plus block `t`'s column sums. -/
theorem pay5_blocks (c : Dev nD) (t : Fin cfg0.N) (s : Vec Ideal S1x128 .f32) (j : Fin 128) :
    k0_pay5 (F := Ideal) (xblk V c t) (ablk V c t) (w1blk V c t) (w2blk V c t) (bblk V c t) s (ix2 0 j)
      = s (ix2 0 j) + ∑ r : Fin 5000, hval V c (rowOf t r) j := by
  refine (pay5_apply (xblk V c t) (ablk V c t) (w1blk V c t) (w2blk V c t) (bblk V c t) s j).trans ?_
  rw [Finset.sum_congr rfl fun r _ => blkUnit_eq V c t r j]

/-- A carried row of sums of squares plus block `t`'s column sums of squares. -/
theorem pay1_blocks (c : Dev nD) (t : Fin cfg0.N) (q : Vec Ideal S1x128 .f32) (j : Fin 128) :
    k0_pay1 (F := Ideal) (k0_pay4 (F := Ideal) (xblk V c t) (ablk V c t) (w1blk V c t) (w2blk V c t) (bblk V c t)) q (ix2 0 j)
      = q (ix2 0 j) + ∑ r : Fin 5000, hval V c (rowOf t r) j * hval V c (rowOf t r) j := by
  refine (pay1_apply (k0_pay4 (F := Ideal) (xblk V c t) (ablk V c t) (w1blk V c t) (w2blk V c t) (bblk V c t)) q j).trans ?_
  rw [Finset.sum_congr rfl fun r _ => by
    rw [pay4_apply (xblk V c t) (ablk V c t) (w1blk V c t) (w2blk V c t) (bblk V c t) r j, blkUnit_eq V c t r j]]

/-- After point `n` the carried row of sums holds the column sums over the rows of blocks `0 … n`. -/
theorem sum_after (c : Dev nD) (j : Fin 128) : ∀ (n : ℕ) (h : n < cfg0.N),
    (outsAt0 V c n h).2.1 (ix2 0 j)
      = ∑ t : Fin (n + 1), ∑ r : Fin 5000,
          hval V c (rowOf ⟨t.val, Nat.lt_of_lt_of_le t.isLt (Nat.succ_le_of_lt h)⟩ r) j
  | 0, h => by
    rw [outsAt_A V c ⟨0, h⟩ (Nat.zero_mod _)]
    dsimp only
    refine (pay5_blocks V c ⟨0, h⟩ (k0_pay2 (F := Ideal)) j).trans ?_
    rw [pay2_apply, zero_add, Fin.sum_univ_castSucc (n := 0), Fin.sum_univ_zero, zero_add]
    rfl
  | n + 1, h => by
    have hN : cfg0.N = 20 := N_0
    have hB : ¬(⟨n + 1, h⟩ : Fin cfg0.N).val % 20 = 0 := by dsimp only; omega
    rw [outsAt_B V c ⟨n + 1, h⟩ hB]
    dsimp only
    refine (pay5_blocks V c ⟨n + 1, h⟩ _ j).trans ?_
    rw [Fin.sum_univ_castSucc (n := n + 1)]
    refine congrArg₂ (· + ·) ?_ rfl
    exact sum_after c j n (Nat.lt_of_succ_lt h)

/-- After point `n` the carried row of sums of squares holds those over the rows of blocks `0 … n`. -/
theorem sumsq_after (c : Dev nD) (j : Fin 128) : ∀ (n : ℕ) (h : n < cfg0.N),
    (outsAt0 V c n h).2.2 (ix2 0 j)
      = ∑ t : Fin (n + 1), ∑ r : Fin 5000,
          hval V c (rowOf ⟨t.val, Nat.lt_of_lt_of_le t.isLt (Nat.succ_le_of_lt h)⟩ r) j
            * hval V c (rowOf ⟨t.val, Nat.lt_of_lt_of_le t.isLt (Nat.succ_le_of_lt h)⟩ r) j
  | 0, h => by
    rw [outsAt_A V c ⟨0, h⟩ (Nat.zero_mod _)]
    dsimp only
    refine (pay1_blocks V c ⟨0, h⟩ (k0_pay3 (F := Ideal)) j).trans ?_
    rw [pay3_apply, zero_add, Fin.sum_univ_castSucc (n := 0), Fin.sum_univ_zero, zero_add]
    rfl
  | n + 1, h => by
    have hN : cfg0.N = 20 := N_0
    have hB : ¬(⟨n + 1, h⟩ : Fin cfg0.N).val % 20 = 0 := by dsimp only; omega
    rw [outsAt_B V c ⟨n + 1, h⟩ hB]
    dsimp only
    refine (pay1_blocks V c ⟨n + 1, h⟩ _ j).trans ?_
    rw [Fin.sum_univ_castSucc (n := n + 1)]
    refine congrArg₂ (· + ·) ?_ rfl
    exact sumsq_after c j n (Nat.lt_of_succ_lt h)

/-- After any point the first output's block holds that block's scaled rows. -/
theorem h_after (c : Dev nD) (t : Fin cfg0.N) :
    (outsAt0 V c t.val t.isLt).1 = k0_pay4 (F := Ideal) (xblk V c t) (ablk V c t) (w1blk V c t) (w2blk V c t) (bblk V c t) := by
  by_cases h0 : t.val % 20 = 0
  · rw [outsAt_A V c t h0]
  · rw [outsAt_B V c t h0]

/-- Twenty blocks of 5000 rows are the 100000 rows: a sum over blocks of sums over a block's rows is the sum
    over all rows. -/
theorem sum_rows (f : Fin 100000 → EReal) (n : ℕ) (hn : n = 19) (h : n < cfg0.N) :
    ∑ t : Fin (n + 1), ∑ r : Fin 5000,
        f (rowOf ⟨t.val, Nat.lt_of_lt_of_le t.isLt (Nat.succ_le_of_lt h)⟩ r)
      = ∑ i : Fin 100000, f i := by
  subst hn
  rw [← Fintype.sum_prod_type
    (f := fun p : Fin (19 + 1) × Fin 5000 => f (rowOf ⟨p.1.val, Nat.lt_of_lt_of_le p.1.isLt (Nat.succ_le_of_lt h)⟩ p.2))]
  exact Fintype.sum_equiv (finProdFinEquiv (m := 20) (n := 5000)) _ f fun p => congrArg f (Fin.ext (by
    show 5000 * p.1.val + p.2.val = p.2.val + 5000 * p.1.val
    omega))

/-! ## What the write-backs leave in the three output arrays -/

/-- An entry of block `t` of the first output sits at row `5000 t + r` of its array. -/
theorem emb5 (t : Fin cfg0.N) (r : Fin 5000) (j : Fin 128) :
    ((cfg0.win 5).blk t).view.emb (ix2 r j) = ix2 (rowOf t r) j := by
  obtain ⟨-, -, -, -, -, -, -, -, -, -, e0, e1, -⟩ := idx_facts t
  funext a
  apply Fin.ext
  match a with
  | ⟨0, _⟩ => show win0_5.index t 0 * 5000 + 1 * r.val = 5000 * t.val + r.val; rw [e0]; omega
  | ⟨1, _⟩ => show win0_5.index t 1 * 128 + 1 * j.val = j.val; rw [e1]; omega

/-- The one block of the second output is its array. -/
theorem emb6 (t : Fin cfg0.N) (j : Fin 128) :
    ((cfg0.win 6).blk t).view.emb (ix2 0 j) = ix2 0 j := by
  obtain ⟨-, -, -, -, -, -, -, -, -, -, -, -, e0, e1, -⟩ := idx_facts t
  funext a
  apply Fin.ext
  match a with
  | ⟨0, _⟩ => show win0_6.index t 0 * 1 + 1 * 0 = 0; rw [e0]
  | ⟨1, _⟩ => show win0_6.index t 1 * 128 + 1 * j.val = j.val; rw [e1]; omega

/-- The one block of the third output is its array. -/
theorem emb7 (t : Fin cfg0.N) (j : Fin 128) :
    ((cfg0.win 7).blk t).view.emb (ix2 0 j) = ix2 0 j := by
  obtain ⟨-, -, -, -, -, -, -, -, -, -, -, -, -, -, e0, e1⟩ := idx_facts t
  funext a
  apply Fin.ext
  match a with
  | ⟨0, _⟩ => show win0_7.index t 0 * 1 + 1 * 0 = 0; rw [e0]
  | ⟨1, _⟩ => show win0_7.index t 1 * 128 + 1 * j.val = j.val; rw [e1]; omega

/-- What point `t` writes back to the first output is block `t` of the scaled linear layer. -/
theorem flushed5_eq (c : Dev nD) (t : Fin cfg0.N) :
    (dat0 (F := Ideal) V c).flushed 5 t
      = ((cfg0.win 5).blk t).view.read (Elt Ideal) (Spec.hK (V c main_arg0) (V c main_v22) (V c main_v23) (V c main_v24) (V c main_v25)) := by
  show (cfg0.win 5).cut (grid0.coords t) ((dat0 (F := Ideal) V c).after 5 t) = _
  rw [after0_5, h_after V c t]
  funext y
  obtain ⟨r, j, rfl⟩ : ∃ (r : Fin 5000) (j : Fin 128), y = ix2 r j :=
    ⟨y 0, y 1, eq_ix2 (n0 := 5000) (n1 := 128) y⟩
  show k0_pay4 (F := Ideal) (xblk V c t) (ablk V c t) (w1blk V c t) (w2blk V c t) (bblk V c t) (ix2 r j)
    = Spec.hK (V c main_arg0) (V c main_v22) (V c main_v23) (V c main_v24) (V c main_v25) (((cfg0.win 5).blk t).view.emb (ix2 r j))
  rw [emb5 t r j]
  exact (pay4_apply (xblk V c t) (ablk V c t) (w1blk V c t) (w2blk V c t) (bblk V c t) r j).trans (blkUnit_eq V c t r j)

/-- An index of the first output's array is in point `t`'s block iff each coordinate is in the block's range. -/
theorem mem_blk5 (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v26_0).slice (win0_5.rect t)).set ↔ _
  rw [View.set_slice_whole, Rect.mem_set_unit]
  exact Iff.rfl

theorem mem_blk6 (t : Fin cfg0.N) (i : S1x128.Idx) :
    i ∈ ((cfg0.win 6).blk t).view.set ↔ ∀ a : Fin 2, win0_6.index t a * S1x128.size a ≤ (i a).val
      ∧ (i a).val < win0_6.index t a * S1x128.size a + S1x128.size a := by
  show i ∈ ((View.whole main_v26_1).slice (win0_6.rect t)).set ↔ _
  rw [View.set_slice_whole, Rect.mem_set_unit]
  exact Iff.rfl

theorem mem_blk7 (t : Fin cfg0.N) (i : S1x128.Idx) :
    i ∈ ((cfg0.win 7).blk t).view.set ↔ ∀ a : Fin 2, win0_7.index t a * S1x128.size a ≤ (i a).val
      ∧ (i a).val < win0_7.index t a * S1x128.size a + S1x128.size a := by
  show i ∈ ((View.whole main_v26_2).slice (win0_7.rect t)).set ↔ _
  rw [View.set_slice_whole, Rect.mem_set_unit]
  exact Iff.rfl

/-- Row `i` of the first output is written back by point `i / 5000`. -/
theorem cover5 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by omega⟩, rfl⟩
  refine ⟨t, flush0_5 t, ?_⟩
  rw [mem_blk5]
  obtain ⟨-, -, -, -, -, -, -, -, -, -, e0, e1, -⟩ := idx_facts t
  intro a
  match a with
  | ⟨0, _⟩ =>
    show win0_5.index t 0 * 5000 ≤ (i 0).val ∧ (i 0).val < win0_5.index t 0 * 5000 + 5000
    rw [e0, ht]; omega
  | ⟨1, _⟩ =>
    show win0_5.index t 1 * 128 ≤ (i 1).val ∧ (i 1).val < win0_5.index t 1 * 128 + 128
    rw [e1]; omega

/-- The last grid point. -/
def tLast : Fin cfg0.N := ⟨19, by rw [show cfg0.N = 20 from N_0]; decide⟩

/-- The last point's write-back covers the second output's one row. -/
theorem cover6 (i : S1x128.Idx) :
    ∃ t : Fin cfg0.N, (cfg0.win 6).flush t = true ∧ i ∈ ((cfg0.win 6).blk t).view.set := by
  have hi0 : (i 0).val < 1 := (i 0).isLt
  have hi1 : (i 1).val < 128 := (i 1).isLt
  refine ⟨tLast, (flush0_6 tLast).mpr rfl, ?_⟩
  rw [mem_blk6]
  obtain ⟨-, -, -, -, -, -, -, -, -, -, -, -, e0, e1, -⟩ := idx_facts tLast
  intro a
  match a with
  | ⟨0, _⟩ =>
    show win0_6.index tLast 0 * 1 ≤ (i 0).val ∧ (i 0).val < win0_6.index tLast 0 * 1 + 1
    rw [e0]; omega
  | ⟨1, _⟩ =>
    show win0_6.index tLast 1 * 128 ≤ (i 1).val ∧ (i 1).val < win0_6.index tLast 1 * 128 + 128
    rw [e1]; omega

/-- The last point's write-back covers the third output's one row. -/
theorem cover7 (i : S1x128.Idx) :
    ∃ t : Fin cfg0.N, (cfg0.win 7).flush t = true ∧ i ∈ ((cfg0.win 7).blk t).view.set := by
  have hi0 : (i 0).val < 1 := (i 0).isLt
  have hi1 : (i 1).val < 128 := (i 1).isLt
  refine ⟨tLast, (flush0_7 tLast).mpr rfl, ?_⟩
  rw [mem_blk7]
  obtain ⟨-, -, -, -, -, -, -, -, -, -, -, -, -, -, e0, e1⟩ := idx_facts tLast
  intro a
  match a with
  | ⟨0, _⟩ =>
    show win0_7.index tLast 0 * 1 ≤ (i 0).val ∧ (i 0).val < win0_7.index tLast 0 * 1 + 1
    rw [e0]; omega
  | ⟨1, _⟩ =>
    show win0_7.index tLast 1 * 128 ≤ (i 1).val ∧ (i 1).val < win0_7.index tLast 1 * 128 + 128
    rw [e1]; omega

/-- The one block of the second output read through its window is the array itself. -/
theorem read_blk6 (t : Fin cfg0.N) (G : Vec Ideal S1x128 .f32) (j : Fin 128) :
    ((cfg0.win 6).blk t).view.read (Elt Ideal) G (ix2 0 j) = G (ix2 0 j) := by
  rw [View.read_apply]
  show G (((cfg0.win 6).blk t).view.emb (ix2 0 j)) = _
  rw [emb6 t j]

/-- The one block of the third output read through its window is the array itself. -/
theorem read_blk7 (t : Fin cfg0.N) (G : Vec Ideal S1x128 .f32) (j : Fin 128) :
    ((cfg0.win 7).blk t).view.read (Elt Ideal) G (ix2 0 j) = G (ix2 0 j) := by
  rw [View.read_apply]
  show G (((cfg0.win 7).blk t).view.emb (ix2 0 j)) = _
  rw [emb7 t j]

/-- The second output is written back once, after the last point: the column sums over all rows. -/
theorem flushed6_eq (c : Dev nD) (t : Fin cfg0.N) (hf : (cfg0.win 6).flush t = true) :
    (dat0 (F := Ideal) V c).flushed 6 t
      = ((cfg0.win 6).blk t).view.read (Elt Ideal) (Spec.sumK (V c main_arg0) (V c main_v22) (V c main_v23) (V c main_v24) (V c main_v25)) := by
  have hN : cfg0.N = 20 := N_0
  have h19 : t.val = 19 := by have := (flush0_6 t).mp hf; have := t.isLt; omega
  show (cfg0.win 6).cut (grid0.coords t) ((dat0 (F := Ideal) V c).after 6 t) = _
  rw [after0_6]
  funext y
  obtain ⟨a, j, rfl⟩ : ∃ (a : Fin 1) (j : Fin 128), y = ix2 a j :=
    ⟨y 0, y 1, eq_ix2 (n0 := 1) (n1 := 128) y⟩
  obtain rfl : a = 0 := Subsingleton.elim _ _
  refine Eq.trans ?_ (read_blk6 t (Spec.sumK (V c main_arg0) (V c main_v22) (V c main_v23) (V c main_v24) (V c main_v25)) j).symm
  show (outsAt0 V c t.val t.isLt).2.1 (ix2 0 j) = _
  rw [sum_after V c j t.val t.isLt]
  unfold Spec.sumK
  exact sum_rows (fun i => hval V c i j) t.val h19 t.isLt

/-- The third output is written back once, after the last point: the column sums of squares over all rows. -/
theorem flushed7_eq (c : Dev nD) (t : Fin cfg0.N) (hf : (cfg0.win 7).flush t = true) :
    (dat0 (F := Ideal) V c).flushed 7 t
      = ((cfg0.win 7).blk t).view.read (Elt Ideal) (Spec.sumsqK (V c main_arg0) (V c main_v22) (V c main_v23) (V c main_v24) (V c main_v25)) := by
  have hN : cfg0.N = 20 := N_0
  have h19 : t.val = 19 := by have := (flush0_7 t).mp hf; have := t.isLt; omega
  show (cfg0.win 7).cut (grid0.coords t) ((dat0 (F := Ideal) V c).after 7 t) = _
  rw [after0_7]
  funext y
  obtain ⟨a, j, rfl⟩ : ∃ (a : Fin 1) (j : Fin 128), y = ix2 a j :=
    ⟨y 0, y 1, eq_ix2 (n0 := 1) (n1 := 128) y⟩
  obtain rfl : a = 0 := Subsingleton.elim _ _
  refine Eq.trans ?_ (read_blk7 t (Spec.sumsqK (V c main_arg0) (V c main_v22) (V c main_v23) (V c main_v24) (V c main_v25)) j).symm
  show (outsAt0 V c t.val t.isLt).2.2 (ix2 0 j) = _
  rw [sumsq_after V c j t.val t.isLt]
  unfold Spec.sumsqK
  exact sum_rows (fun i => hval V c i j * hval V c i j) t.val h19 t.isLt

/-- The first output array after the region: the normalised linear layer, row by row. -/
theorem region0_h (c : Dev nD) :
    (dat0 (F := Ideal) V c).arrAt 5 cfg0.N
      = Spec.hK (V c main_arg0) (V c main_v22) (V c main_v23) (V c main_v24) (V c main_v25) :=
  (dat0 (F := Ideal) V c).arrAt_eq_of_cover 5 (Spec.hK (V c main_arg0) (V c main_v22) (V c main_v23) (V c main_v24) (V c main_v25)) (fun t _ => flushed5_eq V c t) cover5

/-- The second output array after the region: the column sums over all rows. -/
theorem region0_sum (c : Dev nD) :
    (dat0 (F := Ideal) V c).arrAt 6 cfg0.N
      = Spec.sumK (V c main_arg0) (V c main_v22) (V c main_v23) (V c main_v24) (V c main_v25) :=
  (dat0 (F := Ideal) V c).arrAt_eq_of_cover 6 (Spec.sumK (V c main_arg0) (V c main_v22) (V c main_v23) (V c main_v24) (V c main_v25)) (flushed6_eq V c) cover6

/-- The third output array after the region: the column sums of squares over all rows. -/
theorem region0_sumsq (c : Dev nD) :
    (dat0 (F := Ideal) V c).arrAt 7 cfg0.N
      = Spec.sumsqK (V c main_arg0) (V c main_v22) (V c main_v23) (V c main_v24) (V c main_v25) :=
  (dat0 (F := Ideal) V c).arrAt_eq_of_cover 7 (Spec.sumsqK (V c main_arg0) (V c main_v22) (V c main_v23) (V c main_v24) (V c main_v25)) (flushed7_eq V c) cover7

end Cert.KernelIdeal.Val

end
-- ==== Proof.KRegion1.lean ====
/-
  What the second pallas_call leaves in its output array, as a function of the arrays it reads: block `t`
  holds rows 5000·t … 5000·t+4999 of the batch-normalised, shifted, residual-added and clipped rows; the
  twenty blocks tile the array.
-/
import proofs.«169978_j18459769438300_1_alg».proof.Proof.Gen.KernelIdeal.Frame
import proofs.«169978_j18459769438300_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

namespace Region1

/-! ## The body at one entry

The body is pointwise in the two 5000×128 blocks; each of the four 1×128 rows (mean, inverse standard deviation,
scale, shift) is repeated along the 5000 rows, so entry (r, j) sees lane j of each row. -/

/-- The body's result at row r, lane j of a block: subtract the mean's lane, multiply by the inverse standard
    deviation's lane and by the scale's lane, add the shift's lane and the residual entry, clip at zero. The
    casts are to the same shape, the broadcasts repeat row 0, and the clipping constant is the zero word. -/
theorem body_at (h x : Vec Ideal S5000x128 .f32) (mu iv g be : Vec Ideal S1x128 .f32) (r : Fin 5000) (j : Fin 128) :
    k1_pay1 (F := Ideal) h x mu iv g be (ix2 r j)
      = max (((((h (ix2 r j) - mu (ix2 0 j)) * iv (ix2 0 j)) * g (ix2 0 j)) + be (ix2 0 j)) + x (ix2 r j)) 0 := by
  unfold k1_pay1
  simp only [maximumf_apply, addf_apply, mulf_apply, subf_apply, broadcast_apply, shapeCast_self, broadcastTo_1b_ab_apply]
  exact congrArg _ Ideal.ofBits_zero_f32

/-! ## Where a block sits in its array -/

/-- The zero offsets of a whole-block access, as the constant function. -/
theorem zeroOffsets : (![0, 0] : Fin 2 → Nat) = fun _ => 0 := funext fun a => by fin_cases a <;> rfl

/-- The block indices over the twenty grid points: the three 5000×128 windows (normalised rows, residual, output)
    are at block (t, 0) at point t; the four 1×128 windows stay at block (0, 0). -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row r of the block at point t is row 5000·t + r of the 100000-row array. -/
def rowOf (t : Fin cfg1.N) (r : Fin 5000) : Fin 100000 :=
  ⟨t.val * 5000 + r.val, by have h1 := t.isLt; have h2 := r.isLt; have hN : cfg1.N = 20 := N_1; omega⟩

/-- Element (r, j) of the block of the normalised rows at point t sits at row 5000·t + r, lane j of its array: on each axis the
    block index times the block's extent plus the coordinate inside the block. -/
theorem emb_rows (t : Fin cfg1.N) (r : Fin 5000) (j : Fin 128) :
    ((cfg1.win 0).blk t).view.emb (ix2 r j) = ix2 (rowOf t r) j := by
  obtain ⟨e00, e01, e10, e11, e20, e21, e30, e31, e40, e41, e50, e51, e60, e61⟩ := blockIndex t
  funext a; apply Fin.ext
  match a with
  | ⟨0, _⟩ => show win1_0.index t (0 : Fin 2) * 5000 + 1 * r.val = t.val * 5000 + r.val; omega
  | ⟨1, _⟩ => show win1_0.index t (1 : Fin 2) * 128 + 1 * j.val = j.val; omega

/-- Element (r, j) of the block of the residual input at point t sits at row 5000·t + r, lane j of its array: on each axis the
    block index times the block's extent plus the coordinate inside the block. -/
theorem emb_resid (t : Fin cfg1.N) (r : Fin 5000) (j : Fin 128) :
    ((cfg1.win 1).blk t).view.emb (ix2 r j) = ix2 (rowOf t r) j := by
  obtain ⟨e00, e01, e10, e11, e20, e21, e30, e31, e40, e41, e50, e51, e60, e61⟩ := blockIndex t
  funext a; apply Fin.ext
  match a with
  | ⟨0, _⟩ => show win1_1.index t (0 : Fin 2) * 5000 + 1 * r.val = t.val * 5000 + r.val; omega
  | ⟨1, _⟩ => show win1_1.index t (1 : Fin 2) * 128 + 1 * j.val = j.val; omega

/-- Element (r, j) of the block of the output at point t sits at row 5000·t + r, lane j of its array: on each axis the
    block index times the block's extent plus the coordinate inside the block. -/
theorem emb_out (t : Fin cfg1.N) (r : Fin 5000) (j : Fin 128) :
    ((cfg1.win 6).blk t).view.emb (ix2 r j) = ix2 (rowOf t r) j := by
  obtain ⟨e00, e01, e10, e11, e20, e21, e30, e31, e40, e41, e50, e51, e60, e61⟩ := blockIndex t
  funext a; apply Fin.ext
  match a with
  | ⟨0, _⟩ => show win1_6.index t (0 : Fin 2) * 5000 + 1 * r.val = t.val * 5000 + r.val; omega
  | ⟨1, _⟩ => show win1_6.index t (1 : Fin 2) * 128 + 1 * j.val = j.val; omega

/-- Lane j of the one-row block of the mean is lane j of its one-row array, at every point (the block index is (0, 0)). -/
theorem emb_mean (t : Fin cfg1.N) (j : Fin 128) :
    ((cfg1.win 2).blk t).view.emb (ix2 (0 : Fin 1) j) = ix2 (0 : Fin 1) j := by
  obtain ⟨e00, e01, e10, e11, e20, e21, e30, e31, e40, e41, e50, e51, e60, e61⟩ := blockIndex t
  funext a; apply Fin.ext
  match a with
  | ⟨0, _⟩ => show win1_2.index t (0 : Fin 2) * 1 + 1 * 0 = 0; omega
  | ⟨1, _⟩ => show win1_2.index t (1 : Fin 2) * 128 + 1 * j.val = j.val; omega

/-- Lane j of the one-row block of the inverse standard deviation is lane j of its one-row array, at every point (the block index is (0, 0)). -/
theorem emb_inv (t : Fin cfg1.N) (j : Fin 128) :
    ((cfg1.win 3).blk t).view.emb (ix2 (0 : Fin 1) j) = ix2 (0 : Fin 1) j := by
  obtain ⟨e00, e01, e10, e11, e20, e21, e30, e31, e40, e41, e50, e51, e60, e61⟩ := blockIndex t
  funext a; apply Fin.ext
  match a with
  | ⟨0, _⟩ => show win1_3.index t (0 : Fin 2) * 1 + 1 * 0 = 0; omega
  | ⟨1, _⟩ => show win1_3.index t (1 : Fin 2) * 128 + 1 * j.val = j.val; omega

/-- Lane j of the one-row block of the scale is lane j of its one-row array, at every point (the block index is (0, 0)). -/
theorem emb_scale (t : Fin cfg1.N) (j : Fin 128) :
    ((cfg1.win 4).blk t).view.emb (ix2 (0 : Fin 1) j) = ix2 (0 : Fin 1) j := by
  obtain ⟨e00, e01, e10, e11, e20, e21, e30, e31, e40, e41, e50, e51, e60, e61⟩ := blockIndex t
  funext a; apply Fin.ext
  match a with
  | ⟨0, _⟩ => show win1_4.index t (0 : Fin 2) * 1 + 1 * 0 = 0; omega
  | ⟨1, _⟩ => show win1_4.index t (1 : Fin 2) * 128 + 1 * j.val = j.val; omega

/-- Lane j of the one-row block of the shift is lane j of its one-row array, at every point (the block index is (0, 0)). -/
theorem emb_shift (t : Fin cfg1.N) (j : Fin 128) :
    ((cfg1.win 5).blk t).view.emb (ix2 (0 : Fin 1) j) = ix2 (0 : Fin 1) j := by
  obtain ⟨e00, e01, e10, e11, e20, e21, e30, e31, e40, e41, e50, e51, e60, e61⟩ := blockIndex t
  funext a; apply Fin.ext
  match a with
  | ⟨0, _⟩ => show win1_5.index t (0 : Fin 2) * 1 + 1 * 0 = 0; omega
  | ⟨1, _⟩ => show win1_5.index t (1 : Fin 2) * 128 + 1 * j.val = j.val; omega

/-! ## The input blocks as restrictions of their arrays -/

/-- The block of the normalised rows at point t, read at (r, j), is the array at row 5000·t + r, lane j. -/
theorem blk_rows (c : Dev nD) (t : Fin cfg1.N) (r : Fin 5000) (j : Fin 128) :
    iblk1 V c 0 t (ix2 r j) = V c main_v26_0 (ix2 (rowOf t r) j) := by
  show V c main_v26_0 (((cfg1.win 0).blk t).view.emb (ix2 r j)) = _
  rw [emb_rows]

/-- The block of the residual input at point t, read at (r, j), is the array at row 5000·t + r, lane j. -/
theorem blk_resid (c : Dev nD) (t : Fin cfg1.N) (r : Fin 5000) (j : Fin 128) :
    iblk1 V c 1 t (ix2 r j) = V c main_arg0 (ix2 (rowOf t r) j) := by
  show V c main_arg0 (((cfg1.win 1).blk t).view.emb (ix2 r j)) = _
  rw [emb_resid]

/-- The one-row block of the mean, read at lane j, is the row itself at lane j, at every point. -/
theorem blk_mean (c : Dev nD) (t : Fin cfg1.N) (j : Fin 128) :
    iblk1 V c 2 t (ix2 (0 : Fin 1) j) = V c main_v28 (ix2 (0 : Fin 1) j) := by
  show V c main_v28 (((cfg1.win 2).blk t).view.emb (ix2 (0 : Fin 1) j)) = _
  rw [emb_mean]

/-- The one-row block of the inverse standard deviation, read at lane j, is the row itself at lane j, at every point. -/
theorem blk_inv (c : Dev nD) (t : Fin cfg1.N) (j : Fin 128) :
    iblk1 V c 3 t (ix2 (0 : Fin 1) j) = V c main_v35 (ix2 (0 : Fin 1) j) := by
  show V c main_v35 (((cfg1.win 3).blk t).view.emb (ix2 (0 : Fin 1) j)) = _
  rw [emb_inv]

/-- The one-row block of the scale, read at lane j, is the row itself at lane j, at every point. -/
theorem blk_scale (c : Dev nD) (t : Fin cfg1.N) (j : Fin 128) :
    iblk1 V c 4 t (ix2 (0 : Fin 1) j) = V c main_v36 (ix2 (0 : Fin 1) j) := by
  show V c main_v36 (((cfg1.win 4).blk t).view.emb (ix2 (0 : Fin 1) j)) = _
  rw [emb_scale]

/-- The one-row block of the shift, read at lane j, is the row itself at lane j, at every point. -/
theorem blk_shift (c : Dev nD) (t : Fin cfg1.N) (j : Fin 128) :
    iblk1 V c 5 t (ix2 (0 : Fin 1) j) = V c main_v37 (ix2 (0 : Fin 1) j) := by
  show V c main_v37 (((cfg1.win 5).blk t).view.emb (ix2 (0 : Fin 1) j)) = _
  rw [emb_shift]

/-! ## What a point writes back, and the tiling -/

/-- What point t writes back is block t of the whole-array function: the one store of the body fills the block
    with the body's result on the input blocks; at (r, j) each 5000×128 block is its array at row 5000·t + r and
    each row block is its row, which is the whole-array function at row 5000·t + r, lane j. -/
theorem written_eq (c : Dev nD) (t : Fin cfg1.N) :
    (dat1 (F := Ideal) V c).flushed 6 t = ((cfg1.win 6).blk t).view.read (Elt Ideal)
      (Spec.bnK (V c main_v26_0) (V c main_arg0) (V c main_v28) (V c main_v35) (V c main_v36) (V c main_v37)) := by
  show (cfg1.win 6).cut (grid1.coords t) ((dat1 V c).after 6 t) = _
  rw [after1_6]
  unfold out1_6
  rw [View.canon_unit_zero zeroOffsets]
  simp only [View.ld_unit_zero (S := S5000x128) zeroOffsets, View.ld_unit_zero (S := S1x128) zeroOffsets]
  funext y
  obtain ⟨r, j, rfl⟩ : ∃ (r : Fin 5000) (j : Fin 128), y = ix2 r j := ⟨y 0, y 1, eq_ix2 y⟩
  refine (body_at (iblk1 V c 0 t) (iblk1 V c 1 t) (iblk1 V c 2 t) (iblk1 V c 3 t) (iblk1 V c 4 t) (iblk1 V c 5 t) r j).trans ?_
  rw [blk_rows, blk_resid, blk_mean, blk_inv, blk_scale, blk_shift]
  show _ = Spec.bnK (V c main_v26_0) (V c main_arg0) (V c main_v28) (V c main_v35) (V c main_v36) (V c main_v37) (((cfg1.win 6).blk t).view.emb (ix2 r j))
  rw [emb_out]
  rfl

/-- An index of the output array is in point t's block iff each coordinate is in the block's range on its axis. -/
theorem mem_block (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v38).slice (win1_6.rect t)).set ↔ _
  rw [View.set_slice_whole, Rect.mem_set_unit]
  exact Iff.rfl

/-- The twenty blocks tile the array: row i lies in the block of point i / 5000, and every lane is in every block. -/
theorem tiles (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by omega⟩, rfl⟩
  obtain ⟨e00, e01, e10, e11, e20, e21, e30, e31, e40, e41, e50, e51, e60, e61⟩ := blockIndex t
  refine ⟨t, flush1_6 t, ?_⟩
  rw [mem_block]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

end Region1

/-- The output array after the region. -/
theorem region1_out (c : Dev nD) :
    (dat1 (F := Ideal) V c).arrAt 6 cfg1.N
      = Spec.bnK (V c main_v26_0) (V c main_arg0) (V c main_v28) (V c main_v35) (V c main_v36) (V c main_v37) :=
  (dat1 V c).arrAt_eq_of_cover 6 (Spec.bnK (V c main_v26_0) (V c main_arg0) (V c main_v28) (V c main_v35) (V c main_v36) (V c main_v37))
    (fun t _ => Region1.written_eq V c t) Region1.tiles

end Cert.KernelIdeal.Val

end
-- ==== Proof.MathVar.lean ====
/-
  Real-number facts behind the batch statistics: the constants' values, the agreement of the one-pass and
  two-pass variance on real data, and that a real row scaled by its floored Euclidean norm stays real.
-/
import proofs.«169978_j18459769438300_1_alg».proof.Proof.Spec
import Mathlib.Data.EReal.Basic
import Mathlib.Data.EReal.Operations
import Mathlib.Data.EReal.Inv
import Mathlib.Algebra.BigOperators.Field
import Mathlib.Analysis.SpecialFunctions.Pow.Real
import Mathlib.Tactic.FieldSimp
import Mathlib.Tactic.Ring
import Mathlib.Tactic.NormNum
import Mathlib.Tactic.Positivity

noncomputable section

namespace Cert.Math

open Idealize.ShloMosaic Cert.Spec

/-- The f32 pattern of 100000.0 denotes the real 100000. -/
theorem nodes_eq : Spec.nodes = ((100000 : ℝ) : EReal) := by
  simp [Spec.nodes, Ideal.ofBits, Ideal.ieee, -EReal.coe_mul]; norm_num

/-- The f32 nearest 1e-12 denotes a positive real. -/
theorem normEps_pos : ∃ e : ℝ, 0 < e ∧ Spec.normEps = (e : EReal) := by
  refine ⟨(9223372 : ℝ) * (2 : ℝ) ^ (-63 : ℤ), by positivity, ?_⟩
  simp [Spec.normEps, Ideal.ofBits, Ideal.ieee, -EReal.coe_mul]

/-- The coercion of the reals into the extended reals carries a finite sum to the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The variance identity on the reals, over any finite index whose size is the divisor `N ≠ 0`:
    with `μ = (Σ r)/N`, `(Σ r²)/N − μ² = (Σ (r − μ)²)/N`. Expanding the square gives
    `Σ r² − 2μ Σ r + N μ²`, and `Σ r = N μ`. -/
theorem real_var {ι : Type*} [Fintype ι] (r : ι → ℝ) (N : ℝ) (hN : (Fintype.card ι : ℝ) = N) (hN0 : N ≠ 0) :
    (∑ i, r i * r i) * (1 / N) - (∑ i, r i) * (1 / N) * ((∑ i, r i) * (1 / N))
      = (∑ i, (r i - (∑ i, r i) * (1 / N)) * (r i - (∑ i, r i) * (1 / N))) * (1 / N) := by
  generalize hS : (∑ i, r i) = S
  have h : ∀ i, (r i - S * (1 / N)) * (r i - S * (1 / N))
      = r i * r i - (2 * (S * (1 / N))) * r i + (S * (1 / N)) * (S * (1 / N)) := fun i => by ring
  rw [Finset.sum_congr rfl (fun i _ => h i), Finset.sum_add_distrib, Finset.sum_sub_distrib,
    ← Finset.mul_sum, hS, Finset.sum_const, Finset.card_univ, nsmul_eq_mul, hN]
  field_simp
  ring

/-- One-pass and two-pass variance agree on real data: with μ = (Σ p)/N over exactly N = 100000 terms,
    (Σ p²)/N − μ² = (Σ (p − μ)²)/N. Every `p i` must be real: the identity fails at infinities. -/
theorem var_two_pass (p : Fin 100000 → EReal) (hp : ∀ i, ∃ r : ℝ, p i = (r : EReal)) :
    Ideal.div (∑ i, p i * p i) Spec.nodes - Ideal.div (∑ i, p i) Spec.nodes * Ideal.div (∑ i, p i) Spec.nodes
      = Ideal.div (∑ i, (p i - Ideal.div (∑ i, p i) Spec.nodes) * (p i - Ideal.div (∑ i, p i) Spec.nodes)) Spec.nodes := by
  choose r hr using hp
  obtain rfl : p = fun i => (r i : EReal) := funext hr
  have hN0 : (100000 : ℝ) ≠ 0 := by norm_num
  simp only [nodes_eq, Ideal.div_coe hN0, ← EReal.coe_mul, ← coe_sum, ← EReal.coe_sub]
  rw [EReal.coe_eq_coe_iff]
  exact real_var r 100000 (by simp) hN0

/-- A row of reals scaled by its floored Euclidean norm is a row of reals: the floor is positive, so the
    divisor is a nonzero real. -/
theorem unit_real (p : Fin 100000 → Fin 128 → EReal) (hp : ∀ i j, ∃ r : ℝ, p i j = (r : EReal)) :
    ∀ i j, ∃ r : ℝ, Spec.unit p i j = (r : EReal) := by
  intro i j
  choose r hr using hp
  obtain ⟨e, he, hee⟩ := normEps_pos
  have hsum : (∑ j : Fin 128, p i j * p i j) = ((∑ j : Fin 128, r i j * r i j : ℝ) : EReal) := by
    rw [coe_sum]
    exact Finset.sum_congr rfl (fun k _ => by rw [hr i k, EReal.coe_mul])
  have hnn : ¬ (∑ j : Fin 128, r i j * r i j) < 0 :=
    not_lt.mpr (Finset.sum_nonneg (fun k _ => mul_self_nonneg (r i k)))
  have hnorm : Spec.rowNorm p i = ((max (Real.sqrt (∑ j : Fin 128, r i j * r i j)) e : ℝ) : EReal) := by
    rw [Spec.rowNorm, hsum, Ideal.sqrt_coe, if_neg hnn, hee, EReal.coe_strictMono.monotone.map_max]
  have hpos : max (Real.sqrt (∑ j : Fin 128, r i j * r i j)) e ≠ 0 :=
    ne_of_gt (lt_of_lt_of_le he (le_max_right _ _))
  refine ⟨r i j * (1 / max (Real.sqrt (∑ j : Fin 128, r i j * r i j)) e), ?_⟩
  rw [Spec.unit, hnorm, Ideal.div_coe hpos, hr i j, EReal.coe_mul]

end Cert.Math

end
-- ==== Proof.MathBridge.lean ====
/-
  The kernel side's result is the reference's. The 256-term product of the concatenated row with the whole
  weight splits into the two 128-term products (a regrouping of a finite sum, true on all extended reals);
  the two variance formulas agree because every normalised entry is a real number.
-/
import proofs.«169978_j18459769438300_1_alg».proof.Proof.Spec
import proofs.«169978_j18459769438300_1_alg».proof.Proof.MathVar
import Mathlib.Algebra.BigOperators.Fin
import Mathlib.Data.EReal.Basic

noncomputable section

namespace Cert.Math

open Idealize.ShloMosaic Idealize.ShloMosaic.ValueIdx Cert.Spec

/-- A finite sum of real numbers, taken in the extended reals, is a real number. -/
theorem sum_real {ι : Type} (s : Finset ι) (f : ι → EReal) (hf : ∀ k, ∃ r : ℝ, f k = (r : EReal)) :
    ∃ r : ℝ, ∑ k ∈ s, f k = (r : EReal) := by
  classical
  induction s using Finset.induction_on with
  | empty => exact ⟨0, by simp⟩
  | insert k s hk ih =>
    obtain ⟨r, hr⟩ := ih
    obtain ⟨q, hq⟩ := hf k
    exact ⟨q + r, by rw [Finset.sum_insert hk, hr, hq, EReal.coe_add]⟩

/-- The first 128 columns of the concatenated row are the features. -/
theorem cat_left (x a : E2 100000 128) (i : Fin 100000) (k : Fin 128) :
    cat x a i (⟨k.val, by omega⟩ : Fin 256) = x (ix2 i k) := by
  unfold cat
  rw [dif_pos (show (⟨k.val, by omega⟩ : Fin 256).val < 128 from k.isLt)]

/-- The last 128 columns of the concatenated row are the neighbour mean. -/
theorem cat_right (x a : E2 100000 128) (i : Fin 100000) (k : Fin 128) :
    cat x a i (⟨128 + k.val, by omega⟩ : Fin 256) = a (ix2 i k) := by
  unfold cat
  rw [dif_neg (show ¬ (⟨128 + k.val, by omega⟩ : Fin 256).val < 128 from by simp)]
  congr 2
  apply Fin.ext
  simp

/-- The product of the concatenated row with the whole weight is the sum of the two half products: the sum
    over 256 = 128 + 128 columns is regrouped into its first and last 128 terms. No finiteness is needed. -/
theorem lin_split (x a : E2 100000 128) (W : E2 256 128) (w1 w2 : E2 128 128)
    (hw1 : ∀ (k j : Fin 128), w1 (ix2 k j) = W (ix2 (⟨k.val, by omega⟩ : Fin 256) j))
    (hw2 : ∀ (k j : Fin 128), w2 (ix2 k j) = W (ix2 (⟨128 + k.val, by omega⟩ : Fin 256) j))
    (i : Fin 100000) (j : Fin 128) :
    (∑ k : Fin 256, cat x a i k * W (ix2 k j))
      = (∑ k : Fin 128, x (ix2 i k) * w1 (ix2 k j)) + ∑ k : Fin 128, a (ix2 i k) * w2 (ix2 k j) := by
  have h := Fin.sum_univ_add (M := EReal) (a := 128) (b := 128) (fun k => cat x a i k * W (ix2 k j))
  refine h.trans ?_
  congr 1
  · refine Finset.sum_congr rfl (fun k _ => ?_)
    rw [hw1 k j]
    exact congrArg (· * _) (cat_left x a i k)
  · refine Finset.sum_congr rfl (fun k _ => ?_)
    rw [hw2 k j]
    exact congrArg (· * _) (cat_right x a i k)

/-- The two linear layers agree entry by entry. -/
theorem linK_eq_linR (x a : E2 100000 128) (W : E2 256 128) (b : E1 128) (w1 w2 : E2 128 128) (b2 : E2 1 128)
    (hw1 : ∀ (k j : Fin 128), w1 (ix2 k j) = W (ix2 (⟨k.val, by omega⟩ : Fin 256) j))
    (hw2 : ∀ (k j : Fin 128), w2 (ix2 k j) = W (ix2 (⟨128 + k.val, by omega⟩ : Fin 256) j))
    (hb : ∀ j : Fin 128, b2 (ix2 0 j) = b (ix1 j)) :
    linK x a w1 w2 b2 = linR x a W b := by
  funext i j
  unfold linK linR
  rw [lin_split x a W w1 w2 hw1 hw2 i j, hb j]

/-- Every entry of the concatenated row is real when the features and the neighbour mean are. -/
theorem cat_real (x a : E2 100000 128) (hx : Real2 x) (ha : Real2 a) (i : Fin 100000) (k : Fin 256) :
    ∃ r : ℝ, cat x a i k = (r : EReal) := by
  unfold cat
  split
  · exact hx _
  · exact ha _

/-- The reference's linear layer is real entry by entry: a finite sum of products of reals plus a real. -/
theorem linR_real (x a : E2 100000 128) (W : E2 256 128) (b : E1 128)
    (hx : Real2 x) (ha : Real2 a) (hW : Real2 W) (hb' : Real1 b) (i : Fin 100000) (j : Fin 128) :
    ∃ r : ℝ, linR x a W b i j = (r : EReal) := by
  unfold linR
  obtain ⟨s, hs⟩ := sum_real Finset.univ (fun k : Fin 256 => cat x a i k * W (ix2 k j)) (fun k => by
    obtain ⟨p, hp⟩ := cat_real x a hx ha i k
    obtain ⟨q, hq⟩ := hW (ix2 k j)
    exact ⟨p * q, by rw [hp, hq, EReal.coe_mul]⟩)
  obtain ⟨t, ht⟩ := hb' (ix1 j)
  exact ⟨s + t, by rw [hs, ht, EReal.coe_add]⟩

/-- The kernel side's result is the reference's: the 256-term product splits into two 128-term products (a regrouping of
    a finite sum, true on all extended reals); the two variance formulas agree because every normalised entry is real. -/
theorem outK_eq_outR
    (x a : E2 100000 128) (W : E2 256 128) (b g be : E1 128) (w1 w2 : E2 128 128) (b2 g2 be2 : E2 1 128)
    (hw1 : ∀ (k j : Fin 128), w1 (ix2 k j) = W (ix2 (⟨k.val, by omega⟩ : Fin 256) j))
    (hw2 : ∀ (k j : Fin 128), w2 (ix2 k j) = W (ix2 (⟨128 + k.val, by omega⟩ : Fin 256) j))
    (hb : ∀ j : Fin 128, b2 (ix2 0 j) = b (ix1 j)) (hg : ∀ j : Fin 128, g2 (ix2 0 j) = g (ix1 j))
    (hbe : ∀ j : Fin 128, be2 (ix2 0 j) = be (ix1 j))
    (hx : Real2 x) (ha : Real2 a) (hW : Real2 W) (hb' : Real1 b) :
    outK x a w1 w2 b2 g2 be2 = outR x a W b g be := by
  have hlin : linK x a w1 w2 b2 = linR x a W b := linK_eq_linR x a W b w1 w2 b2 hw1 hw2 hb
  have hu : ∀ i j, ∃ r : ℝ, unit (linR x a W b) i j = (r : EReal) :=
    unit_real (linR x a W b) (linR_real x a W b hx ha hW hb')
  funext y
  have hvar := var_two_pass (fun i => unit (linR x a W b) i (y 1)) (fun i => hu i (y 1))
  unfold outK bnK hK sumK sumsqK invK varK meanK outR varR meanR
  rw [hlin, hg (y 1), hbe (y 1)]
  exact congrArg (fun v => max (((((unit (linR x a W b) (y 0) (y 1)
      - Ideal.div (∑ i : Fin 100000, unit (linR x a W b) i (y 1)) nodes)
      * Ideal.rsqrt (v + bnEps)) * g (ix1 (y 1))) + be (ix1 (y 1))) + x y) 0) hvar

end Cert.Math

end
-- ==== Proof.LibScatterMean.lean ====
/-
  The mean over in-neighbours, with a self loop at every node, of real node features is real.

  A StableHLO gather reads entries of its operand; a scatter with an add body is, at the ideal
  values, each operand entry plus a finite sum of update entries; the count of updates landing on a
  node is a natural number, and it is at least one as soon as some update row carries that node's
  index; a real number divided by a real number that is not zero is real.
-/
import Idealize.ShloMosaic.PureOps.ShapeOps
import Idealize.ShloMosaic.PureOps.Dims
import Idealize.ShloMosaic.PureOps.Contract
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

namespace Cert.Lib.ScatterMean

open Idealize.ShloMosaic Idealize.ShloMosaic.ValueIdx

abbrev S_ : Shape := ⟨0, ![]⟩
abbrev S100000 : Shape := ⟨1, ![100000]⟩
abbrev S1600000 : Shape := ⟨1, ![1600000]⟩
abbrev S1700000 : Shape := ⟨1, ![1700000]⟩
abbrev S1700000x1 : Shape := ⟨2, ![1700000, 1]⟩
abbrev S1700000x128 : Shape := ⟨2, ![1700000, 128]⟩
abbrev S100000x1 : Shape := ⟨2, ![100000, 1]⟩
abbrev S100000x128 : Shape := ⟨2, ![100000, 128]⟩

variable {w : Nat}

/-! ## Real values pass through a gather, a finite sum, and a scatter that adds -/

/-- A gather of an array whose entries are all real numbers has only real entries, whatever its
    dimension numbers and start indices are: each result entry is some operand entry. -/
theorem gather_real {s si t : Shape} (d : GatherDims s si t) (x : s.Idx → EReal)
    (hx : ∀ y, ∃ r : ℝ, x y = (r : EReal)) (idx : IVec si w) :
    ∀ j, ∃ r : ℝ, Host.gather d x idx j = (r : EReal) :=
  fun j => hx (d.operandIdx j idx)

/-- A finite sum of extended reals that are all real numbers is a real number. -/
theorem sum_real {ι : Type} (s : Finset ι) (f : ι → EReal) (hf : ∀ j ∈ s, ∃ r : ℝ, f j = (r : EReal)) :
    ∃ r : ℝ, ∑ j ∈ s, f j = (r : EReal) := by
  refine Finset.sum_induction f (fun v => ∃ r : ℝ, v = (r : EReal)) ?_ ⟨0, EReal.coe_zero.symm⟩ hf
  rintro a b ⟨ra, rfl⟩ ⟨rb, rfl⟩
  exact ⟨ra + rb, (EReal.coe_add ra rb).symm⟩

/-- A finite, nonempty sum of ones, added to zero, is a natural number that is at least 1: the number
    of terms. -/
theorem zero_add_sum_ones {ι : Type} (s : Finset ι) (f : ι → EReal) (hf : ∀ j ∈ s, f j = 1) (hne : s.Nonempty) :
    ∃ n : ℕ, 1 ≤ n ∧ (0 : EReal) + ∑ j ∈ s, f j = ((n : ℝ) : EReal) := by
  refine ⟨s.card, Finset.card_pos.2 hne, ?_⟩
  rw [zero_add, Finset.sum_congr rfl hf, Finset.sum_const, nsmul_one]
  exact EReal.coe_natCast.symm

/-- At the ideal values a scatter with an add body, of real updates into a real operand, has
    only real entries, whatever its dimension numbers and scatter indices are: each result entry is
    an operand entry plus a finite sum of update entries. -/
theorem scatterAdd_real {s si u : Shape} {φ : FTy} (d : ScatterDims s si u) (x : s.Idx → EReal) (idx : IVec si w)
    (upd : u.Idx → EReal) (hx : ∀ y, ∃ r : ℝ, x y = (r : EReal)) (hu : ∀ j, ∃ r : ℝ, upd j = (r : EReal)) :
    ∀ i, ∃ r : ℝ, Host.scatterAdd (F := Ideal) (φ := φ) d x idx upd i = (r : EReal) := by
  intro i
  show ∃ r : ℝ, Ideal.hostScatterAdd d x idx upd i = (r : EReal)
  unfold Ideal.hostScatterAdd
  obtain ⟨a, ha⟩ := hx i
  obtain ⟨b, hb⟩ := sum_real (Finset.univ.filter (fun j => d.resultIdx? j idx = some i)) upd (fun j _ => hu j)
  exact ⟨a + b, by rw [ha, hb, EReal.coe_add]⟩

/-- At the ideal values, scatter-adding updates that are all one into an operand entry that holds zero
    leaves a natural number there, and one that is at least 1 as soon as some update lands on that
    entry: the sum of ones over the updates landing there is the number of them. -/
theorem scatterAdd_ones {s si u : Shape} {φ : FTy} (d : ScatterDims s si u) (x : s.Idx → EReal) (idx : IVec si w)
    (upd : u.Idx → EReal) (i : s.Idx) (hx : x i = 0) (hu : ∀ j, upd j = 1) (j₀ : u.Idx)
    (hj₀ : d.resultIdx? j₀ idx = some i) :
    ∃ n : ℕ, 1 ≤ n ∧ Host.scatterAdd (F := Ideal) (φ := φ) d x idx upd i = ((n : ℝ) : EReal) := by
  show ∃ n : ℕ, 1 ≤ n ∧ Ideal.hostScatterAdd d x idx upd i = ((n : ℝ) : EReal)
  unfold Ideal.hostScatterAdd
  rw [hx]
  exact zero_add_sum_ones _ _ (fun j _ => hu j) ⟨j₀, Finset.mem_filter.2 ⟨Finset.mem_univ _, hj₀⟩⟩

/-! ## Where an update row of a one-column scatter lands -/

/-- An entry of a one-element list is that element, whatever the position is written as. -/
private theorem getElem_of_eq_singleton {β : Type} {l : List β} {b : β} (hl : l = [b]) (i : Nat)
    (hi : i < l.length) : l[i] = b := by
  subst hl
  have hi0 : i = 0 := by simpa using hi
  subst hi0
  rfl

/-- A multi-index read on two equal axes gives the same number. -/
private theorem idx_val_congr {s : Shape} (j : s.Idx) {a b : Fin s.rank} (hab : a = b) :
    (j a).val = (j b).val := by
  subst hab; rfl

/-- The two axes of a rank-2 shape. -/
private theorem fin2_cases (a : Fin 2) : a = 0 ∨ a = 1 := by
  rcases a with ⟨v, hv⟩
  rcases v with _ | _ | v
  · exact Or.inl rfl
  · exact Or.inr rfl
  · omega

section OneColumn

variable (d : ScatterDims S100000x1 S1700000x1 S1700000x1)
  (huw : d.updateWindowDims = [1]) (hiw : d.insertedWindowDims = [0])
  (hsd : d.scatterDimsToOperandDims = [0]) (hiv : d.indexVectorDim = 1)

include huw hiv hsd in
/-- The scatter-indices position update row e reads its one start-index component at: row e,
    column 0 (the index vector lies along axis 1, the updates' one scatter axis is axis 0). -/
private theorem siIdx_eq (j : S1700000x1.Idx) (c : Fin d.scatterDimsToOperandDims.length) :
    d.siIdx j c = ix2 (j 0) (0 : Fin 1) := by
  have huS : d.uScatter = [0] := by
    show Shape.kept _ d.updateWindowDims = [0]
    rw [huw]; rfl
  have hlen : d.scatterDimsToOperandDims.length = 1 := by rw [hsd]; rfl
  have hc0 : c.val = 0 := by
    have := c.isLt; omega
  funext b
  match b with
  | ⟨0, _⟩ =>
    unfold ScatterDims.siIdx
    rw [dif_neg (by rw [hiv]; simp)]
    unfold ScatterDims.siCoord
    apply Fin.ext
    simp only [Fin.val_cast]
    exact idx_val_congr j (getElem_of_eq_singleton huS _ _)
  | ⟨1, _⟩ =>
    unfold ScatterDims.siIdx
    rw [dif_pos (by rw [hiv])]
    apply Fin.ext
    exact hc0

include huw hiv hsd in
/-- On the node axis the window of update row e starts at the scatter index of row e, read signed. -/
private theorem start_zero (j : S1700000x1.Idx) (idx : IVec S1700000x1 w) :
    d.start j idx 0 = (idx (ix2 (j 0) (0 : Fin 1))).toInt := by
  unfold ScatterDims.start
  rw [dif_pos (by rw [hsd]; simp), siIdx_eq d huw hsd hiv]
  rfl

include hsd in
/-- On the column axis, which the scatter indices do not name, every window starts at 0. -/
private theorem start_one (j : S1700000x1.Idx) (idx : IVec S1700000x1 w) : d.start j idx 1 = 0 := by
  unfold ScatterDims.start
  rw [dif_neg (by rw [hsd]; simp)]

include hiw in
/-- The node axis is an inserted window axis: the window coordinate there is 0. -/
private theorem window_zero (j : S1700000x1.Idx) : d.window j 0 = 0 := by
  have hk : d.sKept = [1] := by
    show Shape.kept _ d.insertedWindowDims = [1]
    rw [hiw]; rfl
  unfold ScatterDims.window
  rw [dif_neg (by rw [hk]; simp)]

include huw hiw in
/-- On the column axis the window coordinate is the update's column. -/
private theorem window_one (j : S1700000x1.Idx) : d.window j 1 = (j 1).val := by
  have hk : d.sKept = [1] := by
    show Shape.kept _ d.insertedWindowDims = [1]
    rw [hiw]; rfl
  unfold ScatterDims.window
  rw [dif_pos (by rw [hk]; simp)]
  exact idx_val_congr j (getElem_of_eq_singleton huw _ _)

include huw hiw hsd hiv in
/-- An update row whose scatter index, read signed, is the node number i lands on entry (i, 0). -/
theorem resultIdx_of_toInt (idx : IVec S1700000x1 w) (e : Fin 1700000) (i : Fin 100000)
    (h : (idx (ix2 e (0 : Fin 1))).toInt = (i.val : ℤ)) :
    d.resultIdx? (ix2 e (0 : Fin 1)) idx = some (ix2 i (0 : Fin 1)) := by
  have hs0 : d.start (ix2 e (0 : Fin 1)) idx 0 = (i.val : ℤ) := by
    rw [start_zero d huw hsd hiv]; exact h
  have hs1 : d.start (ix2 e (0 : Fin 1)) idx 1 = 0 := start_one d hsd _ idx
  have hw0 : d.window (ix2 e (0 : Fin 1)) 0 = 0 := window_zero d hiw _
  have hw1 : d.window (ix2 e (0 : Fin 1)) 1 = 0 := by rw [window_one d huw hiw]; rfl
  have hcond : ∀ a, 0 ≤ d.start (ix2 e (0 : Fin 1)) idx a + d.window (ix2 e (0 : Fin 1)) a
      ∧ d.start (ix2 e (0 : Fin 1)) idx a + d.window (ix2 e (0 : Fin 1)) a < S100000x1.size a := by
    intro a
    rcases fin2_cases a with rfl | rfl
    · rw [hs0, hw0]
      have := i.isLt
      show (0 : ℤ) ≤ (i.val : ℤ) + ((0 : ℕ) : ℤ) ∧ (i.val : ℤ) + ((0 : ℕ) : ℤ) < ((100000 : ℕ) : ℤ)
      omega
    · rw [hs1, hw1]
      show (0 : ℤ) ≤ 0 + ((0 : ℕ) : ℤ) ∧ (0 : ℤ) + ((0 : ℕ) : ℤ) < ((1 : ℕ) : ℤ)
      omega
  unfold ScatterDims.resultIdx?
  rw [dif_pos hcond]
  congr 1
  funext a
  apply Fin.ext
  rcases fin2_cases a with rfl | rfl
  · show (d.start (ix2 e (0 : Fin 1)) idx 0 + d.window (ix2 e (0 : Fin 1)) 0).toNat = i.val
    rw [hs0, hw0]; simp
  · show (d.start (ix2 e (0 : Fin 1)) idx 1 + d.window (ix2 e (0 : Fin 1)) 1).toNat = 0
    rw [hs1, hw1]; simp

include huw hiw hsd hiv in
/-- The count. Scatter-adding ones into zeros along a one-column operand gives, at node i, a
    natural number, and one that is at least 1 as soon as some update row carries i as its scatter
    index: the sum of ones over the update entries landing on (i, 0) is the number of them, and that
    row is one of them. -/
theorem count_natural (h17 : S_.BroadcastsInDim S1700000x1 (![] : Fin 0 → Fin S1700000x1.rank))
    (h18 : S_.BroadcastsInDim S100000x1 (![] : Fin 0 → Fin S100000x1.rank))
    (idx : IVec S1700000x1 w) (i : Fin 100000)
    (hex : ∃ e : Fin 1700000, (idx (ix2 e (0 : Fin 1))).toInt = (i.val : ℤ)) :
    ∃ n : ℕ, 1 ≤ n ∧
      Host.scatterAdd (F := Ideal) (φ := .f32) d
        (broadcastInDim S100000x1 ![] h18 (constant (F := Ideal) S_ .f32 0x00000000#32)) idx
        (broadcastInDim S1700000x1 ![] h17 (constant (F := Ideal) S_ .f32 0x3F800000#32)) (ix2 i (0 : Fin 1))
        = ((n : ℝ) : EReal) := by
  obtain ⟨e, he⟩ := hex
  have hz : (broadcastInDim S100000x1 ![] h18 (constant (F := Ideal) S_ .f32 0x00000000#32)) (ix2 i (0 : Fin 1)) = (0 : EReal) := by
    rw [broadcastInDim_scalar_apply, constant_apply, Ideal.ofBits_zero_f32]
  have hone : ∀ j, (broadcastInDim S1700000x1 ![] h17 (constant (F := Ideal) S_ .f32 0x3F800000#32)) j = (1 : EReal) := by
    intro j
    rw [broadcastInDim_scalar_apply, constant_apply, Ideal.ofBits_one_f32]
  exact scatterAdd_ones (φ := .f32) d _ idx _ (ix2 i (0 : Fin 1)) hz hone (ix2 e (0 : Fin 1))
    (resultIdx_of_toInt d huw hiw hsd hiv idx e i he)

end OneColumn

/-! ## The self loop's row of the destination column -/

/-- A column of scatter indices built by laying 1600000 arbitrary words in front of the numbers
    0, 1, …, 99999 and turning the list into a one-column table carries the number i in row
    1600000 + i: that row falls in the second piece, at position i, and an iota reads its
    coordinate. -/
theorem selfloop_index (hb : S1700000.BroadcastsInDim S1700000x1 (![0] : Fin 1 → Fin S1700000x1.rank))
    (hc : Shape.Concatenates [S1600000, S100000] S1700000 0) (d : IVec S1600000 32) (i : Fin 100000) :
    broadcastInDim S1700000x1 ![0] hb (concatenate S1700000 0 [⟨S1600000, d⟩, ⟨S100000, iotaInDim S100000 32 0⟩] hc)
        (ix2 (⟨1600000 + i.val, by omega⟩ : Fin 1700000) (0 : Fin 1)) = BitVec.ofNat 32 i.val := by
  have h1 : broadcastInDim S1700000x1 ![0] hb
        (concatenate S1700000 0 [⟨S1600000, d⟩, ⟨S100000, iotaInDim S100000 32 0⟩] hc)
        (ix2 (⟨1600000 + i.val, by omega⟩ : Fin 1700000) (0 : Fin 1))
      = concatenate S1700000 0 [⟨S1600000, d⟩, ⟨S100000, iotaInDim S100000 32 0⟩] hc
        (ix1 (⟨1600000 + i.val, by omega⟩ : Fin 1700000)) :=
    broadcastInDim_apply _ hb _ _ (ix1 (⟨1600000 + i.val, by omega⟩ : Fin 1700000)) (by
      intro a
      match a with
      | ⟨0, _⟩ =>
        show 1600000 + i.val = if (1700000 : ℕ) = 1 then 0 else 1600000 + i.val
        rw [if_neg (by omega)])
  have h2 : concatenate S1700000 0 [⟨S1600000, d⟩, ⟨S100000, iotaInDim S100000 32 0⟩] hc
        (ix1 (⟨1600000 + i.val, by omega⟩ : Fin 1700000))
      = iotaInDim S100000 32 0 (ix1 i) :=
    concatenate_pair_apply_right (0 : Fin S1700000.rank) d (iotaInDim S100000 32 0) hc _ rfl rfl (ix1 i)
      (by
        intro b hb
        match b with
        | ⟨0, _⟩ => exact absurd rfl hb)
      (by
        show i.val + 1600000 = 1600000 + i.val
        omega)
  rw [h1, h2]
  rfl

/-- Read as a signed integer, that entry is i itself (i is far below 2³¹). -/
theorem selfloop_index_toInt (hb : S1700000.BroadcastsInDim S1700000x1 (![0] : Fin 1 → Fin S1700000x1.rank))
    (hc : Shape.Concatenates [S1600000, S100000] S1700000 0) (d : IVec S1600000 32) (i : Fin 100000) :
    (broadcastInDim S1700000x1 ![0] hb (concatenate S1700000 0 [⟨S1600000, d⟩, ⟨S100000, iotaInDim S100000 32 0⟩] hc)
        (ix2 (⟨1600000 + i.val, by omega⟩ : Fin 1700000) (0 : Fin 1))).toInt = (i.val : ℤ) := by
  rw [selfloop_index]
  have hi := i.isLt
  have hn : (BitVec.ofNat 32 i.val).toNat = i.val := by
    rw [BitVec.toNat_ofNat]; exact Nat.mod_eq_of_lt (by omega)
  rw [BitVec.toInt_eq_toNat_cond, hn, if_pos (by omega)]

/-! ## The mean -/

/-- The mean over in-neighbours. Gather rows of a real matrix, scatter-add them into zeros at the
    rows a destination column names, count the rows landing on each node by scatter-adding ones into
    zeros at the same destinations, and divide the sums by the counts broadcast along the features:
    if every node is the destination of some row, every entry of the quotient is a real number — a
    real sum divided by a natural number that is at least 1. -/
theorem mean_real (dG : GatherDims S100000x128 S1700000x1 S1700000x128)
    (dS : ScatterDims S100000x128 S1700000x1 S1700000x128) (dC : ScatterDims S100000x1 S1700000x1 S1700000x1)
    (huw : dC.updateWindowDims = [1]) (hiw : dC.insertedWindowDims = [0])
    (hsd : dC.scatterDimsToOperandDims = [0]) (hiv : dC.indexVectorDim = 1)
    (h14 : S_.BroadcastsInDim S100000x128 (![] : Fin 0 → Fin S100000x128.rank))
    (h17 : S_.BroadcastsInDim S1700000x1 (![] : Fin 0 → Fin S1700000x1.rank))
    (h18 : S_.BroadcastsInDim S100000x1 (![] : Fin 0 → Fin S100000x1.rank))
    (h21 : S100000x1.BroadcastsInDim S100000x128 (![0, 1] : Fin 2 → Fin S100000x128.rank))
    (x : S100000x128.Idx → EReal) (hx : ∀ y, ∃ r : ℝ, x y = (r : EReal)) (idxS idxD : IVec S1700000x1 32)
    (hself : ∀ i : Fin 100000, ∃ e : Fin 1700000, (idxD (ix2 e (0 : Fin 1))).toInt = (i.val : ℤ)) :
    ∀ y, ∃ r : ℝ,
      Host.divf (F := Ideal) (φ := .f32)
        (Host.scatterAdd dS (broadcastInDim S100000x128 ![] h14 (constant (F := Ideal) S_ .f32 0x00000000#32)) idxD
          (Host.gather dG x idxS))
        (broadcastInDim S100000x128 ![0, 1] h21
          (Host.scatterAdd dC (broadcastInDim S100000x1 ![] h18 (constant (F := Ideal) S_ .f32 0x00000000#32)) idxD
            (broadcastInDim S1700000x1 ![] h17 (constant (F := Ideal) S_ .f32 0x3F800000#32)))) y = (r : EReal) := by
  intro y
  rw [hostDivf_apply]
  -- the numerator: zeros plus a finite sum of gathered entries
  have hzero : ∀ z, ∃ r : ℝ,
      (broadcastInDim S100000x128 ![] h14 (constant (F := Ideal) S_ .f32 0x00000000#32)) z = (r : EReal) := by
    intro z
    exact ⟨0, by rw [broadcastInDim_scalar_apply, constant_apply, Ideal.ofBits_zero_f32, EReal.coe_zero]⟩
  obtain ⟨a, ha⟩ := scatterAdd_real (φ := .f32) dS _ idxD _ hzero (gather_real dG x hx idxS) y
  -- the denominator: the count at the entry's node
  have hb : broadcastInDim S100000x128 ![0, 1] h21
        (Host.scatterAdd (F := Ideal) (φ := .f32) dC
          (broadcastInDim S100000x1 ![] h18 (constant (F := Ideal) S_ .f32 0x00000000#32)) idxD
          (broadcastInDim S1700000x1 ![] h17 (constant (F := Ideal) S_ .f32 0x3F800000#32))) y
      = Host.scatterAdd (F := Ideal) (φ := .f32) dC
          (broadcastInDim S100000x1 ![] h18 (constant (F := Ideal) S_ .f32 0x00000000#32)) idxD
          (broadcastInDim S1700000x1 ![] h17 (constant (F := Ideal) S_ .f32 0x3F800000#32)) (ix2 (y 0) (0 : Fin 1)) :=
    broadcastInDim_apply _ h21 _ y (ix2 (y 0) (0 : Fin 1)) (by
      intro b
      match b with
      | ⟨0, _⟩ =>
        show (y 0).val = if (100000 : ℕ) = 1 then 0 else (y 0).val
        rw [if_neg (by omega)]
      | ⟨1, _⟩ =>
        show (0 : ℕ) = if (1 : ℕ) = 1 then 0 else (y 1).val
        rw [if_pos rfl])
  obtain ⟨n, hn1, hn⟩ := count_natural dC huw hiw hsd hiv h17 h18 idxD (y 0) (hself (y 0))
  have hn0 : (n : ℝ) ≠ 0 := by
    have : (0 : ℝ) < (n : ℝ) := by exact_mod_cast hn1
    exact ne_of_gt this
  rw [ha, hb, hn, Ideal.div_coe hn0]
  exact ⟨a * (1 / (n : ℝ)), (EReal.coe_mul _ _).symm⟩

end Cert.Lib.ScatterMean

end
-- ==== Proof.KValue.lean ====
/-
  The kernel program's result array as a function of its arguments.

  The run's boundary contents are folded back: the second pallas_call's output block by block is the
  batch-normalised rows of what the first one wrote; the host lines between them divide the first call's
  column sums by the node count and take the inverse standard deviation; the first call reads the features, the
  neighbour mean the host computed before it, the two halves of the weight and the bias as a row. With real
  inputs the neighbour mean is real, so the one-pass and two-pass variance agree and the result is the
  reference formula of the specification.
-/
import proofs.«169978_j18459769438300_1_alg».proof.Proof.Gen.KernelIdeal.Frame
import proofs.«169978_j18459769438300_1_alg».proof.Proof.Spec
import proofs.«169978_j18459769438300_1_alg».proof.Proof.KRegion0
import proofs.«169978_j18459769438300_1_alg».proof.Proof.KRegion1
import proofs.«169978_j18459769438300_1_alg».proof.Proof.MathBridge
import proofs.«169978_j18459769438300_1_alg».proof.Proof.LibScatterMean
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem Cert.KernelIdeal Cert.KernelIdeal.Gen

open StableHlo in
/-- Reads a buffer off the fold of host operations: at an operation's own result buffer the operation's function of its
    operands' contents, at any other buffer what was there before it — also inside the pieces of a concatenation. -/
macro "results_rw" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

/-! ## The host lines before the first call -/

/-- The destination column of the edge list with a self loop per node appended, as scatter indices. -/
def dstIdx (ei : IVec S2x1600000 32) : IVec S1700000x1 32 :=
  broadcastInDim S1700000x1 ![0] bcast_S1700000_S1700000x1_0
    (concatenate S1700000 0
      [⟨S1600000, shapeCast S1600000 (extractStridedSlice S1x1600000 ![1, 0] ei slices_S2x1600000_S1x1600000_1_0)
          shapeCasts_S1x1600000_S1600000⟩,
        ⟨S100000, iotaInDim S100000 32 0⟩]
      concatenates_S1600000_S100000_S1700000_d0)

/-- The source column with the self loops appended. -/
def srcCol (ei : IVec S2x1600000 32) : IVec S1700000 32 :=
  concatenate S1700000 0
    [⟨S1600000, shapeCast S1600000 (extractStridedSlice S1x1600000 ![0, 0] ei slices_S2x1600000_S1x1600000_0_0)
        shapeCasts_S1x1600000_S1600000⟩,
      ⟨S100000, iotaInDim S100000 32 0⟩]
    concatenates_S1600000_S100000_S1700000_d0

/-- The gather indices: the source column, a negative index wrapped by the node count. -/
def srcIdx (ei : IVec S2x1600000 32) : IVec S1700000x1 32 :=
  broadcastInDim S1700000x1 ![0] bcast_S1700000_S1700000x1_0
    (select (cmpi .slt (srcCol ei) (broadcastInDim S1700000 ![] bcast_S_S1700000 (constantI S_ 32 0#32)))
      (addi (srcCol ei) (broadcastInDim S1700000 ![] bcast_S_S1700000 (constantI S_ 32 100000#32)))
      (srcCol ei))

/-- The neighbour mean the host computes before the first call: the gathered source rows summed at their
    destinations, over the count of edges arriving there. -/
def aggrK (x : Vec Ideal S100000x128 .f32) (ei : IVec S2x1600000 32) : Vec Ideal S100000x128 .f32 :=
  Host.divf (F := Ideal) (φ := .f32)
    (Host.scatterAdd scatter_S100000x128_S1700000x1_S1700000x128_1_0_0_1
      (broadcastInDim S100000x128 ![] bcast_S_S100000x128 (constant (F := Ideal) S_ .f32 0x00000000#32)) (dstIdx ei)
      (Host.gather gather_S100000x128_S1700000x1_S1700000x128_1_0_n_n_0_1_1128 x (srcIdx ei)))
    (broadcastInDim S100000x128 ![0, 1] bcast_S100000x1_S100000x128_0_1
      (Host.scatterAdd scatter_S100000x1_S1700000x1_S1700000x1_1_0_0_1
        (broadcastInDim S100000x1 ![] bcast_S_S100000x1 (constant (F := Ideal) S_ .f32 0x00000000#32)) (dstIdx ei)
        (broadcastInDim S1700000x1 ![] bcast_S_S1700000x1 (constant (F := Ideal) S_ .f32 0x3F800000#32))))

variable (m : (ℓ : Loc nD τ sig) → Buf (Elt Ideal) ℓ) (ρ : Dev nD → PrngReg)

set_option maxHeartbeats 2000000 in
theorem V1_v22 (c : Dev nD) :
    (V1 m ρ c main_v22 : S100000x128.Idx → EReal)
      = aggrK (m ((c.tc : Thread nD τ).loc main_arg0)) (m ((c.tc : Thread nD τ).loc main_arg1)) := by
  show StableHlo.after hostOps0 (W0 m ρ c) (Proc.devRef .tc main_v22) = _
  dsimp only [hostOps0]
  after_results_simp
  results_rw
  rfl

set_option maxHeartbeats 2000000 in
theorem V1_arg0 (c : Dev nD) :
    (V1 m ρ c main_arg0 : S100000x128.Idx → EReal) = m ((c.tc : Thread nD τ).loc main_arg0) := by
  show StableHlo.after hostOps0 (W0 m ρ c) (Proc.devRef .tc main_arg0) = _
  dsimp only [hostOps0]
  after_results_simp

set_option maxHeartbeats 2000000 in
theorem V1_v23 (c : Dev nD) :
    (V1 m ρ c main_v23 : S128x128.Idx → EReal)
      = extractStridedSlice S128x128 ![0, 0] (m ((c.tc : Thread nD τ).loc main_arg3)) slices_S256x128_S128x128_0_0 := by
  show StableHlo.after hostOps0 (W0 m ρ c) (Proc.devRef .tc main_v23) = _
  dsimp only [hostOps0]
  after_results_simp

set_option maxHeartbeats 2000000 in
theorem V1_v24 (c : Dev nD) :
    (V1 m ρ c main_v24 : S128x128.Idx → EReal)
      = extractStridedSlice S128x128 ![128, 0] (m ((c.tc : Thread nD τ).loc main_arg3)) slices_S256x128_S128x128_128_0 := by
  show StableHlo.after hostOps0 (W0 m ρ c) (Proc.devRef .tc main_v24) = _
  dsimp only [hostOps0]
  after_results_simp

set_option maxHeartbeats 2000000 in
theorem V1_v25 (c : Dev nD) :
    (V1 m ρ c main_v25 : S1x128.Idx → EReal)
      = shapeCast S1x128 (m ((c.tc : Thread nD τ).loc main_arg4)) shapeCasts_S128_S1x128 := by
  show StableHlo.after hostOps0 (W0 m ρ c) (Proc.devRef .tc main_v25) = _
  dsimp only [hostOps0]
  after_results_simp
  rfl

/-! ## The host lines between the two calls, over any contents at the first call's exit -/

section Between
variable (W : Valuation τ sig (Elt Ideal))

theorem H1_v28 : (StableHlo.after hostOps1 W (Proc.devRef .tc main_v28) : S1x128.Idx → EReal)
    = Spec.meanK (W (Proc.devRef .tc main_v26_1)) := by
  dsimp only [hostOps1]
  after_results
  rfl

theorem H1_v35 : (StableHlo.after hostOps1 W (Proc.devRef .tc main_v35) : S1x128.Idx → EReal)
    = Spec.invK (W (Proc.devRef .tc main_v26_1)) (W (Proc.devRef .tc main_v26_2)) := by
  dsimp only [hostOps1]
  after_results
  rfl

theorem H1_v36 : (StableHlo.after hostOps1 W (Proc.devRef .tc main_v36) : S1x128.Idx → EReal)
    = shapeCast S1x128 (W (Proc.devRef .tc main_arg5)) shapeCasts_S128_S1x128 := by
  dsimp only [hostOps1]
  after_results
  rfl

theorem H1_v37 : (StableHlo.after hostOps1 W (Proc.devRef .tc main_v37) : S1x128.Idx → EReal)
    = shapeCast S1x128 (W (Proc.devRef .tc main_arg6)) shapeCasts_S128_S1x128 := by
  dsimp only [hostOps1]
  after_results
  rfl

theorem H1_v26_0 : StableHlo.after hostOps1 W (Proc.devRef .tc main_v26_0) = W (Proc.devRef .tc main_v26_0) := by
  dsimp only [hostOps1]
  after_results

theorem H1_arg0 : StableHlo.after hostOps1 W (Proc.devRef .tc main_arg0) = W (Proc.devRef .tc main_arg0) := by
  dsimp only [hostOps1]
  after_results

end Between

/-! ## Folding the boundaries back -/

/-- The upper half of the weight, entry by entry. -/
theorem upper_apply (Wt : S256x128.Idx → EReal) (k j : Fin 128) :
    extractStridedSlice S128x128 ![0, 0] Wt slices_S256x128_S128x128_0_0 (ix2 k j)
      = Wt (ix2 (⟨k.val, by omega⟩ : Fin 256) j) := by
  unfold extractStridedSlice
  refine congrArg Wt (funext fun a => ?_)
  match a with
  | ⟨0, _⟩ => exact Fin.ext (Nat.zero_add _)
  | ⟨1, _⟩ => exact Fin.ext (Nat.zero_add _)

/-- The lower half of the weight, entry by entry. -/
theorem lower_apply (Wt : S256x128.Idx → EReal) (k j : Fin 128) :
    extractStridedSlice S128x128 ![128, 0] Wt slices_S256x128_S128x128_128_0 (ix2 k j)
      = Wt (ix2 (⟨128 + k.val, by omega⟩ : Fin 256) j) := by
  unfold extractStridedSlice
  refine congrArg Wt (funext fun a => ?_)
  match a with
  | ⟨0, _⟩ => exact Fin.ext rfl
  | ⟨1, _⟩ => exact Fin.ext (Nat.zero_add _)

/-- Real features have a real neighbour mean: every node has its self loop, so no count is zero. -/
theorem aggrK_real (x : Vec Ideal S100000x128 .f32) (ei : IVec S2x1600000 32) (hx : Spec.Real2 x) :
    Spec.Real2 (aggrK x ei) :=
  Cert.Lib.ScatterMean.mean_real gather_S100000x128_S1700000x1_S1700000x128_1_0_n_n_0_1_1128
    scatter_S100000x128_S1700000x1_S1700000x128_1_0_0_1 scatter_S100000x1_S1700000x1_S1700000x1_1_0_0_1 rfl rfl rfl rfl
    bcast_S_S100000x128 bcast_S_S1700000x1 bcast_S_S100000x1 bcast_S100000x1_S100000x128_0_1 x hx (srcIdx ei) (dstIdx ei)
    (fun i => ⟨⟨1600000 + i.val, by omega⟩,
      Cert.Lib.ScatterMean.selfloop_index_toInt bcast_S1700000_S1700000x1_0 concatenates_S1600000_S100000_S1700000_d0 _ i⟩)

/-- The first call's first output at the second call's entry. -/
theorem V3_h (c : Dev nD) :
    (V3 m ρ c main_v26_0 : S100000x128.Idx → EReal)
      = Spec.hK (V1 m ρ c main_arg0) (V1 m ρ c main_v22) (V1 m ρ c main_v23) (V1 m ρ c main_v24) (V1 m ρ c main_v25) :=
  (H1_v26_0 (W2 m ρ c)).trans ((W2_arr m ρ c 5).trans (region0_h (V1 m ρ) c))

theorem V3_x (c : Dev nD) : (V3 m ρ c main_arg0 : S100000x128.Idx → EReal) = V1 m ρ c main_arg0 :=
  (H1_arg0 (W2 m ρ c)).trans ((W2_arr m ρ c 0).trans (((dat0 (V1 m ρ) c).arrAt_in 0 rfl _).trans (A_eq0 (V1 m ρ) c 0)))

theorem W2_sum (c : Dev nD) :
    (W2 m ρ c (Proc.devRef .tc main_v26_1) : S1x128.Idx → EReal)
      = Spec.sumK (V1 m ρ c main_arg0) (V1 m ρ c main_v22) (V1 m ρ c main_v23) (V1 m ρ c main_v24) (V1 m ρ c main_v25) :=
  (W2_arr m ρ c 6).trans (region0_sum (V1 m ρ) c)

theorem W2_sumsq (c : Dev nD) :
    (W2 m ρ c (Proc.devRef .tc main_v26_2) : S1x128.Idx → EReal)
      = Spec.sumsqK (V1 m ρ c main_arg0) (V1 m ρ c main_v22) (V1 m ρ c main_v23) (V1 m ρ c main_v24) (V1 m ρ c main_v25) :=
  (W2_arr m ρ c 7).trans (region0_sumsq (V1 m ρ) c)

set_option maxHeartbeats 2000000 in
theorem W2_arg5 (c : Dev nD) :
    (W2 m ρ c (Proc.devRef .tc main_arg5) : S128.Idx → EReal) = m ((c.tc : Thread nD τ).loc main_arg5) := by
  refine (W2_of_ne m ρ c main_arg5 (by decide)).trans ?_
  show StableHlo.after hostOps0 (W0 m ρ c) (Proc.devRef .tc main_arg5) = _
  dsimp only [hostOps0]
  after_results_simp

set_option maxHeartbeats 2000000 in
theorem W2_arg6 (c : Dev nD) :
    (W2 m ρ c (Proc.devRef .tc main_arg6) : S128.Idx → EReal) = m ((c.tc : Thread nD τ).loc main_arg6) := by
  refine (W2_of_ne m ρ c main_arg6 (by decide)).trans ?_
  show StableHlo.after hostOps0 (W0 m ρ c) (Proc.devRef .tc main_arg6) = _
  dsimp only [hostOps0]
  after_results_simp

/-- The kernel program's result array, for real features, weight and bias: the reference formula of the
    specification at the launch's arguments and the host's neighbour mean. -/
theorem out_value (c : Dev nD)
    (hx : Spec.Real2 (m ((c.tc : Thread nD τ).loc main_arg0))) (hW : Spec.Real2 (m ((c.tc : Thread nD τ).loc main_arg3)))
    (hb : Spec.Real1 (m ((c.tc : Thread nD τ).loc main_arg4))) :
    (W4 m ρ c (Proc.devRef .tc main_v38) : S100000x128.Idx → EReal)
      = Spec.outR (m ((c.tc : Thread nD τ).loc main_arg0))
          (aggrK (m ((c.tc : Thread nD τ).loc main_arg0)) (m ((c.tc : Thread nD τ).loc main_arg1)))
          (m ((c.tc : Thread nD τ).loc main_arg3)) (m ((c.tc : Thread nD τ).loc main_arg4))
          (m ((c.tc : Thread nD τ).loc main_arg5)) (m ((c.tc : Thread nD τ).loc main_arg6)) := by
  refine (W4_arr m ρ c 6).trans ((region1_out (V3 m ρ) c).trans ?_)
  have e28 : (V3 m ρ c main_v28 : S1x128.Idx → EReal) = Spec.meanK (W2 m ρ c (Proc.devRef .tc main_v26_1)) := H1_v28 (W2 m ρ c)
  have e35 : (V3 m ρ c main_v35 : S1x128.Idx → EReal)
      = Spec.invK (W2 m ρ c (Proc.devRef .tc main_v26_1)) (W2 m ρ c (Proc.devRef .tc main_v26_2)) := H1_v35 (W2 m ρ c)
  have e36 : (V3 m ρ c main_v36 : S1x128.Idx → EReal)
      = shapeCast S1x128 (m ((c.tc : Thread nD τ).loc main_arg5)) shapeCasts_S128_S1x128 := by
    rw [← W2_arg5 m ρ c]; exact H1_v36 (W2 m ρ c)
  have e37 : (V3 m ρ c main_v37 : S1x128.Idx → EReal)
      = shapeCast S1x128 (m ((c.tc : Thread nD τ).loc main_arg6)) shapeCasts_S128_S1x128 := by
    rw [← W2_arg6 m ρ c]; exact H1_v37 (W2 m ρ c)
  rw [V3_h m ρ c, V3_x m ρ c, e28, e35, e36, e37, W2_sum m ρ c, W2_sumsq m ρ c,
    V1_arg0 m ρ c, V1_v22 m ρ c, V1_v23 m ρ c, V1_v24 m ρ c, V1_v25 m ρ c]
  exact Cert.Math.outK_eq_outR _ _ _ _ _ _ _ _ _ _ _
    (upper_apply _) (lower_apply _)
    (fun j => shapeCast_a_1a_apply _ shapeCasts_S128_S1x128 0 j)
    (fun j => shapeCast_a_1a_apply _ shapeCasts_S128_S1x128 0 j)
    (fun j => shapeCast_a_1a_apply _ shapeCasts_S128_S1x128 0 j)
    hx (aggrK_real _ _ hx) hW hb

end Cert.KernelIdeal.Val

end
-- ==== Proof.RefValue.lean ====
/-
  The reference's result as one composed term of its argument arrays — the shared neighbour-mean prefix, then the
  linear layer on the concatenated row, the row normalisation, the batch statistics (two-pass variance) and the
  affine map with residual and clipping — and that term read index by index on the extended reals.
-/
import proofs.«169978_j18459769438300_1_alg».proof.Proof.Gen.ReferenceIdeal
import proofs.«169978_j18459769438300_1_alg».proof.Proof.Spec
import proofs.«169978_j18459769438300_1_alg».proof.Proof.MathVar
import Idealize.ShloMosaic.Lib.ValueIdx
import Idealize.ShloMosaic.Lib.IdealHost
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Idealize.ShloMosaic Idealize.ShloMosaic.ValueIdx Cert.ReferenceIdeal
open Cert.ReferenceIdeal.Facts₀

/-- The neighbour mean (self loops included) of `x` along the edges `ei`: @main's operations up to `%26`, composed. -/
def aggrR (x : Vec Ideal S100000x128 .f32) (ei : IVec S2x1600000 32) : Vec Ideal S100000x128 .f32 :=
  have v0 : IVec S1x1600000 32 := extractStridedSlice S1x1600000 ![0, 0] ei slices_S2x1600000_S1x1600000_0_0
  have v1 : IVec S1600000 32 := shapeCast S1600000 v0 shapeCasts_S1x1600000_S1600000
  have v2 : IVec S1x1600000 32 := extractStridedSlice S1x1600000 ![1, 0] ei slices_S2x1600000_S1x1600000_1_0
  have v3 : IVec S1600000 32 := shapeCast S1600000 v2 shapeCasts_S1x1600000_S1600000
  have v8 : IVec S100000 32 := iotaInDim S100000 32 0
  have v9 : IVec S1700000 32 := concatenate S1700000 0 [⟨S1600000, v1⟩, ⟨S100000, v8⟩] concatenates_S1600000_S100000_S1700000_d0
  have v10 : IVec S1700000 32 := concatenate S1700000 0 [⟨S1600000, v3⟩, ⟨S100000, v8⟩] concatenates_S1600000_S100000_S1700000_d0
  have c : IVec S_ 32 := constantI S_ 32 0#32
  have v11 : IVec S1700000 32 := broadcastInDim S1700000 ![] bcast_S_S1700000 c
  have v12 : IVec S1700000 1 := cmpi .slt v9 v11
  have c_0 : IVec S_ 32 := constantI S_ 32 100000#32
  have v13 : IVec S1700000 32 := broadcastInDim S1700000 ![] bcast_S_S1700000 c_0
  have v14 : IVec S1700000 32 := addi v9 v13
  have v15 : IVec S1700000 32 := select v12 v14 v9
  have v16 : IVec S1700000x1 32 := broadcastInDim S1700000x1 ![0] bcast_S1700000_S1700000x1_0 v15
  have v17 : FVec Ideal S1700000x128 .f32 := Host.gather gather_S100000x128_S1700000x1_S1700000x128_1_0_n_n_0_1_1128 x v16
  have cst_1 : FVec Ideal S_ .f32 := constant (F := Ideal) S_ .f32 0x00000000#32
  have v18 : FVec Ideal S100000x128 .f32 := broadcastInDim S100000x128 ![] bcast_S_S100000x128 cst_1
  have v19 : IVec S1700000x1 32 := broadcastInDim S1700000x1 ![0] bcast_S1700000_S1700000x1_0 v10
  have v20 : FVec Ideal S100000x128 .f32 := Host.scatterAdd scatter_S100000x128_S1700000x1_S1700000x128_1_0_0_1 v18 v19 v17
  have cst_2 : FVec Ideal S_ .f32 := constant (F := Ideal) S_ .f32 0x3F800000#32
  have v21 : FVec Ideal S1700000x1 .f32 := broadcastInDim S1700000x1 ![] bcast_S_S1700000x1 cst_2
  have cst_3 : FVec Ideal S_ .f32 := constant (F := Ideal) S_ .f32 0x00000000#32
  have v22 : FVec Ideal S100000x1 .f32 := broadcastInDim S100000x1 ![] bcast_S_S100000x1 cst_3
  have v23 : IVec S1700000x1 32 := broadcastInDim S1700000x1 ![0] bcast_S1700000_S1700000x1_0 v10
  have v24 : FVec Ideal S100000x1 .f32 := Host.scatterAdd scatter_S100000x1_S1700000x1_S1700000x1_1_0_0_1 v22 v23 v21
  have v25 : FVec Ideal S100000x128 .f32 := broadcastInDim S100000x128 ![0, 1] bcast_S100000x1_S100000x128_0_1 v24
  have v26 : FVec Ideal S100000x128 .f32 := Host.divf v20 v25
  v26

/-- @main's operations from `%27` to `%58` (the outlined functions' bodies in place of their calls), composed,
    over the features `x`, the neighbour mean `a` and the parameters. -/
def tailR (x a : Vec Ideal S100000x128 .f32) (W : Vec Ideal S256x128 .f32) (b g be : Vec Ideal S128 .f32) :
    Vec Ideal S100000x128 .f32 :=
  have v27 : FVec Ideal S100000x256 .f32 := concatenate S100000x256 1 [⟨S100000x128, x⟩, ⟨S100000x128, a⟩] concatenates_S100000x128_S100000x128_S100000x256_d1
  have v28 : FVec Ideal S100000x128 .f32 := Host.dotGeneral (φ₁ := .f32) (φ₂ := .f32) dot_S100000x256_S256x128_S100000x128_1_0_0_1_n_n none v27 W
  have v29 : FVec Ideal S1x128 .f32 := broadcastInDim S1x128 ![1] bcast_S128_S1x128_1 b
  have v30 : FVec Ideal S100000x128 .f32 := broadcastInDim S100000x128 ![0, 1] bcast_S1x128_S100000x128_0_1 v29
  have v31 : FVec Ideal S100000x128 .f32 := addf v28 v30
  -- the row norm: the squares summed along the feature axis, the square root
  have n0 : FVec Ideal S100000x128 .f32 := mulf v31 v31
  have n_cst : FVec Ideal S_ .f32 := constant (F := Ideal) S_ .f32 0x00000000#32
  have n1 : FVec Ideal S100000 .f32 := Host.reduceAdd n0 n_cst reducesTo_S100000x128_S100000_d1 h_S_
  have n2 : FVec Ideal S100000x1 .f32 := broadcastInDim S100000x1 ![0] bcast_S100000_S100000x1_0 n1
  have v32 : FVec Ideal S100000x1 .f32 := Host.sqrt n2
  have cst_4 : FVec Ideal S_ .f32 := constant (F := Ideal) S_ .f32 0x2B8CBCCC#32
  have v33 : FVec Ideal S100000x1 .f32 := broadcastInDim S100000x1 ![] bcast_S_S100000x1 cst_4
  have v34 : FVec Ideal S100000x1 .f32 := maximumf v32 v33
  have v35 : FVec Ideal S100000x128 .f32 := broadcastInDim S100000x128 ![0, 1] bcast_S100000x1_S100000x128_0_1 v34
  have v36 : FVec Ideal S100000x128 .f32 := Host.divf v31 v35
  have cst_5 : FVec Ideal S_ .f32 := constant (F := Ideal) S_ .f32 0x00000000#32
  have v37 : FVec Ideal S128 .f32 := Host.reduceAdd v36 cst_5 reducesTo_S100000x128_S128_d0 h_S_
  have cst_6 : FVec Ideal S_ .f32 := constant (F := Ideal) S_ .f32 0x47C35000#32
  have v38 : FVec Ideal S128 .f32 := broadcastInDim S128 ![] bcast_S_S128 cst_6
  have v39 : FVec Ideal S128 .f32 := Host.divf v37 v38
  have c_7 : IVec S_ 32 := constantI S_ 32 0#32
  -- the variance along the node axis, with zero degrees of freedom removed
  have r_cst : FVec Ideal S_ .f32 := constant (F := Ideal) S_ .f32 0x00000000#32
  have r0 : FVec Ideal S128 .f32 := Host.reduceAdd v36 r_cst reducesTo_S100000x128_S128_d0 h_S_
  have r1 : FVec Ideal S1x128 .f32 := broadcastInDim S1x128 ![1] bcast_S128_S1x128_1 r0
  have r_cst_0 : FVec Ideal S_ .f32 := constant (F := Ideal) S_ .f32 0x47C35000#32
  have r2 : FVec Ideal S1x128 .f32 := broadcastInDim S1x128 ![] bcast_S_S1x128 r_cst_0
  have r3 : FVec Ideal S1x128 .f32 := Host.divf r1 r2
  have r4 : FVec Ideal S100000x128 .f32 := broadcastInDim S100000x128 ![0, 1] bcast_S1x128_S100000x128_0_1 r3
  have r5 : FVec Ideal S100000x128 .f32 := subf v36 r4
  have r6 : FVec Ideal S100000x128 .f32 := mulf r5 r5
  have r7 : FVec Ideal S_ .f32 := sitofp (F := Ideal) .f32 c_7
  have r_cst_1 : FVec Ideal S_ .f32 := constant (F := Ideal) S_ .f32 0x47C35000#32
  have r8 : FVec Ideal S_ .f32 := subf r_cst_1 r7
  have r_cst_2 : FVec Ideal S_ .f32 := constant (F := Ideal) S_ .f32 0x00000000#32
  have r9 : FVec Ideal S128 .f32 := Host.reduceAdd r6 r_cst_2 reducesTo_S100000x128_S128_d0 h_S_
  have r10 : FVec Ideal S128 .f32 := broadcastInDim S128 ![] bcast_S_S128 r8
  have r11 : FVec Ideal S128 .f32 := Host.divf r9 r10
  have r_cst_3 : FVec Ideal S_ .f32 := constant (F := Ideal) S_ .f32 0x00000000#32
  have r12 : IVec S_ 1 := cmpf .ogt r8 r_cst_3
  have r_cst_4 : FVec Ideal S_ .f32 := constant (F := Ideal) S_ .f32 0x7FC00000#32
  -- the choice between the quotient and the not-a-number constant
  have w0 : FVec Ideal S_ .f32 := id r_cst_4
  have w1 : FVec Ideal S128 .f32 := broadcastInDim S128 ![] bcast_S_S128 w0
  have v40 : FVec Ideal S128 .f32 := select (broadcastInDim S128 ![] bcast_S_S128 r12) r11 w1
  have v41 : FVec Ideal S1x128 .f32 := broadcastInDim S1x128 ![1] bcast_S128_S1x128_1 v39
  have v42 : FVec Ideal S100000x128 .f32 := broadcastInDim S100000x128 ![0, 1] bcast_S1x128_S100000x128_0_1 v41
  have v43 : FVec Ideal S100000x128 .f32 := subf v36 v42
  have cst_8 : FVec Ideal S_ .f32 := constant (F := Ideal) S_ .f32 0x3727C5AC#32
  have v44 : FVec Ideal S128 .f32 := broadcastInDim S128 ![] bcast_S_S128 cst_8
  have v45 : FVec Ideal S128 .f32 := addf v40 v44
  have v46 : FVec Ideal S128 .f32 := Host.rsqrt v45
  have v47 : FVec Ideal S1x128 .f32 := broadcastInDim S1x128 ![1] bcast_S128_S1x128_1 v46
  have v48 : FVec Ideal S100000x128 .f32 := broadcastInDim S100000x128 ![0, 1] bcast_S1x128_S100000x128_0_1 v47
  have v49 : FVec Ideal S100000x128 .f32 := mulf v43 v48
  have v50 : FVec Ideal S1x128 .f32 := broadcastInDim S1x128 ![1] bcast_S128_S1x128_1 g
  have v51 : FVec Ideal S100000x128 .f32 := broadcastInDim S100000x128 ![0, 1] bcast_S1x128_S100000x128_0_1 v50
  have v52 : FVec Ideal S100000x128 .f32 := mulf v49 v51
  have v53 : FVec Ideal S1x128 .f32 := broadcastInDim S1x128 ![1] bcast_S128_S1x128_1 be
  have v54 : FVec Ideal S100000x128 .f32 := broadcastInDim S100000x128 ![0, 1] bcast_S1x128_S100000x128_0_1 v53
  have v55 : FVec Ideal S100000x128 .f32 := addf v52 v54
  have v56 : FVec Ideal S100000x128 .f32 := addf v55 x
  have cst_9 : FVec Ideal S_ .f32 := constant (F := Ideal) S_ .f32 0x00000000#32
  have v57 : FVec Ideal S100000x128 .f32 := broadcastInDim S100000x128 ![] bcast_S_S100000x128 cst_9
  have v58 : FVec Ideal S100000x128 .f32 := maximumf v56 v57
  v58

/-- The reference's result array as a function of its arguments. -/
def out (x : Vec Ideal S100000x128 .f32) (ei : IVec S2x1600000 32) (W : Vec Ideal S256x128 .f32)
    (b g be : Vec Ideal S128 .f32) : Vec Ideal S100000x128 .f32 :=
  tailR x (aggrR x ei) W b g be

/-! ## The tail in stages

The composed tail is cut at the values the specification names: the linear layer, the row normalisation, the column
mean, the column variance, and the affine map with residual and clipping. -/

/-- The linear layer: the concatenated row times the whole weight, plus the bias along the rows. -/
def linV (x a : FVec Ideal S100000x128 .f32) (W : FVec Ideal S256x128 .f32) (b : FVec Ideal S128 .f32) :
    FVec Ideal S100000x128 .f32 :=
  addf (Host.dotGeneral (φ₁ := .f32) (φ₂ := .f32) dot_S100000x256_S256x128_S100000x128_1_0_0_1_n_n none
      (concatenate S100000x256 1 [⟨S100000x128, x⟩, ⟨S100000x128, a⟩] concatenates_S100000x128_S100000x128_S100000x256_d1) W)
    (broadcastInDim S100000x128 ![0, 1] bcast_S1x128_S100000x128_0_1 (broadcastInDim S1x128 ![1] bcast_S128_S1x128_1 b))

/-- Each row divided by its Euclidean norm floored at the small constant. -/
def unitV (p : FVec Ideal S100000x128 .f32) : FVec Ideal S100000x128 .f32 :=
  Host.divf p (broadcastInDim S100000x128 ![0, 1] bcast_S100000x1_S100000x128_0_1
    (maximumf (Host.sqrt (broadcastInDim S100000x1 ![0] bcast_S100000_S100000x1_0
        (Host.reduceAdd (mulf p p) (constant (F := Ideal) S_ .f32 0x00000000#32) reducesTo_S100000x128_S100000_d1 h_S_)))
      (broadcastInDim S100000x1 ![] bcast_S_S100000x1 (constant (F := Ideal) S_ .f32 0x2B8CBCCC#32))))

/-- The column sums over the nodes divided by the number of nodes. -/
def meanV (u : FVec Ideal S100000x128 .f32) : FVec Ideal S128 .f32 :=
  Host.divf (Host.reduceAdd u (constant (F := Ideal) S_ .f32 0x00000000#32) reducesTo_S100000x128_S128_d0 h_S_)
    (broadcastInDim S128 ![] bcast_S_S128 (constant (F := Ideal) S_ .f32 0x47C35000#32))

/-- The number of nodes less the converted integer zero: the divisor of the variance. -/
def dofV : FVec Ideal S_ .f32 :=
  subf (constant (F := Ideal) S_ .f32 0x47C35000#32) (sitofp (F := Ideal) .f32 (constantI S_ 32 0#32))

/-- The column sums of the squared deviations from the column mean, divided by that divisor where it is positive. -/
def varV (u : FVec Ideal S100000x128 .f32) : FVec Ideal S128 .f32 :=
  select (broadcastInDim S128 ![] bcast_S_S128 (cmpf .ogt dofV (constant (F := Ideal) S_ .f32 0x00000000#32)))
    (Host.divf
      (Host.reduceAdd
        (mulf
          (subf u (broadcastInDim S100000x128 ![0, 1] bcast_S1x128_S100000x128_0_1
            (Host.divf (broadcastInDim S1x128 ![1] bcast_S128_S1x128_1
                (Host.reduceAdd u (constant (F := Ideal) S_ .f32 0x00000000#32) reducesTo_S100000x128_S128_d0 h_S_))
              (broadcastInDim S1x128 ![] bcast_S_S1x128 (constant (F := Ideal) S_ .f32 0x47C35000#32)))))
          (subf u (broadcastInDim S100000x128 ![0, 1] bcast_S1x128_S100000x128_0_1
            (Host.divf (broadcastInDim S1x128 ![1] bcast_S128_S1x128_1
                (Host.reduceAdd u (constant (F := Ideal) S_ .f32 0x00000000#32) reducesTo_S100000x128_S128_d0 h_S_))
              (broadcastInDim S1x128 ![] bcast_S_S1x128 (constant (F := Ideal) S_ .f32 0x47C35000#32))))))
        (constant (F := Ideal) S_ .f32 0x00000000#32) reducesTo_S100000x128_S128_d0 h_S_)
      (broadcastInDim S128 ![] bcast_S_S128 dofV))
    (broadcastInDim S128 ![] bcast_S_S128 (id (constant (F := Ideal) S_ .f32 0x7FC00000#32)))

/-- Centre by the mean, scale by the inverse deviation and the gain, shift, add the input, clip at zero. -/
def bnV (u : FVec Ideal S100000x128 .f32) (m v g be : FVec Ideal S128 .f32) (x : FVec Ideal S100000x128 .f32) :
    FVec Ideal S100000x128 .f32 :=
  maximumf
    (addf
      (addf
        (mulf
          (mulf
            (subf u (broadcastInDim S100000x128 ![0, 1] bcast_S1x128_S100000x128_0_1 (broadcastInDim S1x128 ![1] bcast_S128_S1x128_1 m)))
            (broadcastInDim S100000x128 ![0, 1] bcast_S1x128_S100000x128_0_1 (broadcastInDim S1x128 ![1] bcast_S128_S1x128_1
              (Host.rsqrt (addf v (broadcastInDim S128 ![] bcast_S_S128 (constant (F := Ideal) S_ .f32 0x3727C5AC#32)))))))
          (broadcastInDim S100000x128 ![0, 1] bcast_S1x128_S100000x128_0_1 (broadcastInDim S1x128 ![1] bcast_S128_S1x128_1 g)))
        (broadcastInDim S100000x128 ![0, 1] bcast_S1x128_S100000x128_0_1 (broadcastInDim S1x128 ![1] bcast_S128_S1x128_1 be)))
      x)
    (broadcastInDim S100000x128 ![] bcast_S_S100000x128 (constant (F := Ideal) S_ .f32 0x00000000#32))

/-- The composed tail is the stages composed. -/
theorem tailR_stages (x a : Vec Ideal S100000x128 .f32) (W : Vec Ideal S256x128 .f32) (b g be : Vec Ideal S128 .f32) :
    tailR x a W b g be
      = bnV (unitV (linV x a W b)) (meanV (unitV (linV x a W b))) (varV (unitV (linV x a W b))) g be x := rfl

/-! ## The layout operations read at an index -/

/-- A vector laid along the rows of the node-by-feature rectangle (through a one-row matrix) reads the vector at the column. -/
theorem rowB_apply (v : FVec Ideal S128 .f32) (i : Fin 100000) (j : Fin 128) :
    broadcastInDim S100000x128 ![0, 1] bcast_S1x128_S100000x128_0_1 (broadcastInDim S1x128 ![1] bcast_S128_S1x128_1 v) (ix2 i j)
      = v (ix1 j) := by
  rw [broadcastInDim_apply ![0, 1] bcast_S1x128_S100000x128_0_1 _ (ix2 i j) (ix2 0 j)
      (fun a => by match a with | ⟨0, _⟩ => rfl | ⟨1, _⟩ => rfl),
    broadcastInDim_apply ![1] bcast_S128_S1x128_1 v (ix2 0 j) (ix1 j) (fun a => by match a with | ⟨0, _⟩ => rfl)]

/-- A one-column matrix spread along the features reads the column's entry at the row. -/
theorem colB_apply (v : FVec Ideal S100000x1 .f32) (i : Fin 100000) (j : Fin 128) :
    broadcastInDim S100000x128 ![0, 1] bcast_S100000x1_S100000x128_0_1 v (ix2 i j) = v (ix2 i 0) :=
  broadcastInDim_apply ![0, 1] bcast_S100000x1_S100000x128_0_1 v (ix2 i j) (ix2 i 0)
    (fun a => by match a with | ⟨0, _⟩ => rfl | ⟨1, _⟩ => rfl)

/-- A vector over the nodes as a one-column matrix reads the vector at the row. -/
theorem col1_apply (v : FVec Ideal S100000 .f32) (i : Fin 100000) :
    broadcastInDim S100000x1 ![0] bcast_S100000_S100000x1_0 v (ix2 i 0) = v (ix1 i) :=
  broadcastInDim_apply ![0] bcast_S100000_S100000x1_0 v (ix2 i 0) (ix1 i) (fun a => by match a with | ⟨0, _⟩ => rfl)

/-- A one-row matrix spread down the nodes reads the row's entry at the column. -/
theorem rowM_apply (v : FVec Ideal S1x128 .f32) (i : Fin 100000) (j : Fin 128) :
    broadcastInDim S100000x128 ![0, 1] bcast_S1x128_S100000x128_0_1 v (ix2 i j) = v (ix2 0 j) :=
  broadcastInDim_apply ![0, 1] bcast_S1x128_S100000x128_0_1 v (ix2 i j) (ix2 0 j)
    (fun a => by match a with | ⟨0, _⟩ => rfl | ⟨1, _⟩ => rfl)

/-- A vector over the features as a one-row matrix reads the vector at the column. -/
theorem row1_apply (v : FVec Ideal S128 .f32) (j : Fin 128) :
    broadcastInDim S1x128 ![1] bcast_S128_S1x128_1 v (ix2 0 j) = v (ix1 j) :=
  broadcastInDim_apply ![1] bcast_S128_S1x128_1 v (ix2 0 j) (ix1 j) (fun a => by match a with | ⟨0, _⟩ => rfl)

/-- The sum along the features with the zero word as initial value: a row's sum. -/
theorem rowSum_apply (q : FVec Ideal S100000x128 .f32) (i : Fin 100000) :
    Host.reduceAdd q (constant (F := Ideal) S_ .f32 0x00000000#32) reducesTo_S100000x128_S100000_d1 h_S_ (ix1 i)
      = ∑ j : Fin 128, q (ix2 i j) := by
  rw [hostReduceAdd_apply, Ideal.hostReduceAdd_single reducesTo_S100000x128_S100000_d1
    (by decide : S100000x128.Reduces [1] S100000), constant_apply, Ideal.ofBits_zero_f32, zero_add]
  refine Finset.sum_congr rfl fun k _ => congrArg q (funext fun a => Fin.ext ?_)
  match a with
  | ⟨0, _⟩ => rfl
  | ⟨1, _⟩ => rfl

/-- The sum along the nodes with the zero word as initial value: a column's sum. -/
theorem colSum_apply (q : FVec Ideal S100000x128 .f32) (j : Fin 128) :
    Host.reduceAdd q (constant (F := Ideal) S_ .f32 0x00000000#32) reducesTo_S100000x128_S128_d0 h_S_ (ix1 j)
      = ∑ i : Fin 100000, q (ix2 i j) := by
  rw [hostReduceAdd_apply, Ideal.hostReduceAdd_single reducesTo_S100000x128_S128_d0
    (by decide : S100000x128.Reduces [0] S128), constant_apply, Ideal.ofBits_zero_f32, zero_add]
  refine Finset.sum_congr rfl fun k _ => congrArg q (funext fun a => Fin.ext ?_)
  match a with
  | ⟨0, _⟩ => rfl
  | ⟨1, _⟩ => rfl

/-- The concatenation along the features read at a column: the first array below 128, the second from there. -/
theorem cat_apply (x a : FVec Ideal S100000x128 .f32) (i : Fin 100000) (k : Fin 256) :
    concatenate S100000x256 1 [⟨S100000x128, x⟩, ⟨S100000x128, a⟩] concatenates_S100000x128_S100000x128_S100000x256_d1 (ix2 i k)
      = Spec.cat x a i k := by
  unfold Spec.cat
  by_cases h : k.val < 128
  · rw [dif_pos h]
    exact concatenate_pair_apply_left 1 x a _ (ix2 i k) rfl (ix2 i ⟨k.val, h⟩)
      (fun b => by match b with | ⟨0, _⟩ => rfl | ⟨1, _⟩ => rfl)
  · rw [dif_neg h]
    refine concatenate_pair_apply_right 1 x a _ (ix2 i k) rfl rfl (ix2 i ⟨k.val - 128, by omega⟩)
      (fun b hb => ?_) ?_
    · match b with
      | ⟨0, _⟩ => rfl
      | ⟨1, _⟩ => exact absurd rfl hb
    · show k.val - 128 + 128 = k.val
      omega

/-! ## The product with the weight read at an index -/

theorem dot_lhs_0 (y : S100000x128.Idx) (k : dot_S100000x256_S256x128_S100000x128_1_0_0_1_n_n.contr.Idx) :
    (dot_S100000x256_S256x128_S100000x128_1_0_0_1_n_n.lhsIdx y k 0).val = (y 0).val := by
  unfold DotDims.lhsIdx
  rw [dif_neg (show ¬(0 : Fin S100000x256.rank) ∈ dot_S100000x256_S256x128_S100000x128_1_0_0_1_n_n.lhsBatch by decide),
    dif_pos (show (0 : Fin S100000x256.rank) ∈ dot_S100000x256_S256x128_S100000x128_1_0_0_1_n_n.lhsNonContracting by decide)]
  rfl

theorem dot_lhs_1 (y : S100000x128.Idx) (k : dot_S100000x256_S256x128_S100000x128_1_0_0_1_n_n.contr.Idx) :
    (dot_S100000x256_S256x128_S100000x128_1_0_0_1_n_n.lhsIdx y k 1).val = (k ⟨0, by decide⟩).val :=
  dot_S100000x256_S256x128_S100000x128_1_0_0_1_n_n.lhsIdx_val_of_single rfl y k

theorem dot_rhs_0 (y : S100000x128.Idx) (k : dot_S100000x256_S256x128_S100000x128_1_0_0_1_n_n.contr.Idx) :
    (dot_S100000x256_S256x128_S100000x128_1_0_0_1_n_n.rhsIdx y k 0).val = (k ⟨0, by decide⟩).val :=
  dot_S100000x256_S256x128_S100000x128_1_0_0_1_n_n.rhsIdx_val_of_single rfl y k

theorem dot_rhs_1 (y : S100000x128.Idx) (k : dot_S100000x256_S256x128_S100000x128_1_0_0_1_n_n.contr.Idx) :
    (dot_S100000x256_S256x128_S100000x128_1_0_0_1_n_n.rhsIdx y k 1).val = (y 1).val := by
  unfold DotDims.rhsIdx
  rw [dif_neg (show ¬(1 : Fin S256x128.rank) ∈ dot_S100000x256_S256x128_S100000x128_1_0_0_1_n_n.rhsBatch by decide),
    dif_pos (show (1 : Fin S256x128.rank) ∈ dot_S100000x256_S256x128_S100000x128_1_0_0_1_n_n.rhsNonContracting by decide)]
  rfl

/-- The product of a node-by-256 array with the weight, at a node and a feature: the sum over the 256 columns. -/
theorem dot_apply (l : FVec Ideal S100000x256 .f32) (W : FVec Ideal S256x128 .f32) (i : Fin 100000) (j : Fin 128) :
    Host.dotGeneral (F := Ideal) (φ₁ := .f32) (φ₂ := .f32) dot_S100000x256_S256x128_S100000x128_1_0_0_1_n_n none l W (ix2 i j)
      = ∑ k : Fin 256, l (ix2 i k) * W (ix2 k j) := by
  simp only [Host.dotGeneral]
  rw [Ideal.dotGeneral_apply, ← Equiv.sum_comp (contrEquiv1 dot_S100000x256_S256x128_S100000x128_1_0_0_1_n_n 256 rfl rfl).symm]
  refine Finset.sum_congr rfl fun k _ => ?_
  have hk := contrEquiv1_symm_val dot_S100000x256_S256x128_S100000x128_1_0_0_1_n_n 256 rfl rfl k
  have hl : dot_S100000x256_S256x128_S100000x128_1_0_0_1_n_n.lhsIdx (ix2 i j) ((contrEquiv1 dot_S100000x256_S256x128_S100000x128_1_0_0_1_n_n 256 rfl rfl).symm k) = ix2 i k := by
    funext a
    apply Fin.ext
    match a with
    | ⟨0, _⟩ => exact dot_lhs_0 _ _
    | ⟨1, _⟩ => exact (dot_lhs_1 _ _).trans hk
  have hr : dot_S100000x256_S256x128_S100000x128_1_0_0_1_n_n.rhsIdx (ix2 i j) ((contrEquiv1 dot_S100000x256_S256x128_S100000x128_1_0_0_1_n_n 256 rfl rfl).symm k) = ix2 k j := by
    funext a
    apply Fin.ext
    match a with
    | ⟨0, _⟩ => exact (dot_rhs_0 _ _).trans hk
    | ⟨1, _⟩ => exact dot_rhs_1 _ _
  rw [hl, hr]

/-! ## The stages read at an index -/

/-- The host's square root at an index is the square root of the element. -/
theorem hostSqrt_apply {s : Shape} (v : FVec Ideal s .f32) (y : s.Idx) : Host.sqrt v y = Ideal.sqrt (v y) := rfl
/-- The host's inverse square root at an index is the inverse square root of the element. -/
theorem hostRsqrt_apply {s : Shape} (v : FVec Ideal s .f32) (y : s.Idx) : Host.rsqrt v y = Ideal.rsqrt (v y) := rfl

/-- The linear layer at a node and a feature. -/
theorem linV_apply (x a : FVec Ideal S100000x128 .f32) (W : FVec Ideal S256x128 .f32) (b : FVec Ideal S128 .f32)
    (i : Fin 100000) (j : Fin 128) : linV x a W b (ix2 i j) = Spec.linR x a W b i j := by
  unfold linV Spec.linR
  rw [addf_apply, dot_apply, rowB_apply]
  refine congrArg (fun s => s + b (ix1 j)) ?_
  exact Finset.sum_congr rfl fun k _ => congrArg (fun c => c * W (ix2 k j)) (cat_apply x a i k)

/-- The row normalisation at a node and a feature. -/
theorem unitV_apply (p : FVec Ideal S100000x128 .f32) (i : Fin 100000) (j : Fin 128) :
    unitV p (ix2 i j) = Spec.unit (fun i j => p (ix2 i j)) i j := by
  unfold unitV Spec.unit Spec.rowNorm Spec.normEps
  rw [hostDivf_apply, colB_apply, maximumf_apply, hostSqrt_apply, col1_apply, rowSum_apply, broadcastInDim_scalar_apply,
    constant_apply]
  rfl

/-- The column mean at a feature. -/
theorem meanV_apply (u : FVec Ideal S100000x128 .f32) (j : Fin 128) :
    meanV u (ix1 j) = Spec.meanR (fun i j => u (ix2 i j)) j := by
  unfold meanV Spec.meanR Spec.nodes
  rw [hostDivf_apply, colSum_apply, broadcastInDim_scalar_apply, constant_apply]

/-- The variance's divisor is the number of nodes: the integer zero converts to the real zero. -/
theorem dofV_apply (y : S_.Idx) : dofV y = Spec.nodes := by
  unfold dofV Spec.nodes
  rw [subf_apply, constant_apply, sitofp_apply]
  show Ideal.ofBits .f32 0x47C35000#32 - (((0#32 : BitVec 32).toInt : ℝ) : EReal) = Ideal.ofBits .f32 0x47C35000#32
  rw [show (0#32 : BitVec 32).toInt = 0 from rfl, Int.cast_zero, EReal.coe_zero, sub_zero]

/-- The number of nodes is greater than zero. -/
theorem cmp_nodes : FloatOps.cmpf (F := Ideal) (φ := .f32) .ogt Spec.nodes 0 = 1#1 := by
  rw [Ideal.cmpf_def]
  unfold Ideal.cmp
  have h : (0 : EReal) < Spec.nodes := by
    rw [Cert.Math.nodes_eq]
    exact EReal.coe_pos.mpr (by norm_num)
  simp only [h, decide_true]
  rfl

/-- An entry less its column's mean. -/
theorem centre_apply (u : FVec Ideal S100000x128 .f32) (i : Fin 100000) (j : Fin 128) :
    subf u (broadcastInDim S100000x128 ![0, 1] bcast_S1x128_S100000x128_0_1
        (Host.divf (broadcastInDim S1x128 ![1] bcast_S128_S1x128_1
            (Host.reduceAdd u (constant (F := Ideal) S_ .f32 0x00000000#32) reducesTo_S100000x128_S128_d0 h_S_))
          (broadcastInDim S1x128 ![] bcast_S_S1x128 (constant (F := Ideal) S_ .f32 0x47C35000#32)))) (ix2 i j)
      = u (ix2 i j) - Spec.meanR (fun i j => u (ix2 i j)) j := by
  unfold Spec.meanR Spec.nodes
  rw [subf_apply, rowM_apply, hostDivf_apply, row1_apply, colSum_apply, broadcastInDim_scalar_apply, constant_apply]

/-- The column variance at a feature: the divisor is positive, so the choice is the quotient. -/
theorem varV_apply (u : FVec Ideal S100000x128 .f32) (j : Fin 128) :
    varV u (ix1 j) = Spec.varR (fun i j => u (ix2 i j)) j := by
  unfold varV
  rw [select_apply, broadcastInDim_scalar_apply, cmpf_apply, dofV_apply, constant_apply, Ideal.ofBits_zero_f32, cmp_nodes,
    select_one, hostDivf_apply, colSum_apply, broadcastInDim_scalar_apply, dofV_apply]
  unfold Spec.varR
  refine congrArg (fun s => Ideal.div s Spec.nodes) ?_
  refine Finset.sum_congr rfl fun i _ => ?_
  rw [mulf_apply, centre_apply]

/-- The affine map with residual and clipping at a node and a feature. -/
theorem bnV_apply (u : FVec Ideal S100000x128 .f32) (m v g be : FVec Ideal S128 .f32) (x : FVec Ideal S100000x128 .f32)
    (i : Fin 100000) (j : Fin 128) :
    bnV u m v g be x (ix2 i j)
      = max (((((u (ix2 i j) - m (ix1 j)) * Ideal.rsqrt (v (ix1 j) + Spec.bnEps)) * g (ix1 j)) + be (ix1 j)) + x (ix2 i j)) 0 := by
  unfold bnV Spec.bnEps
  rw [maximumf_apply, addf_apply, addf_apply, mulf_apply, mulf_apply, subf_apply, rowB_apply, rowB_apply, rowB_apply, rowB_apply,
    hostRsqrt_apply, addf_apply, broadcastInDim_scalar_apply, broadcastInDim_scalar_apply, constant_apply, constant_apply,
    Ideal.ofBits_zero_f32]

/-- Read index by index, the composed tail is the specification's reference formula. -/
theorem tailR_eq (x a : Vec Ideal S100000x128 .f32) (W : Vec Ideal S256x128 .f32) (b g be : Vec Ideal S128 .f32) :
    tailR x a W b g be = Spec.outR x a W b g be := by
  funext y
  obtain ⟨i, j, rfl⟩ : ∃ (i : Fin 100000) (j : Fin 128), y = ix2 i j := ⟨y 0, y 1, eq_ix2 y⟩
  have hlin : (fun (i : Fin 100000) (j : Fin 128) => linV x a W b (ix2 i j)) = Spec.linR x a W b :=
    funext fun i => funext fun j => linV_apply x a W b i j
  have hu : (fun (i : Fin 100000) (j : Fin 128) => unitV (linV x a W b) (ix2 i j)) = Spec.unit (Spec.linR x a W b) :=
    funext fun i => funext fun j => by rw [unitV_apply, hlin]
  rw [tailR_stages, bnV_apply, meanV_apply, varV_apply, hu, unitV_apply, hlin]
  rfl

end Cert.ReferenceIdeal.RefValue

end
-- ==== Proof.RefRun.lean ====
/-
  The reference program's run: @main is a straight line of host operations (the outlined functions' bodies listed at
  their calls), so every weakly fair execution terminates with each buffer at the operations' fold over the launch
  contents; the result buffer's fold is the composed term of the arguments, and no operation writes an argument.
-/
import proofs.«169978_j18459769438300_1_alg».proof.Proof.Gen.ReferenceIdeal
import proofs.«169978_j18459769438300_1_alg».proof.Proof.RefValue
import Idealize.ShloMosaic.Lib.StableHlo.Run

set_option maxRecDepth 16384

noncomputable section

namespace Cert.ReferenceIdeal.RefRun

open Idealize.ShloMosaic Idealize.ShloMosaic.TcCoe Idealize.SL.Sem Idealize.ShloMosaic.StableHlo Cert.ReferenceIdeal
open Cert.ReferenceIdeal.Facts₀

section Line

variable {F : FTy → Type} [FloatOps F]

/-- @main's first thirty-three operations, in order: the edge list's two rows, the self loops appended, the gather of the
    source rows, the two scatter-sums (features and counts) and their quotient, the neighbour mean. (The two products over
    the edge features are among them; nothing later reads them.) -/
abbrev opsA : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_arg2 main_arg7 main_v4 ((fun l r => Host.dotGeneral dot_S1600000x2_S2x64_S1600000x64_1_0_0_1_n_n none l r) : (⟨S1600000x2, .f32⟩ : BufTy).Contents (Elt F) → (⟨S2x64, .f32⟩ : BufTy).Contents (Elt F) → (⟨S1600000x64, .f32⟩ : BufTy).Contents (Elt F)),
    StableHlo.nullary main_cst (constant S_ .f32 0x00000000#32),
    StableHlo.unary main_cst main_v5 (broadcastInDim S1600000x64 ![] bcast_S_S1600000x64 : (⟨S_, .f32⟩ : BufTy).Contents (Elt F) → (⟨S1600000x64, .f32⟩ : BufTy).Contents (Elt F)),
    StableHlo.binary main_v4 main_v5 main_v6 (maximumf : (⟨S1600000x64, .f32⟩ : BufTy).Contents (Elt F) → (⟨S1600000x64, .f32⟩ : BufTy).Contents (Elt F) → (⟨S1600000x64, .f32⟩ : BufTy).Contents (Elt F)),
    StableHlo.binary main_v6 main_arg8 main_v7 ((fun l r => Host.dotGeneral dot_S1600000x64_S64x128_S1600000x128_1_0_0_1_n_n none l r) : (⟨S1600000x64, .f32⟩ : BufTy).Contents (Elt F) → (⟨S64x128, .f32⟩ : BufTy).Contents (Elt F) → (⟨S1600000x128, .f32⟩ : BufTy).Contents (Elt F)),
    StableHlo.nullary main_v8 (iotaInDim S100000 32 0),
    StableHlo.binary main_v1 main_v8 main_v9 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v8 main_v10 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_c (constantI S_ 32 0#32),
    StableHlo.unary main_c main_v11 (broadcastInDim S1700000 ![] bcast_S_S1700000 : (⟨S_, .i32⟩ : BufTy).Contents (Elt F) → (⟨S1700000, .i32⟩ : BufTy).Contents (Elt F)),
    StableHlo.binary main_v9 main_v11 main_v12 (cmpi .slt : (⟨S1700000, .i32⟩ : BufTy).Contents (Elt F) → (⟨S1700000, .i32⟩ : BufTy).Contents (Elt F) → (⟨S1700000, .i1⟩ : BufTy).Contents (Elt F)),
    StableHlo.nullary main_c_0 (constantI S_ 32 100000#32),
    StableHlo.unary main_c_0 main_v13 (broadcastInDim S1700000 ![] bcast_S_S1700000 : (⟨S_, .i32⟩ : BufTy).Contents (Elt F) → (⟨S1700000, .i32⟩ : BufTy).Contents (Elt F)),
    StableHlo.binary main_v9 main_v13 main_v14 (addi : (⟨S1700000, .i32⟩ : BufTy).Contents (Elt F) → (⟨S1700000, .i32⟩ : BufTy).Contents (Elt F) → (⟨S1700000, .i32⟩ : BufTy).Contents (Elt F)),
    StableHlo.ternary main_v12 main_v14 main_v9 main_v15 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v15 main_v16 (broadcastInDim S1700000x1 ![0] bcast_S1700000_S1700000x1_0 : (⟨S1700000, .i32⟩ : BufTy).Contents (Elt F) → (⟨S1700000x1, .i32⟩ : BufTy).Contents (Elt F)),
    StableHlo.binary main_arg0 main_v16 main_v17 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.nullary main_cst_1 (constant S_ .f32 0x00000000#32),
    StableHlo.unary main_cst_1 main_v18 (broadcastInDim S100000x128 ![] bcast_S_S100000x128 : (⟨S_, .f32⟩ : BufTy).Contents (Elt F) → (⟨S100000x128, .f32⟩ : BufTy).Contents (Elt F)),
    StableHlo.unary main_v10 main_v19 (broadcastInDim S1700000x1 ![0] bcast_S1700000_S1700000x1_0 : (⟨S1700000, .i32⟩ : BufTy).Contents (Elt F) → (⟨S1700000x1, .i32⟩ : BufTy).Contents (Elt F)),
    StableHlo.ternary main_v18 main_v19 main_v17 main_v20 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.nullary main_cst_2 (constant S_ .f32 0x3F800000#32),
    StableHlo.unary main_cst_2 main_v21 (broadcastInDim S1700000x1 ![] bcast_S_S1700000x1 : (⟨S_, .f32⟩ : BufTy).Contents (Elt F) → (⟨S1700000x1, .f32⟩ : BufTy).Contents (Elt F)),
    StableHlo.nullary main_cst_3 (constant S_ .f32 0x00000000#32),
    StableHlo.unary main_cst_3 main_v22 (broadcastInDim S100000x1 ![] bcast_S_S100000x1 : (⟨S_, .f32⟩ : BufTy).Contents (Elt F) → (⟨S100000x1, .f32⟩ : BufTy).Contents (Elt F)),
    StableHlo.unary main_v10 main_v23 (broadcastInDim S1700000x1 ![0] bcast_S1700000_S1700000x1_0 : (⟨S1700000, .i32⟩ : BufTy).Contents (Elt F) → (⟨S1700000x1, .i32⟩ : BufTy).Contents (Elt F)),
    StableHlo.ternary main_v22 main_v23 main_v21 main_v24 ((fun x i u => Host.scatterAdd scatter_S100000x1_S1700000x1_S1700000x1_1_0_0_1 x i u) : (⟨S100000x1, .f32⟩ : BufTy).Contents (Elt F) → (⟨S1700000x1, .i32⟩ : BufTy).Contents (Elt F) → (⟨S1700000x1, .f32⟩ : BufTy).Contents (Elt F) → (⟨S100000x1, .f32⟩ : BufTy).Contents (Elt F)),
    StableHlo.unary main_v24 main_v25 (broadcastInDim S100000x128 ![0, 1] bcast_S100000x1_S100000x128_0_1 : (⟨S100000x1, .f32⟩ : BufTy).Contents (Elt F) → (⟨S100000x128, .f32⟩ : BufTy).Contents (Elt F)),
    StableHlo.binary main_v20 main_v25 main_v26 (Host.divf : (⟨S100000x128, .f32⟩ : BufTy).Contents (Elt F) → (⟨S100000x128, .f32⟩ : BufTy).Contents (Elt F) → (⟨S100000x128, .f32⟩ : BufTy).Contents (Elt F)) ]

/-- @main's remaining sixty-three operations, in order, the outlined functions' bodies listed at their calls over the
    calls' own buffers: the linear layer on the concatenated row, the row norm (five operations), the division by it, the
    column mean, the column variance (nineteen operations and the three of the choice it ends in), and the affine map with
    the residual and the clip at zero. -/
abbrev opsB : List (HloOp τ sig (Elt F)) :=
  [ StableHlo.binary main_arg0 main_v26 main_v27 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    StableHlo.binary main_v27 main_arg3 main_v28 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg4 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S100000x128 ![0, 1] bcast_S1x128_S100000x128_0_1 : (⟨S1x128, .f32⟩ : BufTy).Contents (Elt F) → (⟨S100000x128, .f32⟩ : BufTy).Contents (Elt F)),
    StableHlo.binary main_v28 main_v30 main_v31 (addf : (⟨S100000x128, .f32⟩ : BufTy).Contents (Elt F) → (⟨S100000x128, .f32⟩ : BufTy).Contents (Elt F) → (⟨S100000x128, .f32⟩ : BufTy).Contents (Elt F)),
    StableHlo.TRef.binary (StableHlo.TRef.of main_v31 : StableHlo.TRef sig ⟨S100000x128, .f32⟩) (StableHlo.TRef.of main_v31 : StableHlo.TRef sig ⟨S100000x128, .f32⟩) main_call0.v0 mulf,
    StableHlo.TRef.nullary main_call0.cst (constant S_ .f32 0x00000000#32),
    StableHlo.TRef.binary main_call0.v0 main_call0.cst main_call0.v1 (fun x v => Host.reduceAdd x v reducesTo_S100000x128_S100000_d1 h_S_),
    StableHlo.TRef.unary main_call0.v1 main_call0.v2 (broadcastInDim S100000x1 ![0] bcast_S100000_S100000x1_0),
    StableHlo.TRef.unary main_call0.v2 main_call0.v3 Host.sqrt,
    StableHlo.nullary main_cst_4 (constant S_ .f32 0x2B8CBCCC#32),
    StableHlo.unary main_cst_4 main_v33 (broadcastInDim S100000x1 ![] bcast_S_S100000x1 : (⟨S_, .f32⟩ : BufTy).Contents (Elt F) → (⟨S100000x1, .f32⟩ : BufTy).Contents (Elt F)),
    StableHlo.binary main_v32 main_v33 main_v34 (maximumf : (⟨S100000x1, .f32⟩ : BufTy).Contents (Elt F) → (⟨S100000x1, .f32⟩ : BufTy).Contents (Elt F) → (⟨S100000x1, .f32⟩ : BufTy).Contents (Elt F)),
    StableHlo.unary main_v34 main_v35 (broadcastInDim S100000x128 ![0, 1] bcast_S100000x1_S100000x128_0_1 : (⟨S100000x1, .f32⟩ : BufTy).Contents (Elt F) → (⟨S100000x128, .f32⟩ : BufTy).Contents (Elt F)),
    StableHlo.binary main_v31 main_v35 main_v36 (Host.divf : (⟨S100000x128, .f32⟩ : BufTy).Contents (Elt F) → (⟨S100000x128, .f32⟩ : BufTy).Contents (Elt F) → (⟨S100000x128, .f32⟩ : BufTy).Contents (Elt F)),
    StableHlo.nullary main_cst_5 (constant S_ .f32 0x00000000#32),
    StableHlo.binary main_v36 main_cst_5 main_v37 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_6 (constant S_ .f32 0x47C35000#32),
    StableHlo.unary main_cst_6 main_v38 (broadcastInDim S128 ![] bcast_S_S128 : (⟨S_, .f32⟩ : BufTy).Contents (Elt F) → (⟨S128, .f32⟩ : BufTy).Contents (Elt F)),
    StableHlo.binary main_v37 main_v38 main_v39 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.TRef.nullary main_call1.cst (constant S_ .f32 0x00000000#32),
    StableHlo.TRef.binary (StableHlo.TRef.of main_v36 : StableHlo.TRef sig ⟨S100000x128, .f32⟩) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (StableHlo.TRef.of main_v36 : StableHlo.TRef sig ⟨S100000x128, .f32⟩) main_call1.v4 main_call1.v5 subf,
    StableHlo.TRef.binary main_call1.v5 main_call1.v5 main_call1.v6 mulf,
    StableHlo.TRef.unary (StableHlo.TRef.of main_c_7 : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v39 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v36 main_v42 main_v43 (subf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x3727C5AC#32),
    StableHlo.unary main_cst_8 main_v44 (broadcastInDim S128 ![] bcast_S_S128 : (⟨S_, .f32⟩ : BufTy).Contents (Elt F) → (⟨S128, .f32⟩ : BufTy).Contents (Elt F)),
    StableHlo.binary main_v40 main_v44 main_v45 (addf : (⟨S128, .f32⟩ : BufTy).Contents (Elt F) → (⟨S128, .f32⟩ : BufTy).Contents (Elt F) → (⟨S128, .f32⟩ : BufTy).Contents (Elt F)),
    StableHlo.unary main_v45 main_v46 (Host.rsqrt : (⟨S128, .f32⟩ : BufTy).Contents (Elt F) → (⟨S128, .f32⟩ : BufTy).Contents (Elt F)),
    StableHlo.unary main_v46 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S100000x128 ![0, 1] bcast_S1x128_S100000x128_0_1 : (⟨S1x128, .f32⟩ : BufTy).Contents (Elt F) → (⟨S100000x128, .f32⟩ : BufTy).Contents (Elt F)),
    StableHlo.binary main_v43 main_v48 main_v49 (mulf : (⟨S100000x128, .f32⟩ : BufTy).Contents (Elt F) → (⟨S100000x128, .f32⟩ : BufTy).Contents (Elt F) → (⟨S100000x128, .f32⟩ : BufTy).Contents (Elt F)),
    StableHlo.unary main_arg5 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S100000x128 ![0, 1] bcast_S1x128_S100000x128_0_1 : (⟨S1x128, .f32⟩ : BufTy).Contents (Elt F) → (⟨S100000x128, .f32⟩ : BufTy).Contents (Elt F)),
    StableHlo.binary main_v49 main_v51 main_v52 (mulf : (⟨S100000x128, .f32⟩ : BufTy).Contents (Elt F) → (⟨S100000x128, .f32⟩ : BufTy).Contents (Elt F) → (⟨S100000x128, .f32⟩ : BufTy).Contents (Elt F)),
    StableHlo.unary main_arg6 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S100000x128 ![0, 1] bcast_S1x128_S100000x128_0_1 : (⟨S1x128, .f32⟩ : BufTy).Contents (Elt F) → (⟨S100000x128, .f32⟩ : BufTy).Contents (Elt F)),
    StableHlo.binary main_v52 main_v54 main_v55 (addf : (⟨S100000x128, .f32⟩ : BufTy).Contents (Elt F) → (⟨S100000x128, .f32⟩ : BufTy).Contents (Elt F) → (⟨S100000x128, .f32⟩ : BufTy).Contents (Elt F)),
    StableHlo.binary main_v55 main_arg0 main_v56 (addf : (⟨S100000x128, .f32⟩ : BufTy).Contents (Elt F) → (⟨S100000x128, .f32⟩ : BufTy).Contents (Elt F) → (⟨S100000x128, .f32⟩ : BufTy).Contents (Elt F)),
    StableHlo.nullary main_cst_9 (constant S_ .f32 0x00000000#32),
    StableHlo.unary main_cst_9 main_v57 (broadcastInDim S100000x128 ![] bcast_S_S100000x128 : (⟨S_, .f32⟩ : BufTy).Contents (Elt F) → (⟨S100000x128, .f32⟩ : BufTy).Contents (Elt F)),
    StableHlo.binary main_v56 main_v57 main_v58 (maximumf : (⟨S100000x128, .f32⟩ : BufTy).Contents (Elt F) → (⟨S100000x128, .f32⟩ : BufTy).Contents (Elt F) → (⟨S100000x128, .f32⟩ : BufTy).Contents (Elt F)) ]

/-- All of @main's ninety-six operations, in order: the two lists above, one after the other. -/
abbrev ops : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_arg2 main_arg7 main_v4 ((fun l r => Host.dotGeneral dot_S1600000x2_S2x64_S1600000x64_1_0_0_1_n_n none l r) : (⟨S1600000x2, .f32⟩ : BufTy).Contents (Elt F) → (⟨S2x64, .f32⟩ : BufTy).Contents (Elt F) → (⟨S1600000x64, .f32⟩ : BufTy).Contents (Elt F)),
    StableHlo.nullary main_cst (constant S_ .f32 0x00000000#32),
    StableHlo.unary main_cst main_v5 (broadcastInDim S1600000x64 ![] bcast_S_S1600000x64 : (⟨S_, .f32⟩ : BufTy).Contents (Elt F) → (⟨S1600000x64, .f32⟩ : BufTy).Contents (Elt F)),
    StableHlo.binary main_v4 main_v5 main_v6 (maximumf : (⟨S1600000x64, .f32⟩ : BufTy).Contents (Elt F) → (⟨S1600000x64, .f32⟩ : BufTy).Contents (Elt F) → (⟨S1600000x64, .f32⟩ : BufTy).Contents (Elt F)),
    StableHlo.binary main_v6 main_arg8 main_v7 ((fun l r => Host.dotGeneral dot_S1600000x64_S64x128_S1600000x128_1_0_0_1_n_n none l r) : (⟨S1600000x64, .f32⟩ : BufTy).Contents (Elt F) → (⟨S64x128, .f32⟩ : BufTy).Contents (Elt F) → (⟨S1600000x128, .f32⟩ : BufTy).Contents (Elt F)),
    StableHlo.nullary main_v8 (iotaInDim S100000 32 0),
    StableHlo.binary main_v1 main_v8 main_v9 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v8 main_v10 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_c (constantI S_ 32 0#32),
    StableHlo.unary main_c main_v11 (broadcastInDim S1700000 ![] bcast_S_S1700000 : (⟨S_, .i32⟩ : BufTy).Contents (Elt F) → (⟨S1700000, .i32⟩ : BufTy).Contents (Elt F)),
    StableHlo.binary main_v9 main_v11 main_v12 (cmpi .slt : (⟨S1700000, .i32⟩ : BufTy).Contents (Elt F) → (⟨S1700000, .i32⟩ : BufTy).Contents (Elt F) → (⟨S1700000, .i1⟩ : BufTy).Contents (Elt F)),
    StableHlo.nullary main_c_0 (constantI S_ 32 100000#32),
    StableHlo.unary main_c_0 main_v13 (broadcastInDim S1700000 ![] bcast_S_S1700000 : (⟨S_, .i32⟩ : BufTy).Contents (Elt F) → (⟨S1700000, .i32⟩ : BufTy).Contents (Elt F)),
    StableHlo.binary main_v9 main_v13 main_v14 (addi : (⟨S1700000, .i32⟩ : BufTy).Contents (Elt F) → (⟨S1700000, .i32⟩ : BufTy).Contents (Elt F) → (⟨S1700000, .i32⟩ : BufTy).Contents (Elt F)),
    StableHlo.ternary main_v12 main_v14 main_v9 main_v15 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v15 main_v16 (broadcastInDim S1700000x1 ![0] bcast_S1700000_S1700000x1_0 : (⟨S1700000, .i32⟩ : BufTy).Contents (Elt F) → (⟨S1700000x1, .i32⟩ : BufTy).Contents (Elt F)),
    StableHlo.binary main_arg0 main_v16 main_v17 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.nullary main_cst_1 (constant S_ .f32 0x00000000#32),
    StableHlo.unary main_cst_1 main_v18 (broadcastInDim S100000x128 ![] bcast_S_S100000x128 : (⟨S_, .f32⟩ : BufTy).Contents (Elt F) → (⟨S100000x128, .f32⟩ : BufTy).Contents (Elt F)),
    StableHlo.unary main_v10 main_v19 (broadcastInDim S1700000x1 ![0] bcast_S1700000_S1700000x1_0 : (⟨S1700000, .i32⟩ : BufTy).Contents (Elt F) → (⟨S1700000x1, .i32⟩ : BufTy).Contents (Elt F)),
    StableHlo.ternary main_v18 main_v19 main_v17 main_v20 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.nullary main_cst_2 (constant S_ .f32 0x3F800000#32),
    StableHlo.unary main_cst_2 main_v21 (broadcastInDim S1700000x1 ![] bcast_S_S1700000x1 : (⟨S_, .f32⟩ : BufTy).Contents (Elt F) → (⟨S1700000x1, .f32⟩ : BufTy).Contents (Elt F)),
    StableHlo.nullary main_cst_3 (constant S_ .f32 0x00000000#32),
    StableHlo.unary main_cst_3 main_v22 (broadcastInDim S100000x1 ![] bcast_S_S100000x1 : (⟨S_, .f32⟩ : BufTy).Contents (Elt F) → (⟨S100000x1, .f32⟩ : BufTy).Contents (Elt F)),
    StableHlo.unary main_v10 main_v23 (broadcastInDim S1700000x1 ![0] bcast_S1700000_S1700000x1_0 : (⟨S1700000, .i32⟩ : BufTy).Contents (Elt F) → (⟨S1700000x1, .i32⟩ : BufTy).Contents (Elt F)),
    StableHlo.ternary main_v22 main_v23 main_v21 main_v24 ((fun x i u => Host.scatterAdd scatter_S100000x1_S1700000x1_S1700000x1_1_0_0_1 x i u) : (⟨S100000x1, .f32⟩ : BufTy).Contents (Elt F) → (⟨S1700000x1, .i32⟩ : BufTy).Contents (Elt F) → (⟨S1700000x1, .f32⟩ : BufTy).Contents (Elt F) → (⟨S100000x1, .f32⟩ : BufTy).Contents (Elt F)),
    StableHlo.unary main_v24 main_v25 (broadcastInDim S100000x128 ![0, 1] bcast_S100000x1_S100000x128_0_1 : (⟨S100000x1, .f32⟩ : BufTy).Contents (Elt F) → (⟨S100000x128, .f32⟩ : BufTy).Contents (Elt F)),
    StableHlo.binary main_v20 main_v25 main_v26 (Host.divf : (⟨S100000x128, .f32⟩ : BufTy).Contents (Elt F) → (⟨S100000x128, .f32⟩ : BufTy).Contents (Elt F) → (⟨S100000x128, .f32⟩ : BufTy).Contents (Elt F)),
    StableHlo.binary main_arg0 main_v26 main_v27 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    StableHlo.binary main_v27 main_arg3 main_v28 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg4 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S100000x128 ![0, 1] bcast_S1x128_S100000x128_0_1 : (⟨S1x128, .f32⟩ : BufTy).Contents (Elt F) → (⟨S100000x128, .f32⟩ : BufTy).Contents (Elt F)),
    StableHlo.binary main_v28 main_v30 main_v31 (addf : (⟨S100000x128, .f32⟩ : BufTy).Contents (Elt F) → (⟨S100000x128, .f32⟩ : BufTy).Contents (Elt F) → (⟨S100000x128, .f32⟩ : BufTy).Contents (Elt F)),
    StableHlo.TRef.binary (StableHlo.TRef.of main_v31 : StableHlo.TRef sig ⟨S100000x128, .f32⟩) (StableHlo.TRef.of main_v31 : StableHlo.TRef sig ⟨S100000x128, .f32⟩) main_call0.v0 mulf,
    StableHlo.TRef.nullary main_call0.cst (constant S_ .f32 0x00000000#32),
    StableHlo.TRef.binary main_call0.v0 main_call0.cst main_call0.v1 (fun x v => Host.reduceAdd x v reducesTo_S100000x128_S100000_d1 h_S_),
    StableHlo.TRef.unary main_call0.v1 main_call0.v2 (broadcastInDim S100000x1 ![0] bcast_S100000_S100000x1_0),
    StableHlo.TRef.unary main_call0.v2 main_call0.v3 Host.sqrt,
    StableHlo.nullary main_cst_4 (constant S_ .f32 0x2B8CBCCC#32),
    StableHlo.unary main_cst_4 main_v33 (broadcastInDim S100000x1 ![] bcast_S_S100000x1 : (⟨S_, .f32⟩ : BufTy).Contents (Elt F) → (⟨S100000x1, .f32⟩ : BufTy).Contents (Elt F)),
    StableHlo.binary main_v32 main_v33 main_v34 (maximumf : (⟨S100000x1, .f32⟩ : BufTy).Contents (Elt F) → (⟨S100000x1, .f32⟩ : BufTy).Contents (Elt F) → (⟨S100000x1, .f32⟩ : BufTy).Contents (Elt F)),
    StableHlo.unary main_v34 main_v35 (broadcastInDim S100000x128 ![0, 1] bcast_S100000x1_S100000x128_0_1 : (⟨S100000x1, .f32⟩ : BufTy).Contents (Elt F) → (⟨S100000x128, .f32⟩ : BufTy).Contents (Elt F)),
    StableHlo.binary main_v31 main_v35 main_v36 (Host.divf : (⟨S100000x128, .f32⟩ : BufTy).Contents (Elt F) → (⟨S100000x128, .f32⟩ : BufTy).Contents (Elt F) → (⟨S100000x128, .f32⟩ : BufTy).Contents (Elt F)),
    StableHlo.nullary main_cst_5 (constant S_ .f32 0x00000000#32),
    StableHlo.binary main_v36 main_cst_5 main_v37 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_6 (constant S_ .f32 0x47C35000#32),
    StableHlo.unary main_cst_6 main_v38 (broadcastInDim S128 ![] bcast_S_S128 : (⟨S_, .f32⟩ : BufTy).Contents (Elt F) → (⟨S128, .f32⟩ : BufTy).Contents (Elt F)),
    StableHlo.binary main_v37 main_v38 main_v39 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.TRef.nullary main_call1.cst (constant S_ .f32 0x00000000#32),
    StableHlo.TRef.binary (StableHlo.TRef.of main_v36 : StableHlo.TRef sig ⟨S100000x128, .f32⟩) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (StableHlo.TRef.of main_v36 : StableHlo.TRef sig ⟨S100000x128, .f32⟩) main_call1.v4 main_call1.v5 subf,
    StableHlo.TRef.binary main_call1.v5 main_call1.v5 main_call1.v6 mulf,
    StableHlo.TRef.unary (StableHlo.TRef.of main_c_7 : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v39 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v36 main_v42 main_v43 (subf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x3727C5AC#32),
    StableHlo.unary main_cst_8 main_v44 (broadcastInDim S128 ![] bcast_S_S128 : (⟨S_, .f32⟩ : BufTy).Contents (Elt F) → (⟨S128, .f32⟩ : BufTy).Contents (Elt F)),
    StableHlo.binary main_v40 main_v44 main_v45 (addf : (⟨S128, .f32⟩ : BufTy).Contents (Elt F) → (⟨S128, .f32⟩ : BufTy).Contents (Elt F) → (⟨S128, .f32⟩ : BufTy).Contents (Elt F)),
    StableHlo.unary main_v45 main_v46 (Host.rsqrt : (⟨S128, .f32⟩ : BufTy).Contents (Elt F) → (⟨S128, .f32⟩ : BufTy).Contents (Elt F)),
    StableHlo.unary main_v46 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S100000x128 ![0, 1] bcast_S1x128_S100000x128_0_1 : (⟨S1x128, .f32⟩ : BufTy).Contents (Elt F) → (⟨S100000x128, .f32⟩ : BufTy).Contents (Elt F)),
    StableHlo.binary main_v43 main_v48 main_v49 (mulf : (⟨S100000x128, .f32⟩ : BufTy).Contents (Elt F) → (⟨S100000x128, .f32⟩ : BufTy).Contents (Elt F) → (⟨S100000x128, .f32⟩ : BufTy).Contents (Elt F)),
    StableHlo.unary main_arg5 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S100000x128 ![0, 1] bcast_S1x128_S100000x128_0_1 : (⟨S1x128, .f32⟩ : BufTy).Contents (Elt F) → (⟨S100000x128, .f32⟩ : BufTy).Contents (Elt F)),
    StableHlo.binary main_v49 main_v51 main_v52 (mulf : (⟨S100000x128, .f32⟩ : BufTy).Contents (Elt F) → (⟨S100000x128, .f32⟩ : BufTy).Contents (Elt F) → (⟨S100000x128, .f32⟩ : BufTy).Contents (Elt F)),
    StableHlo.unary main_arg6 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S100000x128 ![0, 1] bcast_S1x128_S100000x128_0_1 : (⟨S1x128, .f32⟩ : BufTy).Contents (Elt F) → (⟨S100000x128, .f32⟩ : BufTy).Contents (Elt F)),
    StableHlo.binary main_v52 main_v54 main_v55 (addf : (⟨S100000x128, .f32⟩ : BufTy).Contents (Elt F) → (⟨S100000x128, .f32⟩ : BufTy).Contents (Elt F) → (⟨S100000x128, .f32⟩ : BufTy).Contents (Elt F)),
    StableHlo.binary main_v55 main_arg0 main_v56 (addf : (⟨S100000x128, .f32⟩ : BufTy).Contents (Elt F) → (⟨S100000x128, .f32⟩ : BufTy).Contents (Elt F) → (⟨S100000x128, .f32⟩ : BufTy).Contents (Elt F)),
    StableHlo.nullary main_cst_9 (constant S_ .f32 0x00000000#32),
    StableHlo.unary main_cst_9 main_v57 (broadcastInDim S100000x128 ![] bcast_S_S100000x128 : (⟨S_, .f32⟩ : BufTy).Contents (Elt F) → (⟨S100000x128, .f32⟩ : BufTy).Contents (Elt F)),
    StableHlo.binary main_v56 main_v57 main_v58 (maximumf : (⟨S100000x128, .f32⟩ : BufTy).Contents (Elt F) → (⟨S100000x128, .f32⟩ : BufTy).Contents (Elt F) → (⟨S100000x128, .f32⟩ : BufTy).Contents (Elt F)) ]

theorem ops_split : (ops : List (HloOp τ sig (Elt F))) = opsA ++ opsB := by rfl

/-- The fold over two lines run one after the other is the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

-- ninety-six binds compared with the list's fold, the callees' definitions unfolded at their calls
set_option maxHeartbeats 4000000 in
/-- @main is that straight line: with the functions' definitions unfolded at their calls and the two windows run in
    order, both sides are one chain of the same steps. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub ..,
    unary_bufs_sub .., binary_bufs_sub .., binary_bufs_sub .., nullary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., unary_bufs_sub .., binary_bufs_sub .., binary_bufs_sub .., binary_bufs_sub .., unary_bufs_sub ..,
    unary_bufs_sub .., binary_bufs_sub .., binary_bufs_sub .., nullary_bufs_sub .., binary_bufs_sub .., unary_bufs_sub ..,
    unary_bufs_sub .., nullary_bufs_sub .., unary_bufs_sub .., binary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., nullary_bufs_sub .., unary_bufs_sub .., binary_bufs_sub ..⟩

set_option maxHeartbeats 4000000 in
/-- From any memory with zero counters, every weakly fair execution of @main terminates, and every final state has each
    buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## No operation writes an argument -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem head_arg0 (V : Valuation τ sig (Elt F)) :
    after opsA V (main_arg0 : DevRef τ sig) = V (main_arg0 : DevRef τ sig) := by
  after_results_simp

theorem head_arg1 (V : Valuation τ sig (Elt F)) :
    after opsA V (main_arg1 : DevRef τ sig) = V (main_arg1 : DevRef τ sig) := by
  after_results_simp

theorem head_arg3 (V : Valuation τ sig (Elt F)) :
    after opsA V (main_arg3 : DevRef τ sig) = V (main_arg3 : DevRef τ sig) := by
  after_results_simp

theorem head_arg4 (V : Valuation τ sig (Elt F)) :
    after opsA V (main_arg4 : DevRef τ sig) = V (main_arg4 : DevRef τ sig) := by
  after_results_simp

theorem head_arg5 (V : Valuation τ sig (Elt F)) :
    after opsA V (main_arg5 : DevRef τ sig) = V (main_arg5 : DevRef τ sig) := by
  after_results_simp

theorem head_arg6 (V : Valuation τ sig (Elt F)) :
    after opsA V (main_arg6 : DevRef τ sig) = V (main_arg6 : DevRef τ sig) := by
  after_results_simp

end Line

/-! ## The result buffer's fold is the composed term

The two concatenations are read as functions of their two operands, so that one pass over the fold reaches the operands
too; the first thirty-three operations give the neighbour mean, the rest the tail over it. -/

/-- The concatenation of the edge indices and the self-loop indices, as a function of the two. -/
def catI (a : IVec S1600000 32) (b : IVec S100000 32) : IVec S1700000 32 :=
  concatenate S1700000 0 [⟨S1600000, a⟩, ⟨S100000, b⟩] concatenates_S1600000_S100000_S1700000_d0

/-- The concatenation of two feature matrices side by side, as a function of the two. -/
def catF (a b : Vec Ideal S100000x128 .f32) : Vec Ideal S100000x256 .f32 :=
  concatenate S100000x256 1 [⟨S100000x128, a⟩, ⟨S100000x128, b⟩] concatenates_S100000x128_S100000x128_S100000x256_d1

theorem catI_eq (a : IVec S1600000 32) (b : IVec S100000 32) :
    concatenate S1700000 0 [⟨S1600000, a⟩, ⟨S100000, b⟩] concatenates_S1600000_S100000_S1700000_d0 = catI a b := rfl

theorem catF_eq (a b : Vec Ideal S100000x128 .f32) :
    concatenate S100000x256 1 [⟨S100000x128, a⟩, ⟨S100000x128, b⟩] concatenates_S100000x128_S100000x128_S100000x256_d1 = catF a b := rfl

-- the gather, the scatter-sums, the axis sums and the concatenations stay folded while the two sides are compared: the
-- equation never looks inside them
attribute [local irreducible] Host.gather Host.scatterAdd Host.reduceAdd concatenate in
set_option maxHeartbeats 2000000 in
/-- After the first thirty-three operations the quotient's buffer holds the neighbour mean of the launch's features along
    its edges: each operation's result read at its own buffer, every other buffer as it was. -/
theorem head_eq (V : Valuation τ sig (Elt Ideal)) :
    after (opsA (F := Ideal)) V (main_v26 : DevRef τ sig)
      = RefValue.aggrR (V (main_arg0 : DevRef τ sig)) (V (main_arg1 : DevRef τ sig)) := by
  simp (disch := decide) only [after_cons, after_nil, catI_eq, catF_eq,
      nullary_result', unary_result', binary_result', ternary_result', reshape_result',
      nullary_result_ne', unary_result_ne', binary_result_ne', ternary_result_ne', reshape_result_ne']
  rfl

attribute [local irreducible] Host.gather Host.scatterAdd Host.reduceAdd concatenate in
set_option maxHeartbeats 2000000 in
/-- The remaining operations take the features, the neighbour mean and the parameters to the result: the composed tail. -/
theorem tail_eq (W : Valuation τ sig (Elt Ideal)) :
    after (opsB (F := Ideal)) W (main_v58 : DevRef τ sig)
      = RefValue.tailR (W (main_arg0 : DevRef τ sig)) (W (main_v26 : DevRef τ sig)) (W (main_arg3 : DevRef τ sig))
          (W (main_arg4 : DevRef τ sig)) (W (main_arg5 : DevRef τ sig)) (W (main_arg6 : DevRef τ sig)) := by
  simp (disch := decide) only [after_cons, after_nil, catI_eq, catF_eq,
      nullary_result', unary_result', binary_result', ternary_result', reshape_result',
      nullary_result_ne', unary_result_ne', binary_result_ne', ternary_result_ne', reshape_result_ne']
  rfl

/-- The result buffer's fold over all the operations is the composed term of the arguments. -/
theorem out_eq (V : Valuation τ sig (Elt Ideal)) :
    after (ops (F := Ideal)) V (main_v58 : DevRef τ sig)
      = RefValue.out (V (main_arg0 : DevRef τ sig)) (V (main_arg1 : DevRef τ sig)) (V (main_arg3 : DevRef τ sig))
          (V (main_arg4 : DevRef τ sig)) (V (main_arg5 : DevRef τ sig)) (V (main_arg6 : DevRef τ sig)) := by
  rw [ops_split, after_append, tail_eq, head_eq, head_arg0, head_arg3, head_arg4, head_arg5, head_arg6]
  rfl

/-- Every weakly fair execution of the reference's @main terminates without a fault, its result array at the
    composed term of the launch's argument arrays, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v58)
          = RefValue.out (m ((c.tc : Thread nD τ).loc main_arg0)) (m ((c.tc : Thread nD τ).loc main_arg1))
              (m ((c.tc : Thread nD τ).loc main_arg3)) (m ((c.tc : Thread nD τ).loc main_arg4))
              (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := Ideal)) _ _).mono (fun r h c =>
      ⟨(h c main_v58).trans (out_eq (launchContents m c)),
       (h c main_arg0).trans (arg0_eq (launchContents m c)),
       (h c main_arg1).trans (arg1_eq (launchContents m c)),
       (h c main_arg2).trans (arg2_eq (launchContents m c)),
       (h c main_arg3).trans (arg3_eq (launchContents m c)),
       (h c main_arg4).trans (arg4_eq (launchContents m c)),
       (h c main_arg5).trans (arg5_eq (launchContents m c)),
       (h c main_arg6).trans (arg6_eq (launchContents m c)),
       (h c main_arg7).trans (arg7_eq (launchContents m c)),
       (h c main_arg8).trans (arg8_eq (launchContents m c))⟩)
    (run_main m ρ)

end Cert.ReferenceIdeal.RefRun

end
-- ==== Proof.PreReal.lean ====
/-
  From the precondition to real entries: the printed predicate is the conjunction, over the float inputs, of
  "every entry's absolute value is below +infinity"; where it is all ones, every entry of the features, of the
  weight and of the bias is a real number.
-/
import proofs.«169978_j18459769438300_1_alg».proof.Proof.Gen.Pre_finite_inputs
import Idealize.ShloMosaic.PureOps.Ideal
import Idealize.ShloMosaic.Lib.ValueIdx
import Idealize.ShloMosaic.Lib.ReduceAll

set_option maxRecDepth 16384

noncomputable section

namespace Cert.PreReal

open Idealize.ShloMosaic Cert.Pre_finite_inputs

/-- The rank-0 shape has exactly one index. -/
instance : Subsingleton S_.Idx := ⟨fun a b => funext fun d => d.elim0⟩

/-- The f32 pattern `0x7F800000` denotes `+∞`. -/
theorem ofBits_inf : Ideal.ofBits .f32 0x7F800000#32 = (⊤ : EReal) := by
  simp [Ideal.ofBits, Ideal.ieee]

/-- An extended real whose absolute value `max a (-a)` is strictly below `+∞` is a real number: `⊤` fails
    at once, and `-⊥ = ⊤` rules out `⊥`. -/
theorem real_of_abs_lt_top (a : EReal) (h : max a (-a) < ⊤) : ∃ r : ℝ, a = (r : EReal) := by
  induction a using EReal.rec with
  | bot => simp at h
  | coe r => exact ⟨r, rfl⟩
  | top => simp at h

/-- One `jnp.all(|v| < +inf)`: where the reduction by `and` of the comparison of `|v|` against the splat of
    `+∞` is 1, every entry of `v` is a real number. -/
theorem all_real {s : Shape} {axes : List (Fin s.rank)} (v : FVec Ideal s .f32)
    (bc : S_.BroadcastsInDim s (![] : Fin 0 → Fin s.rank)) (hr : s.ReducesTo axes S_) (hu : 0 < S_.numel)
    (e : Host.reduce IntOp.andi
        (cmpf .olt (Host.absf v) (broadcastInDim s ![] bc (constant (F := Ideal) S_ .f32 0x7F800000#32)))
        (constantI S_ 1 1#1) hr hu ValueIdx.ix0 = 1#1) :
    ∀ y, ∃ r : ℝ, v y = (r : EReal) := by
  intro y
  have hy := Host.reduce_andi_all _ _ hr hu _ e y
  have hy' : Ideal.cmp .olt (max (v y) (-(v y))) (Ideal.ofBits .f32 0x7F800000#32) = 1#1 := hy
  rw [ofBits_inf] at hy'
  by_cases hlt : max (v y) (-(v y)) < ⊤
  · exact real_of_abs_lt_top (v y) hlt
  · simp [Ideal.cmp, hlt] at hy'

/-- Where the precondition holds, the features, the weight and the bias hold real numbers only. -/
theorem real_of_pre (x : FVec Ideal S100000x128 .f32) (ei : IVec S2x1600000 32) (ew : FVec Ideal S1600000x2 .f32)
    (W : FVec Ideal S256x128 .f32) (b g be : FVec Ideal S128 .f32) (p1 : FVec Ideal S2x64 .f32) (p2 : FVec Ideal S64x128 .f32)
    (h : Cert.Pre_finite_inputs.fn (F := Ideal) x ei ew W b g be p1 p2 = fun _ => 1#1) :
    (∀ y, ∃ r : ℝ, x y = (r : EReal)) ∧ (∀ y, ∃ r : ℝ, W y = (r : EReal)) ∧ (∀ y, ∃ r : ℝ, b y = (r : EReal)) := by
  have h0 := congrFun h ValueIdx.ix0
  dsimp only [Cert.Pre_finite_inputs.fn, Cert.Pre_finite_inputs.fn_part1, Cert.Pre_finite_inputs.fn_part2,
    Idealize.ShloMosaic.andi] at h0
  obtain ⟨h33, -⟩ := IntOp.andi_eq_one.1 h0
  obtain ⟨h28, -⟩ := IntOp.andi_eq_one.1 h33
  obtain ⟨h23, -⟩ := IntOp.andi_eq_one.1 h28
  obtain ⟨h18, -⟩ := IntOp.andi_eq_one.1 h23
  obtain ⟨h13, h17⟩ := IntOp.andi_eq_one.1 h18
  obtain ⟨h8, h12⟩ := IntOp.andi_eq_one.1 h13
  obtain ⟨h3, -⟩ := IntOp.andi_eq_one.1 h8
  exact ⟨all_real x _ _ _ h3, all_real W _ _ _ h12, all_real b _ _ _ h17⟩

end Cert.PreReal

end
-- ==== Proof.lean ====
/-
  The certificate: a graph layer — neighbour mean, linear layer on the features beside it, unit-length rows,
  batch normalisation over the nodes, residual and clipping — as two pallas_calls with host lines around them,
  against its plain reference.

  The three frames: the two kernel programs' by their generated frame proofs; the reference's by its run, a straight
  line of host operations. The idealised kernel is the printed kernel read on the extended reals (no rewrite to
  account for). The value claim: under the precondition the features, the weight and the bias are real, hence so
  is the neighbour mean (every node has its self loop, so no count is zero) and every normalised row; the
  256-term product is the sum of the two 128-term products, and on real data the mean of the squares minus the
  squared mean is the mean of the squared deviations, so both programs end at the specification's one formula
  of the arguments.
-/
import proofs.«169978_j18459769438300_1_alg».proof.Defs
import proofs.«169978_j18459769438300_1_alg».proof.Proof.Gen.Kernel
import proofs.«169978_j18459769438300_1_alg».proof.Proof.Gen.Kernel.Frame
import proofs.«169978_j18459769438300_1_alg».proof.Proof.Gen.KernelIdeal
import proofs.«169978_j18459769438300_1_alg».proof.Proof.Gen.KernelIdeal.Frame
import proofs.«169978_j18459769438300_1_alg».proof.Proof.Gen.ReferenceIdeal
import proofs.«169978_j18459769438300_1_alg».proof.Proof.Gen.Pre_finite_inputs
import proofs.«169978_j18459769438300_1_alg».proof.Proof.KNamed
import proofs.«169978_j18459769438300_1_alg».proof.Proof.KValue
import proofs.«169978_j18459769438300_1_alg».proof.Proof.RefValue
import proofs.«169978_j18459769438300_1_alg».proof.Proof.RefRun
import proofs.«169978_j18459769438300_1_alg».proof.Proof.PreReal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run m ρ)

/-- The two programs compute the neighbour mean by the same host lines: one function of the features and the
    edge list. -/
theorem aggr_same (x : Vec Ideal Cert.KernelIdeal.S100000x128 .f32) (ei : IVec Cert.KernelIdeal.S2x1600000 32) :
    Cert.ReferenceIdeal.RefValue.aggrR x ei = Cert.KernelIdeal.Val.aggrK x ei := by
  unfold Cert.ReferenceIdeal.RefValue.aggrR Cert.KernelIdeal.Val.aggrK Cert.KernelIdeal.Val.dstIdx
    Cert.KernelIdeal.Val.srcIdx Cert.KernelIdeal.Val.srcCol
  rfl

theorem algebraic : Cert.algebraic_KernelIdeal_ReferenceIdeal := by
  intro m ρ m' ρ' hpre hagree
  have hreal := fun c : Dev Cert.KernelIdeal.nD => Cert.PreReal.real_of_pre _ _ _ _ _ _ _ _ _ (hpre c)
  refine ⟨fun c => Spec.outR (m ((c.tc : Thread Cert.KernelIdeal.nD Cert.KernelIdeal.τ).loc Cert.KernelIdeal.main_arg0))
      (Cert.KernelIdeal.Val.aggrK (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩)
      (Cert.KernelIdeal.Named.run_named (F := Ideal) m ρ)
    exact Cert.KernelIdeal.Val.out_value m ρ c (hreal c).1 (hreal c).2.1 (hreal c).2.2
  · refine (θ_run Cert.ReferenceIdeal.defs _ _).mono (fun r h c => ⟨(h c).1.trans ?_, (h c).2⟩)
      (Cert.ReferenceIdeal.RefRun.run m' ρ')
    unfold Cert.ReferenceIdeal.RefValue.out
    rw [Cert.ReferenceIdeal.RefValue.tailR_eq, (hagree c).1, (hagree c).2.1, (hagree c).2.2.2.1, (hagree c).2.2.2.2.1,
      (hagree c).2.2.2.2.2.1, (hagree c).2.2.2.2.2.2.1, aggr_same]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
